-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x325x12x32 : Shape := ⟨4, ![16, 325, 12, 32]⟩
abbrev S16x325x325 : Shape := ⟨3, ![16, 325, 325]⟩
abbrev S3x384x256 : Shape := ⟨3, ![3, 384, 256]⟩
abbrev S256 : Shape := ⟨1, ![256]⟩
abbrev S3x256x256 : Shape := ⟨3, ![3, 256, 256]⟩
abbrev S3x256x128 : Shape := ⟨3, ![3, 256, 128]⟩
abbrev S128 : Shape := ⟨1, ![128]⟩
abbrev S_ : Shape := ⟨0, ![]⟩

class Facts : Prop where
  bcast_S_S16x325x12x32 : S_.BroadcastsInDim S16x325x12x32 (![] : Fin 0 → Fin S16x325x12x32.rank)
  reducesTo_S16x325x12x32_S_d0_1_2_3 : S16x325x12x32.ReducesTo [0, 1, 2, 3] S_
  h_S_ : 0 < S_.numel
  bcast_S_S16x325x325 : S_.BroadcastsInDim S16x325x325 (![] : Fin 0 → Fin S16x325x325.rank)
  reducesTo_S16x325x325_S_d0_1_2 : S16x325x325.ReducesTo [0, 1, 2] S_
  bcast_S_S3x384x256 : S_.BroadcastsInDim S3x384x256 (![] : Fin 0 → Fin S3x384x256.rank)
  reducesTo_S3x384x256_S_d0_1_2 : S3x384x256.ReducesTo [0, 1, 2] S_
  bcast_S_S256 : S_.BroadcastsInDim S256 (![] : Fin 0 → Fin S256.rank)
  reducesTo_S256_S_d0 : S256.ReducesTo [0] S_
  bcast_S_S3x256x256 : S_.BroadcastsInDim S3x256x256 (![] : Fin 0 → Fin S3x256x256.rank)
  reducesTo_S3x256x256_S_d0_1_2 : S3x256x256.ReducesTo [0, 1, 2] S_
  bcast_S_S3x256x128 : S_.BroadcastsInDim S3x256x128 (![] : Fin 0 → Fin S3x256x128.rank)
  reducesTo_S3x256x128_S_d0_1_2 : S3x256x128.ReducesTo [0, 1, 2] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg4 : FVec F S3x256x256 .f32) (main_arg5 : FVec F S256 .f32) (main_arg6 : FVec F S3x256x128 .f32) (main_arg7 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S3x256x256 .f32 := Host.absf main_arg4
  let main_cst_6 : FVec F S_ .f32 := constant S_ .f32 0x7F800000#32
  let main_v20 : FVec F S3x256x256 .f32 := broadcastInDim S3x256x256 ![] bcast_S_S3x256x256 main_cst_6
  let main_v21 : IVec S3x256x256 1 := cmpf .olt main_v19 main_v20
  let main_c_7 : IVec S_ 1 := constantI S_ 1 1#1
  let main_v22 : IVec S_ 1 := (fun x v => Host.reduce IntOp.andi x v reducesTo_S3x256x256_S_d0_1_2 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S3x256x128 .f32 := Host.absf main_arg6
  let main_cst_10 : FVec F S_ .f32 := constant S_ .f32 0x7F800000#32
  let main_v30 : FVec F S3x256x128 .f32 := broadcastInDim S3x256x128 ![] bcast_S_S3x256x128 main_cst_10
  let main_v31 : IVec S3x256x128 1 := cmpf .olt main_v29 main_v30
  let main_c_11 : IVec S_ 1 := constantI S_ 1 1#1
  let main_v32 : IVec S_ 1 := (fun x v => Host.reduce IntOp.andi x v reducesTo_S3x256x128_S_d0_1_2 h_S_) main_v31 main_c_11
  let main_v33 : IVec S_ 1 := andi main_v28 main_v32
  fn_part2 (F := F) main_arg7 main_v33

def fn {F : FTy → Type} [FloatOps F] (main_arg0 : FVec F S16x325x12x32 .f32) (main_arg1 : FVec F S16x325x325 .f32) (main_arg2 : FVec F S3x384x256 .f32) (main_arg3 : FVec F S256 .f32) (main_arg4 : FVec F S3x256x256 .f32) (main_arg5 : FVec F S256 .f32) (main_arg6 : FVec F S3x256x128 .f32) (main_arg7 : FVec F S128 .f32) : IVec S_ 1 :=
  let main_v0 : FVec F S16x325x12x32 .f32 := Host.absf main_arg0
  let main_cst : FVec F S_ .f32 := constant S_ .f32 0x7F800000#32
  let main_v1 : FVec F S16x325x12x32 .f32 := broadcastInDim S16x325x12x32 ![] bcast_S_S16x325x12x32 main_cst
  let main_v2 : IVec S16x325x12x32 1 := cmpf .olt main_v0 main_v1
  let main_c : IVec S_ 1 := constantI S_ 1 1#1
  let main_v3 : IVec S_ 1 := (fun x v => Host.reduce IntOp.andi x v reducesTo_S16x325x12x32_S_d0_1_2_3 h_S_) main_v2 main_c
  let main_v4 : FVec F S16x325x325 .f32 := Host.absf main_arg1
  let main_cst_0 : FVec F S_ .f32 := constant S_ .f32 0x7F800000#32
  let main_v5 : FVec F S16x325x325 .f32 := broadcastInDim S16x325x325 ![] bcast_S_S16x325x325 main_cst_0
  let main_v6 : IVec S16x325x325 1 := cmpf .olt main_v4 main_v5
  let main_c_1 : IVec S_ 1 := constantI S_ 1 1#1
  let main_v7 : IVec S_ 1 := (fun x v => Host.reduce IntOp.andi x v reducesTo_S16x325x325_S_d0_1_2 h_S_) main_v6 main_c_1
  let main_v8 : IVec S_ 1 := andi main_v3 main_v7
  let main_v9 : FVec F S3x384x256 .f32 := Host.absf main_arg2
  let main_cst_2 : FVec F S_ .f32 := constant S_ .f32 0x7F800000#32
  let main_v10 : FVec F S3x384x256 .f32 := broadcastInDim S3x384x256 ![] bcast_S_S3x384x256 main_cst_2
  let main_v11 : IVec S3x384x256 1 := cmpf .olt main_v9 main_v10
  let main_c_3 : IVec S_ 1 := constantI S_ 1 1#1
  let main_v12 : IVec S_ 1 := (fun x v => Host.reduce IntOp.andi x v reducesTo_S3x384x256_S_d0_1_2 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_v13 main_v16
-- ==== Kernel.lean ====
abbrev S16x325x12x32 : Shape := ⟨4, ![16, 325, 12, 32]⟩
abbrev S16x325x325 : Shape := ⟨3, ![16, 325, 325]⟩
abbrev S3x384x256 : Shape := ⟨3, ![3, 384, 256]⟩
abbrev S256 : Shape := ⟨1, ![256]⟩
abbrev S3x256x256 : Shape := ⟨3, ![3, 256, 256]⟩
abbrev S3x256x128 : Shape := ⟨3, ![3, 256, 128]⟩
abbrev S128 : Shape := ⟨1, ![128]⟩
abbrev S16x325x384 : Shape := ⟨3, ![16, 325, 384]⟩
abbrev S_ : Shape := ⟨0, ![]⟩
abbrev S16x336x384 : Shape := ⟨3, ![16, 336, 384]⟩
abbrev S5376x384 : Shape := ⟨2, ![5376, 384]⟩
abbrev S1x384x256 : Shape := ⟨3, ![1, 384, 256]⟩
abbrev S384x256 : Shape := ⟨2, ![384, 256]⟩
abbrev S384x768 : Shape := ⟨2, ![384, 768]⟩
abbrev S1x256x256 : Shape := ⟨3, ![1, 256, 256]⟩
abbrev S256x256 : Shape := ⟨2, ![256, 256]⟩
abbrev S256x768 : Shape := ⟨2, ![256, 768]⟩
abbrev S1x256x128 : Shape := ⟨3, ![1, 256, 128]⟩
abbrev S256x128 : Shape := ⟨2, ![256, 128]⟩
abbrev S256x384 : Shape := ⟨2, ![256, 384]⟩
abbrev S16x325x128 : Shape := ⟨3, ![16, 325, 128]⟩
abbrev S2688x384 : Shape := ⟨2, ![2688, 384]⟩
abbrev S8x325x325 : Shape := ⟨3, ![8, 325, 325]⟩
abbrev S8x325x128 : Shape := ⟨3, ![8, 325, 128]⟩
abbrev S2688x256 : Shape := ⟨2, ![2688, 256]⟩
abbrev S1x325x325 : Shape := ⟨3, ![1, 325, 325]⟩
abbrev S325x325 : Shape := ⟨2, ![325, 325]⟩
abbrev S325 : Shape := ⟨1, ![325]⟩
abbrev S325x1 : Shape := ⟨2, ![325, 1]⟩
abbrev S1x325 : Shape := ⟨2, ![1, 325]⟩
abbrev S2688x768 : Shape := ⟨2, ![2688, 768]⟩
abbrev S325x256 : Shape := ⟨2, ![325, 256]⟩
abbrev S1x256 : Shape := ⟨2, ![1, 256]⟩
abbrev S326x256 : Shape := ⟨2, ![326, 256]⟩
abbrev S325x128 : Shape := ⟨2, ![325, 128]⟩
abbrev S1x128 : Shape := ⟨2, ![1, 128]⟩
abbrev S1x325x128 : Shape := ⟨3, ![1, 325, 128]⟩

abbrev nBuf : Space → Nat
  | .hbm => 49
  | .vmem => 14
  | .smem => 0
  | _ => 0

abbrev bufTy : (tb : Table) → Fin (tcTables nBuf tb) → BufTy
  | .hbm, ⟨0, _⟩ => ⟨S16x325x12x32, .f32⟩
  | .hbm, ⟨1, _⟩ => ⟨S16x325x325, .f32⟩
  | .hbm, ⟨2, _⟩ => ⟨S3x384x256, .f32⟩
  | .hbm, ⟨3, _⟩ => ⟨S256, .f32⟩
  | .hbm, ⟨4, _⟩ => ⟨S3x256x256, .f32⟩
  | .hbm, ⟨5, _⟩ => ⟨S256, .f32⟩
  | .hbm, ⟨6, _⟩ => ⟨S3x256x128, .f32⟩
  | .hbm, ⟨7, _⟩ => ⟨S128, .f32⟩
  | .hbm, ⟨8, _⟩ => ⟨S16x325x384, .f32⟩
  | .hbm, ⟨9, _⟩ => ⟨S16x325x384, .bf16⟩
  | .hbm, ⟨10, _⟩ => ⟨S_, .i32⟩
  | .hbm, ⟨11, _⟩ => ⟨S_, .bf16⟩
  | .hbm, ⟨12, _⟩ => ⟨S16x336x384, .bf16⟩
  | .hbm, ⟨13, _⟩ => ⟨S5376x384, .bf16⟩
  | .hbm, ⟨14, _⟩ => ⟨S1x384x256, .f32⟩
  | .hbm, ⟨15, _⟩ => ⟨S384x256, .f32⟩
  | .hbm, ⟨16, _⟩ => ⟨S1x384x256, .f32⟩
  | .hbm, ⟨17, _⟩ => ⟨S384x256, .f32⟩
  | .hbm, ⟨18, _⟩ => ⟨S384x256, .f32⟩
  | .hbm, ⟨19, _⟩ => ⟨S1x384x256, .f32⟩
  | .hbm, ⟨20, _⟩ => ⟨S384x256, .f32⟩
  | .hbm, ⟨21, _⟩ => ⟨S1x384x256, .f32⟩
  | .hbm, ⟨22, _⟩ => ⟨S384x256, .f32⟩
  | .hbm, ⟨23, _⟩ => ⟨S384x768, .f32⟩
  | .hbm, ⟨24, _⟩ => ⟨S384x768, .bf16⟩
  | .hbm, ⟨25, _⟩ => ⟨S1x256x256, .f32⟩
  | .hbm, ⟨26, _⟩ => ⟨S256x256, .f32⟩
  | .hbm, ⟨27, _⟩ => ⟨S1x256x256, .f32⟩
  | .hbm, ⟨28, _⟩ => ⟨S256x256, .f32⟩
  | .hbm, ⟨29, _⟩ => ⟨S256x256, .f32⟩
  | .hbm, ⟨30, _⟩ => ⟨S1x256x256, .f32⟩
  | .hbm, ⟨31, _⟩ => ⟨S256x256, .f32⟩
  | .hbm, ⟨32, _⟩ => ⟨S1x256x256, .f32⟩
  | .hbm, ⟨33, _⟩ => ⟨S256x256, .f32⟩
  | .hbm, ⟨34, _⟩ => ⟨S256x768, .f32⟩
  | .hbm, ⟨35, _⟩ => ⟨S256x768, .bf16⟩
  | .hbm, ⟨36, _⟩ => ⟨S1x256x128, .f32⟩
  | .hbm, ⟨37, _⟩ => ⟨S256x128, .f32⟩
  | .hbm, ⟨38, _⟩ => ⟨S1x256x128, .f32⟩
  | .hbm, ⟨39, _⟩ => ⟨S256x128, .f32⟩
  | .hbm, ⟨40, _⟩ => ⟨S256x128, .f32⟩
  | .hbm, ⟨41, _⟩ => ⟨S1x256x128, .f32⟩
  | .hbm, ⟨42, _⟩ => ⟨S256x128, .f32⟩
  | .hbm, ⟨43, _⟩ => ⟨S1x256x128, .f32⟩
  | .hbm, ⟨44, _⟩ => ⟨S256x128, .f32⟩
  | .hbm, ⟨45, _⟩ => ⟨S256x384, .f32⟩
  | .hbm, ⟨46, _⟩ => ⟨S256x384, .bf16⟩
  | .hbm, ⟨47, _⟩ => ⟨S16x325x325, .bf16⟩
  | .hbm, ⟨48, _⟩ => ⟨S16x325x128, .f32⟩
  | .local _ .vmem, ⟨0, _⟩ => ⟨S2688x384, .bf16⟩
  | .local _ .vmem, ⟨1, _⟩ => ⟨S2688x384, .bf16⟩
  | .local _ .vmem, ⟨2, _⟩ => ⟨S8x325x325, .bf16⟩
  | .local _ .vmem, ⟨3, _⟩ => ⟨S8x325x325, .bf16⟩
  | .local _ .vmem, ⟨4, _⟩ => ⟨S384x768, .bf16⟩
  | .local _ .vmem, ⟨5, _⟩ => ⟨S256, .f32⟩
  | .local _ .vmem, ⟨6, _⟩ => ⟨S256x768, .bf16⟩
  | .local _ .vmem, ⟨7, _⟩ => ⟨S256, .f32⟩
  | .local _ .vmem, ⟨8, _⟩ => ⟨S256x384, .bf16⟩
  | .local _ .vmem, ⟨9, _⟩ => ⟨S128, .f32⟩
  | .local _ .vmem, ⟨10, _⟩ => ⟨S8x325x128, .f32⟩
  | .local _ .vmem, ⟨11, _⟩ => ⟨S8x325x128, .f32⟩
  | .local _ .vmem, ⟨12, _⟩ => ⟨S2688x256, .bf16⟩
  | .local _ .vmem, ⟨13, _⟩ => ⟨S2688x256, .bf16⟩
  | _, _ => ⟨S16x325x12x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call0_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2688x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x325x325 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S384x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x384 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S8x325x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S16x325x12x32_S16x325x384 : S16x325x12x32.ShapeCasts S16x325x384
  bitsLt_bf16_f32 : FTy.bits .bf16 < FTy.bits .f32
  pads_S16x325x384_S16x336x384_000_0110_000 : S16x325x384.Pads (![0, 0, 0] : Fin 3 → Nat) ![0, 11, 0] ![0, 0, 0] S16x336x384
  h_S_ : 0 < S_.numel
  shapeCasts_S16x336x384_S5376x384 : S16x336x384.ShapeCasts S5376x384
  slices_S3x384x256_S1x384x256_0_0_0 : S3x384x256.Slices ![0, 0, 0] S1x384x256
  shapeCasts_S1x384x256_S384x256 : S1x384x256.ShapeCasts S384x256
  slices_S3x384x256_S1x384x256_2_0_0 : S3x384x256.Slices ![2, 0, 0] S1x384x256
  slices_S3x384x256_S1x384x256_1_0_0 : S3x384x256.Slices ![1, 0, 0] S1x384x256
  concatenates_S384x256_S384x256_S384x256_S384x768_d1 : Shape.Concatenates [S384x256, S384x256, S384x256] S384x768 1
  slices_S3x256x256_S1x256x256_0_0_0 : S3x256x256.Slices ![0, 0, 0] S1x256x256
  shapeCasts_S1x256x256_S256x256 : S1x256x256.ShapeCasts S256x256
  slices_S3x256x256_S1x256x256_2_0_0 : S3x256x256.Slices ![2, 0, 0] S1x256x256
  slices_S3x256x256_S1x256x256_1_0_0 : S3x256x256.Slices ![1, 0, 0] S1x256x256
  concatenates_S256x256_S256x256_S256x256_S256x768_d1 : Shape.Concatenates [S256x256, S256x256, S256x256] S256x768 1
  slices_S3x256x128_S1x256x128_0_0_0 : S3x256x128.Slices ![0, 0, 0] S1x256x128
  shapeCasts_S1x256x128_S256x128 : S1x256x128.ShapeCasts S256x128
  slices_S3x256x128_S1x256x128_2_0_0 : S3x256x128.Slices ![2, 0, 0] S1x256x128
  slices_S3x256x128_S1x256x128_1_0_0 : S3x256x128.Slices ![1, 0, 0] S1x256x128
  concatenates_S256x128_S256x128_S256x128_S256x384_d1 : Shape.Concatenates [S256x128, S256x128, S256x128] S256x384 1
  inb_S384x768_S384x768_0_0 : ∀ a, (![0, 0] : Fin 2 → Nat) a + S384x768.size a ≤ S384x768.size a
  h_S384x768 : 0 < S384x768.numel
  shapeCasts_S384x768_S384x768 : S384x768.ShapeCasts S384x768
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S256x384_S256x384_0_0 : ∀ a, (![0, 0] : Fin 2 → Nat) a + S256x384.size a ≤ S256x384.size a
  h_S256x384 : 0 < S256x384.numel
  shapeCasts_S256x384_S256x384 : S256x384.ShapeCasts S256x384
  inb_S8x325x325_S1x325x325_0_0_0 : ∀ a, (![0, 0, 0] : Fin 3 → Nat) a + S1x325x325.size a ≤ S8x325x325.size a
  h_S1x325x325 : 0 < S1x325x325.numel
  shapeCasts_S1x325x325_S325x325 : S1x325x325.ShapeCasts S325x325
  reduces_S325x325_S325 : S325x325.Reduces [1] S325
  shapeCasts_S325_S325x1 : S325.ShapeCasts S325x1
  broadcasts_S325x1_S325x325 : S325x1.Broadcasts S325x325
  shapeCasts_S325_S1x325 : S325.ShapeCasts S1x325
  broadcasts_S1x325_S325x325 : S1x325.Broadcasts S325x325
  inb_S8x325x325_S1x325x325_1_0_0 : ∀ a, (![1, 0, 0] : Fin 3 → Nat) a + S1x325x325.size a ≤ S8x325x325.size a
  inb_S8x325x325_S1x325x325_2_0_0 : ∀ a, (![2, 0, 0] : Fin 3 → Nat) a + S1x325x325.size a ≤ S8x325x325.size a
  inb_S8x325x325_S1x325x325_3_0_0 : ∀ a, (![3, 0, 0] : Fin 3 → Nat) a + S1x325x325.size a ≤ S8x325x325.size a
  inb_S8x325x325_S1x325x325_4_0_0 : ∀ a, (![4, 0, 0] : Fin 3 → Nat) a + S1x325x325.size a ≤ S8x325x325.size a
  inb_S8x325x325_S1x325x325_5_0_0 : ∀ a, (![5, 0, 0] : Fin 3 → Nat) a + S1x325x325.size a ≤ S8x325x325.size a
  inb_S8x325x325_S1x325x325_6_0_0 : ∀ a, (![6, 0, 0] : Fin 3 → Nat) a + S1x325x325.size a ≤ S8x325x325.size a
  inb_S8x325x325_S1x325x325_7_0_0 : ∀ a, (![7, 0, 0] : Fin 3 → Nat) a + S1x325x325.size a ≤ S8x325x325.size a
  inb_S2688x384_S2688x384_0_0 : ∀ a, (![0, 0] : Fin 2 → Nat) a + S2688x384.size a ≤ S2688x384.size a
  h_S2688x384 : 0 < S2688x384.numel
  shapeCasts_S2688x384_S2688x384 : S2688x384.ShapeCasts S2688x384
  inb_S256_S256_0 : ∀ a, (![0] : Fin 1 → Nat) a + S256.size a ≤ S256.size a
  h_S256 : 0 < S256.numel
  slices_S2688x768_o0_256_S325x256 : S2688x768.Slices ![0, 256] S325x256
  slices_S2688x768_o0_512_S325x256 : S2688x768.Slices ![0, 512] S325x256
  slices_S2688x768_o0_0_S325x256 : S2688x768.Slices ![0, 0] S325x256
  shapeCasts_S256_S1x256 : S256.ShapeCasts S1x256
  broadcasts_S1x256_S325x256 : S1x256.Broadcasts S325x256
  inb_S2688x256_S325x256_0_0 : ∀ a, (![0, 0] : Fin 2 → Nat) a + S325x256.size a ≤ S2688x256.size a
  h_S325x256 : 0 < S325x256.numel
  shapeCasts_S325x256_S325x256 : S325x256.ShapeCasts S325x256
  inb_S2688x256_S326x256_0_0 : ∀ a, (![0, 0] : Fin 2 → Nat) a + S326x256.size a ≤ S2688x256.size a
  h_S326x256 : 0 < S326x256.numel
  slices_S326x256_S325x256_0_0 : S326x256.Slices ![0, 0] S325x256
  packedbf16_S2688x256_S326x256_0_0 : (Rect.unit (s := S2688x256) ![0, 0] S326x256.size inb_S2688x256_S326x256_0_0).PackedRows (EltTy.packing .bf16)
  slices_S2688x768_o336_256_S325x256 : S2688x768.Slices ![336, 256] S325x256
  slices_S2688x768_o336_512_S325x256 : S2688x768.Slices ![336, 512] S325x256
  slices_S2688x768_o336_0_S325x256 : S2688x768.Slices ![336, 0] S325x256
  inb_S2688x256_S325x256_336_0 : ∀ a, (![336, 0] : Fin 2 → Nat) a + S325x256.size a ≤ S2688x256.size a
  inb_S2688x256_S326x256_336_0 : ∀ a, (![336, 0] : Fin 2 → Nat) a + S326x256.size a ≤ S2688x256.size a
  packedbf16_S2688x256_S326x256_336_0 : (Rect.unit (s := S2688x256) ![336, 0] S326x256.size inb_S2688x256_S326x256_336_0).PackedRows (EltTy.packing .bf16)
  slices_S2688x768_o672_256_S325x256 : S2688x768.Slices ![672, 256] S325x256
  slices_S2688x768_o672_512_S325x256 : S2688x768.Slices ![672, 512] S325x256
  slices_S2688x768_o672_0_S325x256 : S2688x768.Slices ![672, 0] S325x256
  inb_S2688x256_S325x256_672_0 : ∀ a, (![672, 0] : Fin 2 → Nat) a + S325x256.size a ≤ S2688x256.size a
  inb_S2688x256_S326x256_672_0 : ∀ a, (![672, 0] : Fin 2 → Nat) a + S326x256.size a ≤ S2688x256.size a
  packedbf16_S2688x256_S326x256_672_0 : (Rect.unit (s := S2688x256) ![672, 0] S326x256.size inb_S2688x256_S326x256_672_0).PackedRows (EltTy.packing .bf16)
  slices_S2688x768_o1008_256_S325x256 : S2688x768.Slices ![1008, 256] S325x256
  slices_S2688x768_o1008_512_S325x256 : S2688x768.Slices ![1008, 512] S325x256
  slices_S2688x768_o1008_0_S325x256 : S2688x768.Slices ![1008, 0] S325x256
  inb_S2688x256_S325x256_1008_0 : ∀ a, (![1008, 0] : Fin 2 → Nat) a + S325x256.size a ≤ S2688x256.size a
  inb_S2688x256_S326x256_1008_0 : ∀ a, (![1008, 0] : Fin 2 → Nat) a + S326x256.size a ≤ S2688x256.size a
  packedbf16_S2688x256_S326x256_1008_0 : (Rect.unit (s := S2688x256) ![1008, 0] S326x256.size inb_S2688x256_S326x256_1008_0).PackedRows (EltTy.packing .bf16)
  slices_S2688x768_o1344_256_S325x256 : S2688x768.Slices ![1344, 256] S325x256
  slices_S2688x768_o1344_512_S325x256 : S2688x768.Slices ![1344, 512] S325x256
  slices_S2688x768_o1344_0_S325x256 : S2688x768.Slices ![1344, 0] S325x256
  inb_S2688x256_S325x256_1344_0 : ∀ a, (![1344, 0] : Fin 2 → Nat) a + S325x256.size a ≤ S2688x256.size a
  inb_S2688x256_S326x256_1344_0 : ∀ a, (![1344, 0] : Fin 2 → Nat) a + S326x256.size a ≤ S2688x256.size a
  packedbf16_S2688x256_S326x256_1344_0 : (Rect.unit (s := S2688x256) ![1344, 0] S326x256.size inb_S2688x256_S326x256_1344_0).PackedRows (EltTy.packing .bf16)
  slices_S2688x768_o1680_256_S325x256 : S2688x768.Slices ![1680, 256] S325x256
  slices_S2688x768_o1680_512_S325x256 : S2688x768.Slices ![1680, 512] S325x256
  slices_S2688x768_o1680_0_S325x256 : S2688x768.Slices ![1680, 0] S325x256
  inb_S2688x256_S325x256_1680_0 : ∀ a, (![1680, 0] : Fin 2 → Nat) a + S325x256.size a ≤ S2688x256.size a
  inb_S2688x256_S326x256_1680_0 : ∀ a, (![1680, 0] : Fin 2 → Nat) a + S326x256.size a ≤ S2688x256.size a
  packedbf16_S2688x256_S326x256_1680_0 : (Rect.unit (s := S2688x256) ![1680, 0] S326x256.size inb_S2688x256_S326x256_1680_0).PackedRows (EltTy.packing .bf16)
  slices_S2688x768_o2016_256_S325x256 : S2688x768.Slices ![2016, 256] S325x256
  slices_S2688x768_o2016_512_S325x256 : S2688x768.Slices ![2016, 512] S325x256
  slices_S2688x768_o2016_0_S325x256 : S2688x768.Slices ![2016, 0] S325x256
  inb_S2688x256_S325x256_2016_0 : ∀ a, (![2016, 0] : Fin 2 → Nat) a + S325x256.size a ≤ S2688x256.size a
  inb_S2688x256_S326x256_2016_0 : ∀ a, (![2016, 0] : Fin 2 → Nat) a + S326x256.size a ≤ S2688x256.size a
  packedbf16_S2688x256_S326x256_2016_0 : (Rect.unit (s := S2688x256) ![2016, 0] S326x256.size inb_S2688x256_S326x256_2016_0).PackedRows (EltTy.packing .bf16)
  slices_S2688x768_o2352_256_S325x256 : S2688x768.Slices ![2352, 256] S325x256
  slices_S2688x768_o2352_512_S325x256 : S2688x768.Slices ![2352, 512] S325x256
  slices_S2688x768_o2352_0_S325x256 : S2688x768.Slices ![2352, 0] S325x256
  inb_S2688x256_S325x256_2352_0 : ∀ a, (![2352, 0] : Fin 2 → Nat) a + S325x256.size a ≤ S2688x256.size a
  inb_S2688x256_S326x256_2352_0 : ∀ a, (![2352, 0] : Fin 2 → Nat) a + S326x256.size a ≤ S2688x256.size a
  packedbf16_S2688x256_S326x256_2352_0 : (Rect.unit (s := S2688x256) ![2352, 0] S326x256.size inb_S2688x256_S326x256_2352_0).PackedRows (EltTy.packing .bf16)
  inb_S2688x256_S2688x256_0_0 : ∀ a, (![0, 0] : Fin 2 → Nat) a + S2688x256.size a ≤ S2688x256.size a
  h_S2688x256 : 0 < S2688x256.numel
  inb_S128_S128_0 : ∀ a, (![0] : Fin 1 → Nat) a + S128.size a ≤ S128.size a
  h_S128 : 0 < S128.numel
  slices_S2688x384_o0_128_S325x128 : S2688x384.Slices ![0, 128] S325x128
  slices_S2688x384_o0_256_S325x128 : S2688x384.Slices ![0, 256] S325x128
  slices_S2688x384_o0_0_S325x128 : S2688x384.Slices ![0, 0] S325x128
  shapeCasts_S128_S1x128 : S128.ShapeCasts S1x128
  broadcasts_S1x128_S325x128 : S1x128.Broadcasts S325x128
  inb_S8x325x128_S1x325x128_0_0_0 : ∀ a, (![0, 0, 0] : Fin 3 → Nat) a + S1x325x128.size a ≤ S8x325x128.size a
  h_S1x325x128 : 0 < S1x325x128.numel
  shapeCasts_S1x325x128_S325x128 : S1x325x128.ShapeCasts S325x128
  shapeCasts_S325x128_S1x325x128 : S325x128.ShapeCasts S1x325x128
  slices_S2688x384_o336_128_S325x128 : S2688x384.Slices ![336, 128] S325x128
  slices_S2688x384_o336_256_S325x128 : S2688x384.Slices ![336, 256] S325x128
  slices_S2688x384_o336_0_S325x128 : S2688x384.Slices ![336, 0] S325x128
  inb_S8x325x128_S1x325x128_1_0_0 : ∀ a, (![1, 0, 0] : Fin 3 → Nat) a + S1x325x128.size a ≤ S8x325x128.size a
  slices_S2688x384_o672_128_S325x128 : S2688x384.Slices ![672, 128] S325x128
  slices_S2688x384_o672_256_S325x128 : S2688x384.Slices ![672, 256] S325x128
  slices_S2688x384_o672_0_S325x128 : S2688x384.Slices ![672, 0] S325x128
  inb_S8x325x128_S1x325x128_2_0_0 : ∀ a, (![2, 0, 0] : Fin 3 → Nat) a + S1x325x128.size a ≤ S8x325x128.size a
  slices_S2688x384_o1008_128_S325x128 : S2688x384.Slices ![1008, 128] S325x128
  slices_S2688x384_o1008_256_S325x128 : S2688x384.Slices ![1008, 256] S325x128
  slices_S2688x384_o1008_0_S325x128 : S2688x384.Slices ![1008, 0] S325x128
  inb_S8x325x128_S1x325x128_3_0_0 : ∀ a, (![3, 0, 0] : Fin 3 → Nat) a + S1x325x128.size a ≤ S8x325x128.size a
  slices_S2688x384_o1344_128_S325x128 : S2688x384.Slices ![1344, 128] S325x128
  slices_S2688x384_o1344_256_S325x128 : S2688x384.Slices ![1344, 256] S325x128
  slices_S2688x384_o1344_0_S325x128 : S2688x384.Slices ![1344, 0] S325x128
  inb_S8x325x128_S1x325x128_4_0_0 : ∀ a, (![4, 0, 0] : Fin 3 → Nat) a + S1x325x128.size a ≤ S8x325x128.size a
  slices_S2688x384_o1680_128_S325x128 : S2688x384.Slices ![1680, 128] S325x128
  slices_S2688x384_o1680_256_S325x128 : S2688x384.Slices ![1680, 256] S325x128
  slices_S2688x384_o1680_0_S325x128 : S2688x384.Slices ![1680, 0] S325x128
  inb_S8x325x128_S1x325x128_5_0_0 : ∀ a, (![5, 0, 0] : Fin 3 → Nat) a + S1x325x128.size a ≤ S8x325x128.size a
  slices_S2688x384_o2016_128_S325x128 : S2688x384.Slices ![2016, 128] S325x128
  slices_S2688x384_o2016_256_S325x128 : S2688x384.Slices ![2016, 256] S325x128
  slices_S2688x384_o2016_0_S325x128 : S2688x384.Slices ![2016, 0] S325x128
  inb_S8x325x128_S1x325x128_6_0_0 : ∀ a, (![6, 0, 0] : Fin 3 → Nat) a + S1x325x128.size a ≤ S8x325x128.size a
  slices_S2688x384_o2352_128_S325x128 : S2688x384.Slices ![2352, 128] S325x128
  slices_S2688x384_o2352_256_S325x128 : S2688x384.Slices ![2352, 256] S325x128
  slices_S2688x384_o2352_0_S325x128 : S2688x384.Slices ![2352, 0] S325x128
  inb_S8x325x128_S1x325x128_7_0_0 : ∀ a, (![7, 0, 0] : Fin 3 → Nat) a + S1x325x128.size a ≤ S8x325x128.size a
  dot_S2688x384_S384x768_S2688x768_1_0_0_1_n_n_wf : DotDims.WF S2688x384 S384x768 S2688x768 [1] [0] [0] [1] [] []
  dot_S325x325_S325x256_S325x256_1_0_0_1_n_n_wf : DotDims.WF S325x325 S325x256 S325x256 [1] [0] [0] [1] [] []
  dot_S2688x256_S256x768_S2688x768_1_0_0_1_n_n_wf : DotDims.WF S2688x256 S256x768 S2688x768 [1] [0] [0] [1] [] []
  dot_S2688x256_S256x384_S2688x384_1_0_0_1_n_n_wf : DotDims.WF S2688x256 S256x384 S2688x384 [1] [0] [0] [1] [] []
  dot_S325x325_S325x128_S325x128_1_0_0_1_n_n_wf : DotDims.WF S325x325 S325x128 S325x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2688x384.size a ≤ S5376x384.size a
  hwx0_0 : ∀ i : grid0.Coords, EltTy.bits .bf16 = 32 ∨ (Rect.block (s := S5376x384) S2688x384.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x325x325.size a ≤ S16x325x325.size a
  hwx0_1 : ∀ i : grid0.Coords, EltTy.bits .bf16 = 32 ∨ (Rect.block (s := S16x325x325) S8x325x325.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S384x768.size a ≤ S384x768.size a
  hwx0_2 : ∀ i : grid0.Coords, EltTy.bits .bf16 = 32 ∨ (Rect.block (s := S384x768) S384x768.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x768.size a ≤ S256x768.size a
  hwx0_4 : ∀ i : grid0.Coords, EltTy.bits .bf16 = 32 ∨ (Rect.block (s := S256x768) S256x768.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x384.size a ≤ S256x384.size a
  hwx0_6 : ∀ i : grid0.Coords, EltTy.bits .bf16 = 32 ∨ (Rect.block (s := S256x384) S256x384.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8x325x128.size a ≤ S16x325x128.size a
  hwx0_8 : ∀ i : grid0.Coords, EltTy.bits .f32 = 32 ∨ (Rect.block (s := S16x325x128) S8x325x128.size (cc0_transform_8 i) (hinb0_8 i)).WholeWords (EltTy.packing .f32)

variable [Facts₀]

def dot_S2688x384_S384x768_S2688x768_1_0_0_1_n_n : DotDims S2688x384 S384x768 S2688x768 where
  lhsContracting := [1]
  rhsContracting := [0]
  lhsNonContracting := [0]
  rhsNonContracting := [1]
  lhsBatch := []
  rhsBatch := []
  wf := dot_S2688x384_S384x768_S2688x768_1_0_0_1_n_n_wf
def dot_S325x325_S325x256_S325x256_1_0_0_1_n_n : DotDims S325x325 S325x256 S325x256 where
  lhsContracting := [1]
  rhsContracting := [0]
  lhsNonContracting := [0]
  rhsNonContracting := [1]
  lhsBatch := []
  rhsBatch := []
  wf := dot_S325x325_S325x256_S325x256_1_0_0_1_n_n_wf
def dot_S2688x256_S256x768_S2688x768_1_0_0_1_n_n : DotDims S2688x256 S256x768 S2688x768 where
  lhsContracting := [1]
  rhsContracting := [0]
  lhsNonContracting := [0]
  rhsNonContracting := [1]
  lhsBatch := []
  rhsBatch := []
  wf := dot_S2688x256_S256x768_S2688x768_1_0_0_1_n_n_wf
def dot_S2688x256_S256x384_S2688x384_1_0_0_1_n_n : DotDims S2688x256 S256x384 S2688x384 where
  lhsContracting := [1]
  rhsContracting := [0]
  lhsNonContracting := [0]
  rhsNonContracting := [1]
  lhsBatch := []
  rhsBatch := []
  wf := dot_S2688x256_S256x384_S2688x384_1_0_0_1_n_n_wf
def dot_S325x325_S325x128_S325x128_1_0_0_1_n_n : DotDims S325x325 S325x128 S325x128 where
  lhsContracting := [1]
  rhsContracting := [0]
  lhsNonContracting := [0]
  rhsNonContracting := [1]
  lhsBatch := []
  rhsBatch := []
  wf := dot_S325x325_S325x128_S325x128_1_0_0_1_n_n_wf

abbrev win0_0 : Pipeline.Window sig grid0 :=
  Pipeline.Window.ofSpec (Memref.whole main_v3) S2688x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v37) S8x325x325.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S384x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S256x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v36) S256x384.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v38) S8x325x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S16x325x12x32 : Shape := ⟨4, ![16, 325, 12, 32]⟩
abbrev S16x325x325 : Shape := ⟨3, ![16, 325, 325]⟩
abbrev S3x384x256 : Shape := ⟨3, ![3, 384, 256]⟩
abbrev S256 : Shape := ⟨1, ![256]⟩
abbrev S3x256x256 : Shape := ⟨3, ![3, 256, 256]⟩
abbrev S3x256x128 : Shape := ⟨3, ![3, 256, 128]⟩
abbrev S128 : Shape := ⟨1, ![128]⟩
abbrev S16x325x384 : Shape := ⟨3, ![16, 325, 384]⟩
abbrev S_ : Shape := ⟨0, ![]⟩
abbrev S16x325 : Shape := ⟨2, ![16, 325]⟩
abbrev S16x325x1 : Shape := ⟨3, ![16, 325, 1]⟩
abbrev S16x1x325 : Shape := ⟨3, ![16, 1, 325]⟩
abbrev S1x384x256 : Shape := ⟨3, ![1, 384, 256]⟩
abbrev S384x256 : Shape := ⟨2, ![384, 256]⟩
abbrev S16x325x256 : Shape := ⟨3, ![16, 325, 256]⟩
abbrev S1x1x256 : Shape := ⟨3, ![1, 1, 256]⟩
abbrev S1x256x256 : Shape := ⟨3, ![1, 256, 256]⟩
abbrev S256x256 : Shape := ⟨2, ![256, 256]⟩
abbrev S1x256x128 : Shape := ⟨3, ![1, 256, 128]⟩
abbrev S256x128 : Shape := ⟨2, ![256, 128]⟩
abbrev S16x325x128 : Shape := ⟨3, ![16, 325, 128]⟩
abbrev S1x1x128 : Shape := ⟨3, ![1, 1, 128]⟩

abbrev nBuf : Space → Nat
  | .hbm => 102
  | .vmem => 0
  | .smem => 0
  | _ => 0

abbrev bufTy : (tb : Table) → Fin (tcTables nBuf tb) → BufTy
  | .hbm, ⟨0, _⟩ => ⟨S16x325x12x32, .f32⟩
  | .hbm, ⟨1, _⟩ => ⟨S16x325x325, .f32⟩
  | .hbm, ⟨2, _⟩ => ⟨S3x384x256, .f32⟩
  | .hbm, ⟨3, _⟩ => ⟨S256, .f32⟩
  | .hbm, ⟨4, _⟩ => ⟨S3x256x256, .f32⟩
  | .hbm, ⟨5, _⟩ => ⟨S256, .f32⟩
  | .hbm, ⟨6, _⟩ => ⟨S3x256x128, .f32⟩
  | .hbm, ⟨7, _⟩ => ⟨S128, .f32⟩
  | .hbm, ⟨8, _⟩ => ⟨S16x325x384, .f32⟩
  | .hbm, ⟨9, _⟩ => ⟨S_, .f32⟩
  | .hbm, ⟨10, _⟩ => ⟨S16x325, .f32⟩
  | .hbm, ⟨11, _⟩ => ⟨S_, .f32⟩
  | .hbm, ⟨12, _⟩ => ⟨S16x325, .f32⟩
  | .hbm, ⟨13, _⟩ => ⟨S16x325, .i1⟩
  | .hbm, ⟨14, _⟩ => ⟨S_, .f32⟩
  | .hbm, ⟨15, _⟩ => ⟨S16x325, .f32⟩
  | .hbm, ⟨16, _⟩ => ⟨S16x325, .i1⟩
  | .hbm, ⟨17, _⟩ => ⟨S_, .f32⟩
  | .hbm, ⟨18, _⟩ => ⟨S_, .f32⟩
  | .hbm, ⟨19, _⟩ => ⟨S16x325, .f32⟩
  | .hbm, ⟨20, _⟩ => ⟨S16x325, .f32⟩
  | .hbm, ⟨21, _⟩ => ⟨S16x325, .f32⟩
  | .hbm, ⟨22, _⟩ => ⟨S_, .f32⟩
  | .hbm, ⟨23, _⟩ => ⟨S16x325, .f32⟩
  | .hbm, ⟨24, _⟩ => ⟨S16x325, .f32⟩
  | .hbm, ⟨25, _⟩ => ⟨S_, .f32⟩
  | .hbm, ⟨26, _⟩ => ⟨S_, .f32⟩
  | .hbm, ⟨27, _⟩ => ⟨S16x325, .f32⟩
  | .hbm, ⟨28, _⟩ => ⟨S16x325, .f32⟩
  | .hbm, ⟨29, _⟩ => ⟨S16x325x1, .f32⟩
  | .hbm, ⟨30, _⟩ => ⟨S16x325x325, .f32⟩
  | .hbm, ⟨31, _⟩ => ⟨S16x325x325, .f32⟩
  | .hbm, ⟨32, _⟩ => ⟨S16x1x325, .f32⟩
  | .hbm, ⟨33, _⟩ => ⟨S16x325x325, .f32⟩
  | .hbm, ⟨34, _⟩ => ⟨S16x325x325, .f32⟩
  | .hbm, ⟨35, _⟩ => ⟨S16x325x325, .f32⟩
  | .hbm, ⟨36, _⟩ => ⟨S1x384x256, .f32⟩
  | .hbm, ⟨37, _⟩ => ⟨S384x256, .f32⟩
  | .hbm, ⟨38, _⟩ => ⟨S16x325x256, .f32⟩
  | .hbm, ⟨39, _⟩ => ⟨S16x325x384, .f32⟩
  | .hbm, ⟨40, _⟩ => ⟨S1x384x256, .f32⟩
  | .hbm, ⟨41, _⟩ => ⟨S384x256, .f32⟩
  | .hbm, ⟨42, _⟩ => ⟨S16x325x256, .f32⟩
  | .hbm, ⟨43, _⟩ => ⟨S16x325x256, .f32⟩
  | .hbm, ⟨44, _⟩ => ⟨S16x325x384, .f32⟩
  | .hbm, ⟨45, _⟩ => ⟨S_, .f32⟩
  | .hbm, ⟨46, _⟩ => ⟨S16x325x384, .f32⟩
  | .hbm, ⟨47, _⟩ => ⟨S16x325x384, .f32⟩
  | .hbm, ⟨48, _⟩ => ⟨S16x325x384, .f32⟩
  | .hbm, ⟨49, _⟩ => ⟨S1x384x256, .f32⟩
  | .hbm, ⟨50, _⟩ => ⟨S384x256, .f32⟩
  | .hbm, ⟨51, _⟩ => ⟨S16x325x256, .f32⟩
  | .hbm, ⟨52, _⟩ => ⟨S16x325x256, .f32⟩
  | .hbm, ⟨53, _⟩ => ⟨S1x1x256, .f32⟩
  | .hbm, ⟨54, _⟩ => ⟨S16x325x256, .f32⟩
  | .hbm, ⟨55, _⟩ => ⟨S16x325x256, .f32⟩
  | .hbm, ⟨56, _⟩ => ⟨S_, .f32⟩
  | .hbm, ⟨57, _⟩ => ⟨S16x325x256, .f32⟩
  | .hbm, ⟨58, _⟩ => ⟨S16x325x256, .f32⟩
  | .hbm, ⟨59, _⟩ => ⟨S1x256x256, .f32⟩
  | .hbm, ⟨60, _⟩ => ⟨S256x256, .f32⟩
  | .hbm, ⟨61, _⟩ => ⟨S16x325x256, .f32⟩
  | .hbm, ⟨62, _⟩ => ⟨S16x325x256, .f32⟩
  | .hbm, ⟨63, _⟩ => ⟨S1x256x256, .f32⟩
  | .hbm, ⟨64, _⟩ => ⟨S256x256, .f32⟩
  | .hbm, ⟨65, _⟩ => ⟨S16x325x256, .f32⟩
  | .hbm, ⟨66, _⟩ => ⟨S16x325x256, .f32⟩
  | .hbm, ⟨67, _⟩ => ⟨S16x325x256, .f32⟩
  | .hbm, ⟨68, _⟩ => ⟨S_, .f32⟩
  | .hbm, ⟨69, _⟩ => ⟨S16x325x256, .f32⟩
  | .hbm, ⟨70, _⟩ => ⟨S16x325x256, .f32⟩
  | .hbm, ⟨71, _⟩ => ⟨S16x325x256, .f32⟩
  | .hbm, ⟨72, _⟩ => ⟨S1x256x256, .f32⟩
  | .hbm, ⟨73, _⟩ => ⟨S256x256, .f32⟩
  | .hbm, ⟨74, _⟩ => ⟨S16x325x256, .f32⟩
  | .hbm, ⟨75, _⟩ => ⟨S16x325x256, .f32⟩
  | .hbm, ⟨76, _⟩ => ⟨S1x1x256, .f32⟩
  | .hbm, ⟨77, _⟩ => ⟨S16x325x256, .f32⟩
  | .hbm, ⟨78, _⟩ => ⟨S16x325x256, .f32⟩
  | .hbm, ⟨79, _⟩ => ⟨S_, .f32⟩
  | .hbm, ⟨80, _⟩ => ⟨S16x325x256, .f32⟩
  | .hbm, ⟨81, _⟩ => ⟨S16x325x256, .f32⟩
  | .hbm, ⟨82, _⟩ => ⟨S1x256x128, .f32⟩
  | .hbm, ⟨83, _⟩ => ⟨S256x128, .f32⟩
  | .hbm, ⟨84, _⟩ => ⟨S16x325x128, .f32⟩
  | .hbm, ⟨85, _⟩ => ⟨S16x325x256, .f32⟩
  | .hbm, ⟨86, _⟩ => ⟨S1x256x128, .f32⟩
  | .hbm, ⟨87, _⟩ => ⟨S256x128, .f32⟩
  | .hbm, ⟨88, _⟩ => ⟨S16x325x128, .f32⟩
  | .hbm, ⟨89, _⟩ => ⟨S16x325x128, .f32⟩
  | .hbm, ⟨90, _⟩ => ⟨S16x325x256, .f32⟩
  | .hbm, ⟨91, _⟩ => ⟨S_, .f32⟩
  | .hbm, ⟨92, _⟩ => ⟨S16x325x256, .f32⟩
  | .hbm, ⟨93, _⟩ => ⟨S16x325x256, .f32⟩
  | .hbm, ⟨94, _⟩ => ⟨S16x325x256, .f32⟩
  | .hbm, ⟨95, _⟩ => ⟨S1x256x128, .f32⟩
  | .hbm, ⟨96, _⟩ => ⟨S256x128, .f32⟩
  | .hbm, ⟨97, _⟩ => ⟨S16x325x128, .f32⟩
  | .hbm, ⟨98, _⟩ => ⟨S16x325x128, .f32⟩
  | .hbm, ⟨99, _⟩ => ⟨S1x1x128, .f32⟩
  | .hbm, ⟨100, _⟩ => ⟨S16x325x128, .f32⟩
  | .hbm, ⟨101, _⟩ => ⟨S16x325x128, .f32⟩
  | _, _ => ⟨S16x325x12x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_v6 : Ref sig .tc := ⟨.hbm, 20, rfl⟩
abbrev main_v7 : Ref sig .tc := ⟨.hbm, 21, rfl⟩
abbrev main_cst_3 : Ref sig .tc := ⟨.hbm, 22, rfl⟩
abbrev main_v8 : Ref sig .tc := ⟨.hbm, 23, rfl⟩
abbrev main_v9 : Ref sig .tc := ⟨.hbm, 24, rfl⟩
abbrev main_cst_4 : Ref sig .tc := ⟨.hbm, 25, rfl⟩
abbrev main_call1_v0 : Ref sig .tc := ⟨.hbm, 26, rfl⟩
abbrev main_call1_v1 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_call2_cst : Ref sig .tc := ⟨.hbm, 56, rfl⟩
abbrev main_call2_v0 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_6 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_call3_cst : Ref sig .tc := ⟨.hbm, 79, rfl⟩
abbrev main_call3_v0 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_7 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩

abbrev nD : Nat := 1
abbrev τ : Topo := Topo.v7x

variable {F : FTy → Type} [FloatOps F]

class Facts₀ : Prop where
  shapeCasts_S16x325x12x32_S16x325x384 : S16x325x12x32.ShapeCasts S16x325x384
  reducesTo_S16x325x325_S16x325_d2 : S16x325x325.ReducesTo [2] S16x325
  h_S_ : 0 < S_.numel
  bcast_S_S16x325 : S_.BroadcastsInDim S16x325 (![] : Fin 0 → Fin S16x325.rank)
  bcast_S16x325_S16x325x1_0_1 : S16x325.BroadcastsInDim S16x325x1 (![0, 1] : Fin 2 → Fin S16x325x1.rank)
  bcast_S16x325x1_S16x325x325_0_1_2 : S16x325x1.BroadcastsInDim S16x325x325 (![0, 1, 2] : Fin 3 → Fin S16x325x325.rank)
  bcast_S16x325_S16x1x325_0_2 : S16x325.BroadcastsInDim S16x1x325 (![0, 2] : Fin 2 → Fin S16x1x325.rank)
  bcast_S16x1x325_S16x325x325_0_1_2 : S16x1x325.BroadcastsInDim S16x325x325 (![0, 1, 2] : Fin 3 → Fin S16x325x325.rank)
  slices_S3x384x256_S1x384x256_0_0_0 : S3x384x256.Slices ![0, 0, 0] S1x384x256
  shapeCasts_S1x384x256_S384x256 : S1x384x256.ShapeCasts S384x256
  slices_S3x384x256_S1x384x256_1_0_0 : S3x384x256.Slices ![1, 0, 0] S1x384x256
  bcast_S_S16x325x384 : S_.BroadcastsInDim S16x325x384 (![] : Fin 0 → Fin S16x325x384.rank)
  slices_S3x384x256_S1x384x256_2_0_0 : S3x384x256.Slices ![2, 0, 0] S1x384x256
  bcast_S256_S1x1x256_2 : S256.BroadcastsInDim S1x1x256 (![2] : Fin 1 → Fin S1x1x256.rank)
  bcast_S1x1x256_S16x325x256_0_1_2 : S1x1x256.BroadcastsInDim S16x325x256 (![0, 1, 2] : Fin 3 → Fin S16x325x256.rank)
  bcast_S_S16x325x256 : S_.BroadcastsInDim S16x325x256 (![] : Fin 0 → Fin S16x325x256.rank)
  slices_S3x256x256_S1x256x256_0_0_0 : S3x256x256.Slices ![0, 0, 0] S1x256x256
  shapeCasts_S1x256x256_S256x256 : S1x256x256.ShapeCasts S256x256
  slices_S3x256x256_S1x256x256_1_0_0 : S3x256x256.Slices ![1, 0, 0] S1x256x256
  slices_S3x256x256_S1x256x256_2_0_0 : S3x256x256.Slices ![2, 0, 0] S1x256x256
  slices_S3x256x128_S1x256x128_0_0_0 : S3x256x128.Slices ![0, 0, 0] S1x256x128
  shapeCasts_S1x256x128_S256x128 : S1x256x128.ShapeCasts S256x128
  slices_S3x256x128_S1x256x128_1_0_0 : S3x256x128.Slices ![1, 0, 0] S1x256x128
  slices_S3x256x128_S1x256x128_2_0_0 : S3x256x128.Slices ![2, 0, 0] S1x256x128
  bcast_S128_S1x1x128_2 : S128.BroadcastsInDim S1x1x128 (![2] : Fin 1 → Fin S1x1x128.rank)
  bcast_S1x1x128_S16x325x128_0_1_2 : S1x1x128.BroadcastsInDim S16x325x128 (![0, 1, 2] : Fin 3 → Fin S16x325x128.rank)
  dot_S16x325x384_S384x256_S16x325x256_2_0_01_1_n_n_wf : DotDims.WF S16x325x384 S384x256 S16x325x256 [2] [0] [0, 1] [1] [] []
  dot_S16x325x325_S16x325x384_S16x325x384_2_1_1_2_0_0_wf : DotDims.WF S16x325x325 S16x325x384 S16x325x384 [2] [1] [1] [2] [0] [0]
  dot_S16x325x256_S256x256_S16x325x256_2_0_01_1_n_n_wf : DotDims.WF S16x325x256 S256x256 S16x325x256 [2] [0] [0, 1] [1] [] []
  dot_S16x325x325_S16x325x256_S16x325x256_2_1_1_2_0_0_wf : DotDims.WF S16x325x325 S16x325x256 S16x325x256 [2] [1] [1] [2] [0] [0]
  dot_S16x325x256_S256x128_S16x325x128_2_0_01_1_n_n_wf : DotDims.WF S16x325x256 S256x128 S16x325x128 [2] [0] [0, 1] [1] [] []

variable [Facts₀]

def dot_S16x325x384_S384x256_S16x325x256_2_0_01_1_n_n : DotDims S16x325x384 S384x256 S16x325x256 where
  lhsContracting := [2]
  rhsContracting := [0]
  lhsNonContracting := [0, 1]
  rhsNonContracting := [1]
  lhsBatch := []
  rhsBatch := []
  wf := dot_S16x325x384_S384x256_S16x325x256_2_0_01_1_n_n_wf
def dot_S16x325x325_S16x325x384_S16x325x384_2_1_1_2_0_0 : DotDims S16x325x325 S16x325x384 S16x325x384 where
  lhsContracting := [2]
  rhsContracting := [1]
  lhsNonContracting := [1]
  rhsNonContracting := [2]
  lhsBatch := [0]
  rhsBatch := [0]
  wf := dot_S16x325x325_S16x325x384_S16x325x384_2_1_1_2_0_0_wf
def dot_S16x325x256_S256x256_S16x325x256_2_0_01_1_n_n : DotDims S16x325x256 S256x256 S16x325x256 where
  lhsContracting := [2]
  rhsContracting := [0]
  lhsNonContracting := [0, 1]
  rhsNonContracting := [1]
  lhsBatch := []
  rhsBatch := []
  wf := dot_S16x325x256_S256x256_S16x325x256_2_0_01_1_n_n_wf
def dot_S16x325x325_S16x325x256_S16x325x256_2_1_1_2_0_0 : DotDims S16x325x325 S16x325x256 S16x325x256 where
  lhsContracting := [2]
  rhsContracting := [1]
  lhsNonContracting := [1]
  rhsNonContracting := [2]
  lhsBatch := [0]
  rhsBatch := [0]
  wf := dot_S16x325x325_S16x325x256_S16x325x256_2_1_1_2_0_0_wf
def dot_S16x325x256_S256x128_S16x325x128_2_0_01_1_n_n : DotDims S16x325x256 S256x128 S16x325x128 where
  lhsContracting := [2]
  rhsContracting := [0]
  lhsNonContracting := [0, 1]
  rhsNonContracting := [1]
  lhsBatch := []
  rhsBatch := []
  wf := dot_S16x325x256_S256x128_S16x325x128_2_0_01_1_n_n_wf

class Facts : Prop extends Facts₀ where

variable [Facts]
-- ==== Proof.KernelRun.lean ====
/-
  The kernel body of one grid step, run once on whole buffers, at any reading of floats.

  One step handles eight graphs. The body loads the three stacked weight matrices, the eight
  adjacency blocks, the stacked node features and the three biases; it stores, graph by graph, the
  first hidden layer into the first scratch buffer (rows `336 g … 336 g + 324` of it), reads that
  buffer back whole, stores the second hidden layer likewise into the second scratch buffer, reads it
  back whole, and stores the eight output blocks, which tile the output buffer.

  Stated here: from the eight input buffers at given contents, the output buffer at any contents
  and the two scratch buffers at given contents, the body runs without a fault, leaves the inputs
  as they were, and leaves each written buffer at its entry contents overwritten by a list of pieces
  (a rectangle and the value stored through it, last store first). The three lists are what the
  run itself finds; they are functions of the inputs' contents and of the scratch buffers' entry
  contents, because the rows of a scratch buffer that no store touches are read back as they were.
-/
import proofs.«129663_g81071802679316_cont_sun_m_195_35_alg».proof.Proof.Gen.Kernel.Launch
import proofs.«129663_g81071802679316_cont_sun_m_195_35_alg».proof.Proof.Gen.Kernel.Skeleton
import proofs.«129663_g81071802679316_cont_sun_m_195_35_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole buffers: inputs at `x0 … x7`, the output buffer at anything, the scratch buffers at
    `xs0`, `xs1`. It runs to a state with the inputs unchanged and the output buffer and both scratch
    buffers overwritten by the pieces `L8`, `LS0`, `LS1` that the run finds. -/
noncomputable def kernelRun (c : Dev nD) (i : grid0.Coords)
    (arg1 : Memref sig .tc .vmem S2688x384 .bf16) (harg1 : arg1.IsWhole) (arg2 : Memref sig .tc .vmem S8x325x325 .bf16) (harg2 : arg2.IsWhole)
    (arg3 : Memref sig .tc .vmem S384x768 .bf16) (harg3 : arg3.IsWhole) (arg4 : Memref sig .tc .vmem S256 .f32) (harg4 : arg4.IsWhole)
    (arg5 : Memref sig .tc .vmem S256x768 .bf16) (harg5 : arg5.IsWhole) (arg6 : Memref sig .tc .vmem S256 .f32) (harg6 : arg6.IsWhole)
    (arg7 : Memref sig .tc .vmem S256x384 .bf16) (harg7 : arg7.IsWhole) (arg8 : Memref sig .tc .vmem S128 .f32) (harg8 : arg8.IsWhole)
    (arg9 : Memref sig .tc .vmem S8x325x128 .f32) (harg9 : arg9.IsWhole)
    (arg10 : Memref sig .tc .vmem S2688x256 .bf16) (harg10 : arg10.IsWhole) (arg11 : Memref sig .tc .vmem S2688x256 .bf16) (harg11 : arg11.IsWhole)
    (x0 : Vec F S2688x384 .bf16) (x1 : Vec F S8x325x325 .bf16) (x2 : Vec F S384x768 .bf16) (x3 : Vec F S256 .f32)
    (x4 : Vec F S256x768 .bf16) (x5 : Vec F S256 .f32) (x6 : Vec F S256x384 .bf16) (x7 : Vec F S128 .f32)
    (xs0 : Vec F S2688x256 .bf16) (xs1 : Vec F S2688x256 .bf16) :
    Σ' (L8 : List (View.Piece (Elt F) S8x325x128 .f32)) (LS0 : List (View.Piece (Elt F) S2688x256 .bf16)), { LS1 : List (View.Piece (Elt F) S2688x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare x4 ∗ owns (c : Thread nD τ) arg6 fullShare x5 ∗ owns (c : Thread nD τ) arg7 fullShare x6 ∗ owns (c : Thread nD τ) arg8 fullShare x7
            ∗ (∃ d, owns (c : Thread nD τ) arg9 fullShare d) ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3
                ∗ owns (c : Thread nD τ) arg5 fullShare x4 ∗ owns (c : Thread nD τ) arg6 fullShare x5 ∗ owns (c : Thread nD τ) arg7 fullShare x6 ∗ owns (c : Thread nD τ) arg8 fullShare x7
                ∗ (∃ f, arg9.view.loc (c : Thread nD τ) ↦[arg9.view.set]{fullShare} arg9.view.writes (Elt F) f L8)
                ∗ (∃ f, arg10.view.loc (c : Thread nD τ) ↦[arg10.view.set]{fullShare} arg10.view.writes (Elt F) f LS0)
                ∗ (∃ f, arg11.view.loc (c : Thread nD τ) ↦[arg11.view.set]{fullShare} arg11.view.writes (Elt F) f LS1)) -∗ K ⟨⟩))
          ⊢ wp frame (wpE (defs₀ (F := F)) Variants.none c none) E
              (cc0__net_kernel i arg1 harg1 arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0__net_kernel_eq_skeleton]; unfold cc0__net_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg7.eq_unread hf6; obtain rfl := harg8.eq_unread hf7
    obtain rfl := harg10.eq_unread hfs0; obtain rfl := harg11.eq_unread hfs1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; iexact H8
    isplitl [HS0]
    · iexists _; iexact HS0
    iexists _; iexact HS1

end Cert.Kernel.Body

end
-- ==== Proof.KernelFrame.lean ====
/-
  The frame of the program: it runs to the end, nothing faults, and its eight argument arrays end as
  they were launched — at any reading of floats.

  The program is three stretches of host operations (the node features reshaped, narrowed, padded
  from 325 to 336 rows per graph and stacked; each weight triple `[W0 − W2 | W1 | W2]` laid side by
  side and narrowed; the adjacency narrowed) followed by ONE pipelined region over two grid steps
  of eight graphs each. No host operation writes an argument array, so the region finds them as
  launched. Inside the region nine windows are staged: eight inputs, which the body only reads,
  and the output, which it overwrites whole; the two scratch buffers are the region's own. Nothing
  is claimed here about what the output holds, so its window is left unnamed: the body is handed
  that buffer at any contents and hands it back at any contents. The body's run itself is
  `Body.kernelRun`; this file feeds it each input window's block, opens the region's invariant into
  the two scratch buffers and closes it again.
-/
import proofs.«129663_g81071802679316_cont_sun_m_195_35_alg».proof.Proof.KernelRun

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the region finds -/

/-- A core's buffers when the region is entered: the launch contents after the three host stretches. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- The program up to its region: the three host stretches, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-! Every host operation writes a buffer of its own, never an argument: the region finds each argument as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, StableHlo.nary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, StableHlo.nary_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, StableHlo.nary_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, StableHlo.nary_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at grid step `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's staging buffer holds its block at every step, whether the step fetched it or an earlier one did
    (the weights and biases are fetched at the first step only, and their block index never moves). -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run to the region's post -/

/-- Each argument array ends as launched: the three biases are input windows' arrays, never written; the other five
    bypass the region; and the region found all eight as launched. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      (Pipeline.RDat.FramePost.arr_in h c 3 rfl).trans ((hA c 3).trans (V_main_arg3 m c)),
      ((h c).2 main_arg4 (Pipeline.mem_restRefs_of main_arg4 (by decide) (by decide))).trans (V_main_arg4 m c),
      (Pipeline.RDat.FramePost.arr_in h c 5 rfl).trans ((hA c 5).trans (V_main_arg5 m c)),
      ((h c).2 main_arg6 (Pipeline.mem_restRefs_of main_arg6 (by decide) (by decide))).trans (V_main_arg6 m c),
      (Pipeline.RDat.FramePost.arr_in h c 7 rfl).trans ((hA c 7).trans (V_main_arg7 m c))⟩) h

/-! ## The staging and scratch buffers as the pipeline passes them -/

abbrev scM0 : Memref sig .tc .vmem S2688x256 .bf16 := Memref.whole cc0_scratch0
abbrev scM1 : Memref sig .tc .vmem S2688x256 .bf16 := Memref.whole cc0_scratch1

/-- The region's invariant is its two scratch buffers, each at some contents, and the generator register. -/
theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-! ## Proof data that names nothing of the output -/

/-- The output window (8) is forgotten. -/
def forgets : Fin 9 → Bool := fun w => w.val == 8

/-- Arrays as the region finds them; after the body each input's buffer at its block, the output's unnamed; the invariant
    the scratch buffers at anything; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d
theorem before_6 (c : Dev nD) (t : Fin cfg0.N) (d) : (dats m 0 c).before 6 t d = iblk m c 6 t :=
  before_6_of m (dats m 0 c) (A_eq m c 6) (after_6 m c) t d
theorem before_7 (c : Dev nD) (t : Fin cfg0.N) (d) : (dats m 0 c).before 7 t d = iblk m c 7 t :=
  before_7_of m (dats m 0 c) (A_eq m c 7) (after_7 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare d))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ (∃ d, owns (c : Thread nD τ) (st0_8 t) fullShare d))

set_option maxHeartbeats 1600000 in
/-- At any step: the inputs' buffers hold their blocks, the invariant hands over the scratch buffers at whatever they hold,
    the run applies, and every written buffer is handed back at what it then holds. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  rw [show (dats m 0 c).Φ t.castSucc = Pipeline.ΦA spec0 c from rfl, PhiA_eq]
  iintro ⟨⟨⟨⟨%ds0, HS0⟩, ⟨%ds1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun c (grid0.coords t) _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) ds0 ds1).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  isplitl [HS1]; · iexact HS1
  iintro ⟨H0, H1, H2, H3, H4, H5, H6, H7, ⟨%e8, H8⟩, ⟨%es0, HS0⟩, ⟨%es1, HS1⟩⟩
  isplitl [HS0 HS1 Hg]
  · isplitl [HS0 HS1]
    · isplitl [HS0]
      · unfold owns; iexists _; iexists _; isplitr
        swap; · iexact HS0
        ipureintro; rfl
      · unfold owns; iexists _; iexists _; isplitr
        swap; · iexact HS1
        ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  unfold owns; iexists _; iexists _; isplitr
  swap; · iexact H8
  ipureintro; rfl

theorem body_obligation (c : Dev nD) : BodyObligation (dats (F := F) m 0 c) (defs₀ (F := F)) Variants.none () Set.univ forgets := fun t => by
  rw [bigSep_W0, bigSep_W0]
  exact sound_body m c t

/-! ## The run and the frame -/

set_option backward.isDefEq.respectTransparency.types false in
/-- Every weakly fair execution terminates without a fault; every input window's array and every buffer that bypasses the
    region ends as the region found it. -/
theorem run_main : θ_run defs (onTc (τ := τ) (main (F := F))) (s₀ m ρ) (Pipeline.RDat.FramePost (cfgs 0) (fun c => (dats m 0 c).toRForget forgets) (V m)) :=
  Pipeline.RDat.θ_run_frame cfgs (0 : Fin 1) launch0 defs₀ Variants.none (fun c => (dats m 0 c).toRForget forgets) m ρ main
    (hbody := fun c => (body_obligation m c).loose.toRForget) (hshare := fun c => ((dats m 0 c).toRForget forgets).share_full fun _ => rfl)
    (howed := fun _ _ => rfl) (V := V m) (hmain := hmain m Variants.none) (hA := A_eq m) (hΦ := fun _ _ => rfl)

/-- The frame claim's post, at any reading of floats. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (fun c => (dats m 0 c).toRForget forgets) (A_eq m) (run_main m ρ)

end Cert.Kernel.Body

end
-- ==== Proof.KernelIdealRun.lean ====
/-
  The kernel body of one grid step, run once on whole buffers, at any reading of floats.

  One step handles eight graphs. The body loads the three stacked weight matrices, the eight
  adjacency blocks, the stacked node features and the three biases; it stores, graph by graph, the
  first hidden layer into the first scratch buffer (rows `336 g … 336 g + 324` of it), reads that
  buffer back whole, stores the second hidden layer likewise into the second scratch buffer, reads it
  back whole, and stores the eight output blocks, which tile the output buffer.

  Stated here: from the eight input buffers at given contents, the output buffer at any contents
  and the two scratch buffers at given contents, the body runs without a fault, leaves the inputs
  as they were, and leaves each written buffer at its entry contents overwritten by a list of pieces
  (a rectangle and the value stored through it, last store first). The three lists are what the
  run itself finds; they are functions of the inputs' contents and of the scratch buffers' entry
  contents, because the rows of a scratch buffer that no store touches are read back as they were.
-/
import proofs.«129663_g81071802679316_cont_sun_m_195_35_alg».proof.Proof.Gen.KernelIdeal.Launch
import proofs.«129663_g81071802679316_cont_sun_m_195_35_alg».proof.Proof.Gen.KernelIdeal.Skeleton
import proofs.«129663_g81071802679316_cont_sun_m_195_35_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole buffers: inputs at `x0 … x7`, the output buffer at anything, the scratch buffers at
    `xs0`, `xs1`. It runs to a state with the inputs unchanged and the output buffer and both scratch
    buffers overwritten by the pieces `L8`, `LS0`, `LS1` that the run finds. -/
noncomputable def kernelRun (c : Dev nD) (i : grid0.Coords)
    (arg1 : Memref sig .tc .vmem S2688x384 .bf16) (harg1 : arg1.IsWhole) (arg2 : Memref sig .tc .vmem S8x325x325 .bf16) (harg2 : arg2.IsWhole)
    (arg3 : Memref sig .tc .vmem S384x768 .bf16) (harg3 : arg3.IsWhole) (arg4 : Memref sig .tc .vmem S256 .f32) (harg4 : arg4.IsWhole)
    (arg5 : Memref sig .tc .vmem S256x768 .bf16) (harg5 : arg5.IsWhole) (arg6 : Memref sig .tc .vmem S256 .f32) (harg6 : arg6.IsWhole)
    (arg7 : Memref sig .tc .vmem S256x384 .bf16) (harg7 : arg7.IsWhole) (arg8 : Memref sig .tc .vmem S128 .f32) (harg8 : arg8.IsWhole)
    (arg9 : Memref sig .tc .vmem S8x325x128 .f32) (harg9 : arg9.IsWhole)
    (arg10 : Memref sig .tc .vmem S2688x256 .bf16) (harg10 : arg10.IsWhole) (arg11 : Memref sig .tc .vmem S2688x256 .bf16) (harg11 : arg11.IsWhole)
    (x0 : Vec F S2688x384 .bf16) (x1 : Vec F S8x325x325 .bf16) (x2 : Vec F S384x768 .bf16) (x3 : Vec F S256 .f32)
    (x4 : Vec F S256x768 .bf16) (x5 : Vec F S256 .f32) (x6 : Vec F S256x384 .bf16) (x7 : Vec F S128 .f32)
    (xs0 : Vec F S2688x256 .bf16) (xs1 : Vec F S2688x256 .bf16) :
    Σ' (L8 : List (View.Piece (Elt F) S8x325x128 .f32)) (LS0 : List (View.Piece (Elt F) S2688x256 .bf16)), { LS1 : List (View.Piece (Elt F) S2688x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare x4 ∗ owns (c : Thread nD τ) arg6 fullShare x5 ∗ owns (c : Thread nD τ) arg7 fullShare x6 ∗ owns (c : Thread nD τ) arg8 fullShare x7
            ∗ (∃ d, owns (c : Thread nD τ) arg9 fullShare d) ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3
                ∗ owns (c : Thread nD τ) arg5 fullShare x4 ∗ owns (c : Thread nD τ) arg6 fullShare x5 ∗ owns (c : Thread nD τ) arg7 fullShare x6 ∗ owns (c : Thread nD τ) arg8 fullShare x7
                ∗ (∃ f, arg9.view.loc (c : Thread nD τ) ↦[arg9.view.set]{fullShare} arg9.view.writes (Elt F) f L8)
                ∗ (∃ f, arg10.view.loc (c : Thread nD τ) ↦[arg10.view.set]{fullShare} arg10.view.writes (Elt F) f LS0)
                ∗ (∃ f, arg11.view.loc (c : Thread nD τ) ↦[arg11.view.set]{fullShare} arg11.view.writes (Elt F) f LS1)) -∗ K ⟨⟩))
          ⊢ wp frame (wpE (defs₀ (F := F)) Variants.none c none) E
              (cc0__net_kernel i arg1 harg1 arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0__net_kernel_eq_skeleton]; unfold cc0__net_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg7.eq_unread hf6; obtain rfl := harg8.eq_unread hf7
    obtain rfl := harg10.eq_unread hfs0; obtain rfl := harg11.eq_unread hfs1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; iexact H8
    isplitl [HS0]
    · iexists _; iexact HS0
    iexists _; iexact HS1

end Cert.KernelIdeal.Body

end
-- ==== Proof.KernelTerms.lean ====
/-
  The values one grid step computes, named by graph.

  The body's run keeps every intermediate value under a name of its own, and the printed program is cut
  into windows by statement count, so the same mathematical value has a differently shaped name for each of the
  eight graphs. This file gives them uniform names: for graph `g` of the step, `L g` its scaled Laplacian,
  `T1 g`, `T2 g` the two hidden layers' blocks as stored into the scratch buffers and `T3 g` the output
  block; `P1`, `P2`, `P3` the three stacked projections (one tall product each); `H1`, `H2` the scratch
  buffers read back whole. Each is, by definition, the very term the run holds. `out_pieces` says the
  output buffer's pieces are the blocks `T3 g` at rows `[g, 0, 0]`.
-/
import proofs.«129663_g81071802679316_cont_sun_m_195_35_alg».proof.Proof.KernelIdealRun

set_option maxRecDepth 16384

noncomputable section

namespace Cert.KernelIdeal.Body

open Cert.KernelIdeal Cert.KernelIdeal.Gen
open Idealize.ShloMosaic Idealize.ShloMosaic.TcCoe

/-- Everything one run of the body is a function of: the core, the eleven whole buffers, the eight inputs' contents
    and the two scratch buffers' entry contents. -/
structure Args (F : FTy → Type) where
  c : Dev nD
  arg1 : Memref sig .tc .vmem S2688x384 .bf16
  harg1 : arg1.IsWhole
  arg2 : Memref sig .tc .vmem S8x325x325 .bf16
  harg2 : arg2.IsWhole
  arg3 : Memref sig .tc .vmem S384x768 .bf16
  harg3 : arg3.IsWhole
  arg4 : Memref sig .tc .vmem S256 .f32
  harg4 : arg4.IsWhole
  arg5 : Memref sig .tc .vmem S256x768 .bf16
  harg5 : arg5.IsWhole
  arg6 : Memref sig .tc .vmem S256 .f32
  harg6 : arg6.IsWhole
  arg7 : Memref sig .tc .vmem S256x384 .bf16
  harg7 : arg7.IsWhole
  arg8 : Memref sig .tc .vmem S128 .f32
  harg8 : arg8.IsWhole
  arg9 : Memref sig .tc .vmem S8x325x128 .f32
  harg9 : arg9.IsWhole
  arg10 : Memref sig .tc .vmem S2688x256 .bf16
  harg10 : arg10.IsWhole
  arg11 : Memref sig .tc .vmem S2688x256 .bf16
  harg11 : arg11.IsWhole
  x0 : Vec F S2688x384 .bf16
  x1 : Vec F S8x325x325 .bf16
  x2 : Vec F S384x768 .bf16
  x3 : Vec F S256 .f32
  x4 : Vec F S256x768 .bf16
  x5 : Vec F S256 .f32
  x6 : Vec F S256x384 .bf16
  x7 : Vec F S128 .f32
  xs0 : Vec F S2688x256 .bf16
  xs1 : Vec F S2688x256 .bf16

variable {F : FTy → Type} [FloatOps F]

/-- The run at these arguments. -/
abbrev Args.run (a : Args F) (i : grid0.Coords) :=
  kernelRun a.c i a.arg1 a.harg1 a.arg2 a.harg2 a.arg3 a.harg3 a.arg4 a.harg4 a.arg5 a.harg5 a.arg6 a.harg6 a.arg7 a.harg7 a.arg8 a.harg8 a.arg9 a.harg9 a.arg10 a.harg10 a.arg11 a.harg11 a.x0 a.x1 a.x2 a.x3 a.x4 a.x5 a.x6 a.x7 a.xs0 a.xs1

/-- Graph `g`'s scaled Laplacian. -/
def Args.L (a : Args F) : Fin 8 → FVec F S325x325 .bf16
  | ⟨0, _⟩ => (kernelRun.sl.r_3 a.c a.arg2 a.harg2 a.x1)
  | ⟨1, _⟩ => (kernelRun.sl.r_8 a.c a.arg2 a.harg2 a.x1)
  | ⟨2, _⟩ => (kernelRun.sl.r_9 a.c a.arg2 a.harg2 a.x1)
  | ⟨3, _⟩ => (kernelRun.sl.r_14 a.c a.arg2 a.harg2 a.x1)
  | ⟨4, _⟩ => (kernelRun.sl.r_15 a.c a.arg2 a.harg2 a.x1)
  | ⟨5, _⟩ => (kernelRun.sl.r_19 a.c a.arg2 a.harg2 a.x1)
  | ⟨6, _⟩ => (kernelRun.sl.r_20 a.c a.arg2 a.harg2 a.x1)
  | ⟨7, _⟩ => (kernelRun.sl.r_23 a.c a.arg2 a.harg2 a.x1)
  | ⟨_ + 8, h⟩ => absurd h (Nat.not_lt.2 (Nat.le_add_left _ _))

/-- The stacked weights as loaded, and the biases. -/
def Args.W1 (a : Args F) : FVec F S384x768 .bf16 := (kernelRun.sl.r a.c a.arg3 a.harg3 a.x2)
def Args.W2 (a : Args F) : FVec F S256x768 .bf16 := (kernelRun.sl.r_1 a.c a.arg5 a.harg5 a.x4)
def Args.W3 (a : Args F) : FVec F S256x384 .bf16 := (kernelRun.sl.r_2 a.c a.arg7 a.harg7 a.x6)
def Args.B1 (a : Args F) : Vec F S256 .f32 := (kernelRun.sl.r_24 a.c a.arg4 a.harg4 a.x3)
def Args.B2 (a : Args F) : Vec F S256 .f32 := (kernelRun.sl.r_32 a.c a.arg6 a.harg6 a.x5)
def Args.B3 (a : Args F) : Vec F S128 .f32 := (kernelRun.sl.r_37 a.c a.arg8 a.harg8 a.x7)

/-- The three stacked projections. -/
def Args.P1 (a : Args F) : FVec F S2688x768 .f32 := (kernelRun.sl.r_25 a.c a.arg1 a.harg1 a.arg3 a.harg3 a.x0 a.x2)
def Args.P2 (a : Args F) : FVec F S2688x768 .f32 := (kernelRun.sl.r_33 a.c a.arg1 a.harg1 a.arg2 a.harg2 a.arg3 a.harg3 a.arg4 a.harg4 a.arg5 a.harg5 a.arg10 a.harg10 a.x0 a.x1 a.x2 a.x3 a.x4 a.xs0)
def Args.P3 (a : Args F) : FVec F S2688x384 .f32 := (kernelRun.sl.r_38 a.c a.arg1 a.harg1 a.arg2 a.harg2 a.arg3 a.harg3 a.arg4 a.harg4 a.arg5 a.harg5 a.arg6 a.harg6 a.arg7 a.harg7 a.arg10 a.harg10 a.arg11 a.harg11 a.x0 a.x1 a.x2 a.x3 a.x4 a.x5 a.x6 a.xs0 a.xs1)

/-- The scratch buffers read back whole after their eight stores. -/
def Args.H1 (a : Args F) : Vec F S2688x256 .bf16 := (kernelRun.sl.v346 a.c a.arg1 a.harg1 a.arg2 a.harg2 a.arg3 a.harg3 a.arg4 a.harg4 a.arg10 a.harg10 a.x0 a.x1 a.x2 a.x3 a.xs0)
def Args.H2 (a : Args F) : Vec F S2688x256 .bf16 := (kernelRun.sl.v509 a.c a.arg1 a.harg1 a.arg2 a.harg2 a.arg3 a.harg3 a.arg4 a.harg4 a.arg5 a.harg5 a.arg6 a.harg6 a.arg10 a.harg10 a.arg11 a.harg11 a.x0 a.x1 a.x2 a.x3 a.x4 a.x5 a.xs0 a.xs1)

/-- Graph `g`'s first hidden block, as stored. -/
def Args.T1 (a : Args F) : Fin 8 → FVec F S325x256 .bf16
  | ⟨0, _⟩ => k0_pay29 (kernelRun.sl.r a.c a.arg3 a.harg3 a.x2) (kernelRun.sl.r_3 a.c a.arg2 a.harg2 a.x1) (View.readAt (Elt F) a.arg1.view (Rect.unit (s := S2688x384) ![0, 0] S2688x384.size inb_S2688x384_S2688x384_0_0).toLoadRect (a.harg1.unread a.x0)) (View.readAt (Elt F) a.arg4.view (Rect.unit (s := S256) ![0] S256.size inb_S256_S256_0).toLoadRect (a.harg4.unread a.x3))
  | ⟨1, _⟩ => k0_pay32 (kernelRun.sl.r_8 a.c a.arg2 a.harg2 a.x1) (kernelRun.sl.r_24 a.c a.arg4 a.harg4 a.x3) (kernelRun.sl.r_25 a.c a.arg1 a.harg1 a.arg3 a.harg3 a.x0 a.x2) (kernelRun.sl.r_26 a.c a.arg1 a.harg1 a.arg3 a.harg3 a.x0 a.x2) (kernelRun.sl.r_27 a.c a.arg1 a.harg1 a.arg3 a.harg3 a.x0 a.x2) (kernelRun.sl.cst_79 (F := F))
  | ⟨2, _⟩ => k0_pay33 (kernelRun.sl.r_9 a.c a.arg2 a.harg2 a.x1) (kernelRun.sl.r_24 a.c a.arg4 a.harg4 a.x3) (kernelRun.sl.r_25 a.c a.arg1 a.harg1 a.arg3 a.harg3 a.x0 a.x2)
  | ⟨3, _⟩ => k0_pay35 (kernelRun.sl.r_14 a.c a.arg2 a.harg2 a.x1) (kernelRun.sl.r_24 a.c a.arg4 a.harg4 a.x3) (kernelRun.sl.r_25 a.c a.arg1 a.harg1 a.arg3 a.harg3 a.x0 a.x2) (kernelRun.sl.r_28 a.c a.arg1 a.harg1 a.arg2 a.harg2 a.arg3 a.harg3 a.x0 a.x1 a.x2)
  | ⟨4, _⟩ => k0_pay36 (kernelRun.sl.r_15 a.c a.arg2 a.harg2 a.x1) (kernelRun.sl.r_24 a.c a.arg4 a.harg4 a.x3) (kernelRun.sl.r_25 a.c a.arg1 a.harg1 a.arg3 a.harg3 a.x0 a.x2)
  | ⟨5, _⟩ => k0_pay39 (kernelRun.sl.r_29 a.c a.arg1 a.harg1 a.arg2 a.harg2 a.arg3 a.harg3 a.x0 a.x1 a.x2) (kernelRun.sl.r_30 a.c a.arg4 a.harg4 a.x3)
  | ⟨6, _⟩ => k0_pay40 (kernelRun.sl.r_20 a.c a.arg2 a.harg2 a.x1) (kernelRun.sl.r_24 a.c a.arg4 a.harg4 a.x3) (kernelRun.sl.r_25 a.c a.arg1 a.harg1 a.arg3 a.harg3 a.x0 a.x2)
  | ⟨7, _⟩ => k0_pay42 (kernelRun.sl.r_31 a.c a.arg1 a.harg1 a.arg2 a.harg2 a.arg3 a.harg3 a.arg4 a.harg4 a.x0 a.x1 a.x2 a.x3)
  | ⟨_ + 8, h⟩ => absurd h (Nat.not_lt.2 (Nat.le_add_left _ _))

/-- Graph `g`'s second hidden block, as stored. -/
def Args.T2 (a : Args F) : Fin 8 → FVec F S325x256 .bf16
  | ⟨0, _⟩ => k0_pay44 (kernelRun.sl.r_1 a.c a.arg5 a.harg5 a.x4) (kernelRun.sl.r_3 a.c a.arg2 a.harg2 a.x1) (kernelRun.sl.v346 a.c a.arg1 a.harg1 a.arg2 a.harg2 a.arg3 a.harg3 a.arg4 a.harg4 a.arg10 a.harg10 a.x0 a.x1 a.x2 a.x3 a.xs0) (View.readAt (Elt F) a.arg6.view (Rect.unit (s := S256) ![0] S256.size inb_S256_S256_0).toLoadRect (a.harg6.unread a.x5))
  | ⟨1, _⟩ => k0_pay46 (kernelRun.sl.r_34 a.c a.arg1 a.harg1 a.arg2 a.harg2 a.arg3 a.harg3 a.arg4 a.harg4 a.arg5 a.harg5 a.arg6 a.harg6 a.arg10 a.harg10 a.x0 a.x1 a.x2 a.x3 a.x4 a.x5 a.xs0)
  | ⟨2, _⟩ => k0_pay47 (kernelRun.sl.r_9 a.c a.arg2 a.harg2 a.x1) (kernelRun.sl.r_32 a.c a.arg6 a.harg6 a.x5) (kernelRun.sl.r_33 a.c a.arg1 a.harg1 a.arg2 a.harg2 a.arg3 a.harg3 a.arg4 a.harg4 a.arg5 a.harg5 a.arg10 a.harg10 a.x0 a.x1 a.x2 a.x3 a.x4 a.xs0)
  | ⟨3, _⟩ => k0_pay48 (kernelRun.sl.r_14 a.c a.arg2 a.harg2 a.x1) (kernelRun.sl.r_32 a.c a.arg6 a.harg6 a.x5) (kernelRun.sl.r_33 a.c a.arg1 a.harg1 a.arg2 a.harg2 a.arg3 a.harg3 a.arg4 a.harg4 a.arg5 a.harg5 a.arg10 a.harg10 a.x0 a.x1 a.x2 a.x3 a.x4 a.xs0)
  | ⟨4, _⟩ => k0_pay49 (kernelRun.sl.r_15 a.c a.arg2 a.harg2 a.x1) (kernelRun.sl.r_32 a.c a.arg6 a.harg6 a.x5) (kernelRun.sl.r_33 a.c a.arg1 a.harg1 a.arg2 a.harg2 a.arg3 a.harg3 a.arg4 a.harg4 a.arg5 a.harg5 a.arg10 a.harg10 a.x0 a.x1 a.x2 a.x3 a.x4 a.xs0)
  | ⟨5, _⟩ => k0_pay50 (kernelRun.sl.r_19 a.c a.arg2 a.harg2 a.x1) (kernelRun.sl.r_32 a.c a.arg6 a.harg6 a.x5) (kernelRun.sl.r_33 a.c a.arg1 a.harg1 a.arg2 a.harg2 a.arg3 a.harg3 a.arg4 a.harg4 a.arg5 a.harg5 a.arg10 a.harg10 a.x0 a.x1 a.x2 a.x3 a.x4 a.xs0)
  | ⟨6, _⟩ => k0_pay53 (kernelRun.sl.r_20 a.c a.arg2 a.harg2 a.x1) (kernelRun.sl.r_32 a.c a.arg6 a.harg6 a.x5) (kernelRun.sl.r_33 a.c a.arg1 a.harg1 a.arg2 a.harg2 a.arg3 a.harg3 a.arg4 a.harg4 a.arg5 a.harg5 a.arg10 a.harg10 a.x0 a.x1 a.x2 a.x3 a.x4 a.xs0) (kernelRun.sl.r_35 a.c a.arg1 a.harg1 a.arg2 a.harg2 a.arg3 a.harg3 a.arg4 a.harg4 a.arg5 a.harg5 a.arg10 a.harg10 a.x0 a.x1 a.x2 a.x3 a.x4 a.xs0) (kernelRun.sl.r_36 a.c a.arg1 a.harg1 a.arg2 a.harg2 a.arg3 a.harg3 a.arg4 a.harg4 a.arg5 a.harg5 a.arg10 a.harg10 a.x0 a.x1 a.x2 a.x3 a.x4 a.xs0) (kernelRun.sl.cst_155 (F := F))
  | ⟨7, _⟩ => k0_pay54 (kernelRun.sl.r_23 a.c a.arg2 a.harg2 a.x1) (kernelRun.sl.r_32 a.c a.arg6 a.harg6 a.x5) (kernelRun.sl.r_33 a.c a.arg1 a.harg1 a.arg2 a.harg2 a.arg3 a.harg3 a.arg4 a.harg4 a.arg5 a.harg5 a.arg10 a.harg10 a.x0 a.x1 a.x2 a.x3 a.x4 a.xs0)
  | ⟨_ + 8, h⟩ => absurd h (Nat.not_lt.2 (Nat.le_add_left _ _))

/-- Graph `g`'s output block, as stored. -/
def Args.T3 (a : Args F) : Fin 8 → FVec F S1x325x128 .f32
  | ⟨0, _⟩ => k0_pay58 (kernelRun.sl.r_3 a.c a.arg2 a.harg2 a.x1) (kernelRun.sl.r_37 a.c a.arg8 a.harg8 a.x7) (kernelRun.sl.r_38 a.c a.arg1 a.harg1 a.arg2 a.harg2 a.arg3 a.harg3 a.arg4 a.harg4 a.arg5 a.harg5 a.arg6 a.harg6 a.arg7 a.harg7 a.arg10 a.harg10 a.arg11 a.harg11 a.x0 a.x1 a.x2 a.x3 a.x4 a.x5 a.x6 a.xs0 a.xs1) (kernelRun.sl.r_39 a.c a.arg1 a.harg1 a.arg2 a.harg2 a.arg3 a.harg3 a.arg4 a.harg4 a.arg5 a.harg5 a.arg6 a.harg6 a.arg7 a.harg7 a.arg10 a.harg10 a.arg11 a.harg11 a.x0 a.x1 a.x2 a.x3 a.x4 a.x5 a.x6 a.xs0 a.xs1) (kernelRun.sl.r_40 a.c a.arg1 a.harg1 a.arg2 a.harg2 a.arg3 a.harg3 a.arg4 a.harg4 a.arg5 a.harg5 a.arg6 a.harg6 a.arg7 a.harg7 a.arg10 a.harg10 a.arg11 a.harg11 a.x0 a.x1 a.x2 a.x3 a.x4 a.x5 a.x6 a.xs0 a.xs1)
  | ⟨1, _⟩ => k0_pay59 (kernelRun.sl.r_8 a.c a.arg2 a.harg2 a.x1) (kernelRun.sl.r_37 a.c a.arg8 a.harg8 a.x7) (kernelRun.sl.r_38 a.c a.arg1 a.harg1 a.arg2 a.harg2 a.arg3 a.harg3 a.arg4 a.harg4 a.arg5 a.harg5 a.arg6 a.harg6 a.arg7 a.harg7 a.arg10 a.harg10 a.arg11 a.harg11 a.x0 a.x1 a.x2 a.x3 a.x4 a.x5 a.x6 a.xs0 a.xs1)
  | ⟨2, _⟩ => k0_pay61 (kernelRun.sl.r_41 a.c a.arg1 a.harg1 a.arg2 a.harg2 a.arg3 a.harg3 a.arg4 a.harg4 a.arg5 a.harg5 a.arg6 a.harg6 a.arg7 a.harg7 a.arg8 a.harg8 a.arg10 a.harg10 a.arg11 a.harg11 a.x0 a.x1 a.x2 a.x3 a.x4 a.x5 a.x6 a.x7 a.xs0 a.xs1)
  | ⟨3, _⟩ => k0_pay62 (kernelRun.sl.r_14 a.c a.arg2 a.harg2 a.x1) (kernelRun.sl.r_37 a.c a.arg8 a.harg8 a.x7) (kernelRun.sl.r_38 a.c a.arg1 a.harg1 a.arg2 a.harg2 a.arg3 a.harg3 a.arg4 a.harg4 a.arg5 a.harg5 a.arg6 a.harg6 a.arg7 a.harg7 a.arg10 a.harg10 a.arg11 a.harg11 a.x0 a.x1 a.x2 a.x3 a.x4 a.x5 a.x6 a.xs0 a.xs1)
  | ⟨4, _⟩ => k0_pay63 (kernelRun.sl.r_15 a.c a.arg2 a.harg2 a.x1) (kernelRun.sl.r_37 a.c a.arg8 a.harg8 a.x7) (kernelRun.sl.r_38 a.c a.arg1 a.harg1 a.arg2 a.harg2 a.arg3 a.harg3 a.arg4 a.harg4 a.arg5 a.harg5 a.arg6 a.harg6 a.arg7 a.harg7 a.arg10 a.harg10 a.arg11 a.harg11 a.x0 a.x1 a.x2 a.x3 a.x4 a.x5 a.x6 a.xs0 a.xs1)
  | ⟨5, _⟩ => k0_pay66 (kernelRun.sl.r_19 a.c a.arg2 a.harg2 a.x1) (kernelRun.sl.r_37 a.c a.arg8 a.harg8 a.x7) (kernelRun.sl.r_38 a.c a.arg1 a.harg1 a.arg2 a.harg2 a.arg3 a.harg3 a.arg4 a.harg4 a.arg5 a.harg5 a.arg6 a.harg6 a.arg7 a.harg7 a.arg10 a.harg10 a.arg11 a.harg11 a.x0 a.x1 a.x2 a.x3 a.x4 a.x5 a.x6 a.xs0 a.xs1) (kernelRun.sl.r_42 a.c a.arg1 a.harg1 a.arg2 a.harg2 a.arg3 a.harg3 a.arg4 a.harg4 a.arg5 a.harg5 a.arg6 a.harg6 a.arg7 a.harg7 a.arg10 a.harg10 a.arg11 a.harg11 a.x0 a.x1 a.x2 a.x3 a.x4 a.x5 a.x6 a.xs0 a.xs1) (kernelRun.sl.r_43 a.c a.arg1 a.harg1 a.arg2 a.harg2 a.arg3 a.harg3 a.arg4 a.harg4 a.arg5 a.harg5 a.arg6 a.harg6 a.arg7 a.harg7 a.arg10 a.harg10 a.arg11 a.harg11 a.x0 a.x1 a.x2 a.x3 a.x4 a.x5 a.x6 a.xs0 a.xs1)
  | ⟨6, _⟩ => k0_pay67 (kernelRun.sl.r_20 a.c a.arg2 a.harg2 a.x1) (kernelRun.sl.r_37 a.c a.arg8 a.harg8 a.x7) (kernelRun.sl.r_38 a.c a.arg1 a.harg1 a.arg2 a.harg2 a.arg3 a.harg3 a.arg4 a.harg4 a.arg5 a.harg5 a.arg6 a.harg6 a.arg7 a.harg7 a.arg10 a.harg10 a.arg11 a.harg11 a.x0 a.x1 a.x2 a.x3 a.x4 a.x5 a.x6 a.xs0 a.xs1)
  | ⟨7, _⟩ => k0_pay1 (kernelRun.sl.r_44 a.c a.arg1 a.harg1 a.arg2 a.harg2 a.arg3 a.harg3 a.arg4 a.harg4 a.arg5 a.harg5 a.arg6 a.harg6 a.arg7 a.harg7 a.arg8 a.harg8 a.arg10 a.harg10 a.arg11 a.harg11 a.x0 a.x1 a.x2 a.x3 a.x4 a.x5 a.x6 a.x7 a.xs0 a.xs1)
  | ⟨_ + 8, h⟩ => absurd h (Nat.not_lt.2 (Nat.le_add_left _ _))

end Cert.KernelIdeal.Body

end
-- ==== Proof.Spec.lean ====
/-
  The mathematics of both programs, over the reals.

  One graph has `S` nodes, an adjacency matrix `A` and node features `x`. Its scaled Laplacian is
  `L = −D^{-1/2} A D^{-1/2}`, where `D` is the diagonal of row sums of `A` and a node whose row sum is not
  positive gets weight `0`. One Chebyshev layer of order three with weights `W 0, W 1, W 2` and bias `b` is

      x·W 0 + (L x)·W 1 + (2 L (L x) − x)·W 2 + b                                   (`layerRef`)

  and the net is three such layers with `max(·, 0)` between them. The same layer can be arranged by
  projecting first: with the three weight blocks laid side by side as `[W 0 − W 2 | W 1 | W 2]` and
  `p = x·[…]` cut back into `p₀, p₁, p₂`,

      p₀ + L·(p₁ + 2 L·p₂) + b                                                       (`layerKer`)

  The two agree because matrix products associate and distribute over sums — laws of the reals.
-/
import Idealize.ShloMosaic.PureOps.Ideal

noncomputable section

namespace Cert.Spec

open BigOperators

variable {S Fi Fo F0 F1 F2 F3 : ℕ}

/-- A node's degree: its row sum. -/
def deg (A : Fin S → Fin S → ℝ) (s : Fin S) : ℝ := ∑ m, A s m

/-- `deg^{-1/2}` where the degree is positive, else `0`. -/
def dinv (A : Fin S → Fin S → ℝ) (s : Fin S) : ℝ := if 0 < deg A s then (Real.sqrt (deg A s))⁻¹ else 0

/-- The scaled Laplacian `−D^{-1/2} A D^{-1/2}`. -/
def lap (A : Fin S → Fin S → ℝ) (s m : Fin S) : ℝ := -(A s m * dinv A s * dinv A m)

/-- One layer, basis first: `x·W 0 + (L x)·W 1 + (2 L (L x) − x)·W 2 + b`. -/
def layerRef (L : Fin S → Fin S → ℝ) (x : Fin S → Fin Fi → ℝ) (W : Fin 3 → Fin Fi → Fin Fo → ℝ) (b : Fin Fo → ℝ) :
    Fin S → Fin Fo → ℝ := fun s o =>
  (((∑ f, x s f * W 0 f o) + ∑ f, (∑ m, L s m * x m f) * W 1 f o)
    + ∑ f, (2 * (∑ m, L s m * (∑ m', L m m' * x m' f)) - x s f) * W 2 f o) + b o

/-- The three weight blocks side by side, `[W 0 − W 2 | W 1 | W 2]`, as a function of a column number
    (columns from `3 * Fo` on read `0`). -/
def stack (W : Fin 3 → Fin Fi → Fin Fo → ℝ) (f : Fin Fi) (j : ℕ) : ℝ :=
  if h : j < Fo then W 0 f ⟨j, h⟩ - W 2 f ⟨j, h⟩
  else if h1 : j - Fo < Fo then W 1 f ⟨j - Fo, h1⟩
  else if h2 : j - 2 * Fo < Fo then W 2 f ⟨j - 2 * Fo, h2⟩ else 0

/-- One layer, projection first, over side-by-side weights `Wst` (column `o` of block `k` is column `k * Fo + o`):
    `p₀ + L·(p₁ + 2 L·p₂) + b`. -/
def layerKer (L : Fin S → Fin S → ℝ) (x : Fin S → Fin Fi → ℝ) (Wst : Fin Fi → ℕ → ℝ) (b : Fin Fo → ℝ) :
    Fin S → Fin Fo → ℝ := fun s o =>
  ((∑ f, x s f * Wst f o.val)
    + ∑ m, L s m * ((∑ f, x m f * Wst f (Fo + o.val)) + 2 * ∑ m', L m m' * (∑ f, x m' f * Wst f (2 * Fo + o.val)))) + b o

/-- `max(·, 0)`, entry by entry. -/
def hid (h : Fin S → Fin Fo → ℝ) : Fin S → Fin Fo → ℝ := fun s o => max (h s o) 0

/-- The net, basis first. -/
def netRef (A : Fin S → Fin S → ℝ) (X : Fin S → Fin F0 → ℝ)
    (W1 : Fin 3 → Fin F0 → Fin F1 → ℝ) (b1 : Fin F1 → ℝ) (W2 : Fin 3 → Fin F1 → Fin F2 → ℝ) (b2 : Fin F2 → ℝ)
    (W3 : Fin 3 → Fin F2 → Fin F3 → ℝ) (b3 : Fin F3 → ℝ) : Fin S → Fin F3 → ℝ :=
  layerRef (lap A) (hid (layerRef (lap A) (hid (layerRef (lap A) X W1 b1)) W2 b2)) W3 b3

/-- The net, projection first, over side-by-side weights. -/
def netKer (A : Fin S → Fin S → ℝ) (X : Fin S → Fin F0 → ℝ)
    (Ws1 : Fin F0 → ℕ → ℝ) (b1 : Fin F1 → ℝ) (Ws2 : Fin F1 → ℕ → ℝ) (b2 : Fin F2 → ℝ)
    (Ws3 : Fin F2 → ℕ → ℝ) (b3 : Fin F3 → ℝ) : Fin S → Fin F3 → ℝ :=
  layerKer (lap A) (hid (layerKer (lap A) (hid (layerKer (lap A) X Ws1 b1)) Ws2 b2)) Ws3 b3

end Cert.Spec

end
-- ==== Proof.Result.lean ====
/-
  The common result of both programs as ONE function of the eight argument arrays.

  An argument array holds extended reals; under the precondition every entry is finite, so it is the
  image of a real array (`Finite`, `coe_toReal`). `G` reads the real arrays off the raw contents
  (the node features `[16, 325, 12, 32]` flattened to `[16, 325, 384]` as the programs' reshape does:
  feature `f` is entry `(f / 32, f % 32)`) and returns the basis-first net of `Spec`, graph by graph.
-/
import proofs.«129663_g81071802679316_cont_sun_m_195_35_alg».proof.Proof.Spec
import Idealize.ShloMosaic.Lib.ValueIdx

noncomputable section

namespace Cert.Result

open Idealize.ShloMosaic Idealize.ShloMosaic.ValueIdx

/-- Every entry is a real number. -/
def Finite {s : Shape} (x : s.Idx → EReal) : Prop := ∀ i, x i ≠ ⊤ ∧ x i ≠ ⊥

theorem coe_toReal {s : Shape} {x : s.Idx → EReal} (h : Finite x) (i : s.Idx) : ((x i).toReal : EReal) = x i :=
  EReal.coe_toReal (h i).1 (h i).2

/-- Graph `b`'s adjacency matrix. -/
def Ar (A : (⟨3, ![16, 325, 325]⟩ : Shape).Idx → EReal) (b : Fin 16) : Fin 325 → Fin 325 → ℝ :=
  fun s m => (A (ix3 b s m)).toReal

/-- Graph `b`'s node features, the last two axes flattened row-major. -/
def Xr (X : (⟨4, ![16, 325, 12, 32]⟩ : Shape).Idx → EReal) (b : Fin 16) : Fin 325 → Fin 384 → ℝ :=
  fun s f => (X (ix4 b s ⟨f.val / 32, by have := f.isLt; omega⟩ ⟨f.val % 32, Nat.mod_lt _ (by decide)⟩)).toReal

/-- A weight triple. -/
def Wr {Fi Fo : ℕ} (W : (⟨3, ![3, Fi, Fo]⟩ : Shape).Idx → EReal) : Fin 3 → Fin Fi → Fin Fo → ℝ :=
  fun k f o => (W (ix3 k f o)).toReal

/-- A bias. -/
def br {n : ℕ} (b : (⟨1, ![n]⟩ : Shape).Idx → EReal) : Fin n → ℝ := fun o => (b (ix1 o)).toReal

/-- The result: entry `(b, s, o)` is the net of graph `b` at node `s`, output feature `o`. -/
def G (X : (⟨4, ![16, 325, 12, 32]⟩ : Shape).Idx → EReal) (A : (⟨3, ![16, 325, 325]⟩ : Shape).Idx → EReal)
    (W1 : (⟨3, ![3, 384, 256]⟩ : Shape).Idx → EReal) (b1 : (⟨1, ![256]⟩ : Shape).Idx → EReal)
    (W2 : (⟨3, ![3, 256, 256]⟩ : Shape).Idx → EReal) (b2 : (⟨1, ![256]⟩ : Shape).Idx → EReal)
    (W3 : (⟨3, ![3, 256, 128]⟩ : Shape).Idx → EReal) (b3 : (⟨1, ![128]⟩ : Shape).Idx → EReal) :
    (⟨3, ![16, 325, 128]⟩ : Shape).Idx → EReal := fun i =>
  ((Spec.netRef (Ar A (i 0)) (Xr X (i 0)) (Wr W1) (br b1) (Wr W2) (br b2) (Wr W3) (br b3) (i 1) (i 2) : ℝ) : EReal)

theorem G_apply (X A W1 b1 W2 b2 W3 b3) (b : Fin 16) (s : Fin 325) (o : Fin 128) :
    G X A W1 b1 W2 b2 W3 b3 (ix3 b s o)
      = ((Spec.netRef (Ar A b) (Xr X b) (Wr W1) (br b1) (Wr W2) (br b2) (Wr W3) (br b3) s o : ℝ) : EReal) := rfl

end Cert.Result

end
-- ==== Proof.KernelReals.lean ====
/-
  What one grid step computes, as real arrays.

  A step sees eight graphs. From the contents of its input buffers: graph `g`'s adjacency block `Ag g`, its
  node features `Xg g` (rows `336 g … 336 g + 324` of the stacked, padded feature block), the three
  side-by-side weight matrices read by column number (`Ws1`, `Ws2`, `Ws3`: columns past the end read `0`) and
  the three biases. The hidden layers and the output are then `Spec`'s projection-first layer, three
  times, with `max(·, 0)` after the first two.
-/
import proofs.«129663_g81071802679316_cont_sun_m_195_35_alg».proof.Proof.KernelTerms
import proofs.«129663_g81071802679316_cont_sun_m_195_35_alg».proof.Proof.Result

noncomputable section

namespace Cert.KernelIdeal.Body

open Cert.KernelIdeal Cert.KernelIdeal.Gen
open Idealize.ShloMosaic Idealize.ShloMosaic.TcCoe Idealize.ShloMosaic.ValueIdx
open Cert.Result (Finite)

/-- Every input buffer of the step holds real numbers only. (Nothing is asked of the scratch buffers.) -/
structure Args.FiniteIn (a : Args Ideal) : Prop where
  x0 : Finite a.x0
  x1 : Finite a.x1
  x2 : Finite a.x2
  x3 : Finite a.x3
  x4 : Finite a.x4
  x5 : Finite a.x5
  x6 : Finite a.x6
  x7 : Finite a.x7

/-- Row `336 g + s` of the stacked block. -/
abbrev grow (g : Fin 8) (s : Fin 325) : Fin 2688 := ⟨336 * g.val + s.val, by have := g.isLt; have := s.isLt; omega⟩

/-- The stacked feature block as a real array, all 2688 rows. -/
def Args.X0r (a : Args Ideal) : Fin 2688 → Fin 384 → ℝ := fun r f => EReal.toReal (a.x0 (ix2 r f))
/-- Graph `g`'s node features. -/
def Args.Xg (a : Args Ideal) (g : Fin 8) : Fin 325 → Fin 384 → ℝ := fun s f => a.X0r (grow g s) f
/-- Graph `g`'s adjacency block. -/
def Args.Ag (a : Args Ideal) (g : Fin 8) : Fin 325 → Fin 325 → ℝ := fun s m => EReal.toReal (a.x1 (ix3 g s m))
/-- The side-by-side weights, by column number. -/
def Args.Ws1 (a : Args Ideal) : Fin 384 → ℕ → ℝ := fun f j => if h : j < 768 then EReal.toReal (a.x2 (ix2 f ⟨j, h⟩)) else 0
def Args.Ws2 (a : Args Ideal) : Fin 256 → ℕ → ℝ := fun f j => if h : j < 768 then EReal.toReal (a.x4 (ix2 f ⟨j, h⟩)) else 0
def Args.Ws3 (a : Args Ideal) : Fin 256 → ℕ → ℝ := fun f j => if h : j < 384 then EReal.toReal (a.x6 (ix2 f ⟨j, h⟩)) else 0
/-- The biases. -/
def Args.b1r (a : Args Ideal) : Fin 256 → ℝ := fun o => EReal.toReal (a.x3 (ix1 o))
def Args.b2r (a : Args Ideal) : Fin 256 → ℝ := fun o => EReal.toReal (a.x5 (ix1 o))
def Args.b3r (a : Args Ideal) : Fin 128 → ℝ := fun o => EReal.toReal (a.x7 (ix1 o))

/-- Graph `g`'s hidden layers and output. -/
def Args.h1r (a : Args Ideal) (g : Fin 8) : Fin 325 → Fin 256 → ℝ :=
  Spec.hid (Spec.layerKer (Spec.lap (a.Ag g)) (a.Xg g) a.Ws1 a.b1r)
def Args.h2r (a : Args Ideal) (g : Fin 8) : Fin 325 → Fin 256 → ℝ :=
  Spec.hid (Spec.layerKer (Spec.lap (a.Ag g)) (a.h1r g) a.Ws2 a.b2r)
def Args.outr (a : Args Ideal) (g : Fin 8) : Fin 325 → Fin 128 → ℝ :=
  Spec.layerKer (Spec.lap (a.Ag g)) (a.h2r g) a.Ws3 a.b3r

theorem Args.outr_eq_netKer (a : Args Ideal) (g : Fin 8) :
    a.outr g = Spec.netKer (a.Ag g) (a.Xg g) a.Ws1 a.b1r a.Ws2 a.b2r a.Ws3 a.b3r := rfl

end Cert.KernelIdeal.Body

end
-- ==== Proof.KernelLap.lean ====
/-
  Each graph's scaled Laplacian, as the body computes it, is the real Laplacian of its adjacency block.

  The body sums each row of the block (the degree), takes `deg^{-1/2}` where the degree is positive and `0`
  elsewhere, scales row `s` and column `m` of the block by the two weights and negates. With every entry of the
  block a real number, each of these steps is the real operation: the row sum of reals is real, the
  comparison with `0` is the reals', the reciprocal root of a positive real is real.
-/
import proofs.«129663_g81071802679316_cont_sun_m_195_35_alg».proof.Proof.KernelReals
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Body

open Cert.KernelIdeal Cert.KernelIdeal.Gen
open Idealize.ShloMosaic Idealize.ShloMosaic.TcCoe Idealize.ShloMosaic.ValueIdx
open Cert.Result (Finite)
open BigOperators

/-! ## Two layout steps: a vector repeated along the rows, and along the columns -/

section Layout
variable {α : Type}

/-- A vector `[a]` viewed as a column `[a, 1]` and repeated to `[a, b]` reads, at `(i, j)`, its entry `i`. -/
theorem col_repeat_apply {a b : ℕ} (w : (⟨1, ![a]⟩ : Shape).Idx → α)
    (h1 : (⟨1, ![a]⟩ : Shape).ShapeCasts ⟨2, ![a, 1]⟩) (h2 : (⟨2, ![a, 1]⟩ : Shape).Broadcasts ⟨2, ![a, b]⟩)
    (i : Fin a) (j : Fin b) :
    broadcastTo ⟨2, ![a, b]⟩ (shapeCast ⟨2, ![a, 1]⟩ w h1) h2 (ix2 i j) = w (ix1 i) := by
  refine (broadcastTo_apply _ h2 (ix2 i j) (ix2 i (0 : Fin 1)) fun ax => ?_).trans ?_
  · match ax with
    | ⟨0, _⟩ =>
      show i.val = if a = 1 then 0 else i.val
      split
      · have := i.isLt; omega
      · rfl
    | ⟨1, _⟩ => rfl
  · exact shapeCast_apply w h1 _ _ (by
      rw [Shape.rowMajor_val_one, Shape.rowMajor_val_two]
      show i.val = i.val * 1 + 0
      omega)

/-- A vector `[b]` viewed as a row `[1, b]` and repeated to `[a, b]` reads, at `(i, j)`, its entry `j`. -/
theorem row_repeat_apply {a b : ℕ} (w : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (i : Fin a) (j : Fin b) :
    broadcastTo ⟨2, ![a, b]⟩ (shapeCast ⟨2, ![1, b]⟩ w h1) h2 (ix2 i j) = w (ix1 j) := by
  rw [broadcastTo_1b_ab_apply, shapeCast_a_1a_apply]

end Layout

/-! ## The steps of one Laplacian, named -/

/-- The loaded block, its unit axis dropped, widened. -/
def blk (v : Vec Ideal S1x325x325 .bf16) : FVec Ideal S325x325 .f32 :=
  extf .f32 (shapeCast S325x325 v shapeCasts_S1x325x325_S325x325) bitsLt_bf16_f32

/-- The row sums. -/
def rowSum (x : FVec Ideal S325x325 .f32) : FVec Ideal S325 .f32 :=
  multiReduction .add [1] S325 x 0x00000000#32 reduces_S325x325_S325 (.inl rfl) rfl

/-- Where a vector is above zero. -/
def pos (d : FVec Ideal S325 .f32) : IVec S325 1 :=
  cmpf .ogt d (broadcast S325 (Scalar.ofBits .f32 0x00000000#32))

/-- The weights: the reciprocal root where the entry is above zero (of `1` elsewhere, then dropped), `0` elsewhere. -/
def wt (d : FVec Ideal S325 .f32) : FVec Ideal S325 .f32 :=
  select (pos d) (rsqrt (select (pos d) d (broadcast S325 (Scalar.ofBits .f32 0x3F800000#32))))
    (broadcast S325 (Scalar.ofBits .f32 0x00000000#32))

/-- Rows and columns scaled by the weights, negated, narrowed. -/
def scaled (x : FVec Ideal S325x325 .f32) (w : FVec Ideal S325 .f32) : FVec Ideal S325x325 .bf16 :=
  truncf .bf16
    (subf (broadcast S325x325 (Scalar.ofBits .f32 0x00000000#32))
      (mulf (mulf x (broadcastTo S325x325 (shapeCast S325x1 w shapeCasts_S325_S325x1) broadcasts_S325x1_S325x325))
        (broadcastTo S325x325 (shapeCast S1x325 w shapeCasts_S325_S1x325) broadcasts_S1x325_S325x325)))
    bitsLt_bf16_f32

/-- One Laplacian from its loaded block. -/
def lapOf (v : Vec Ideal S1x325x325 .bf16) : FVec Ideal S325x325 .bf16 :=
  scaled (blk v) (wt (rowSum (blk v)))

theorem pay5_eq (v : Vec Ideal S1x325x325 .bf16) : k0_pay5 v = lapOf v := rfl
theorem pay12_eq (v : Vec Ideal S1x325x325 .bf16) : k0_pay12 v = lapOf v := rfl
theorem pay18_eq (v : Vec Ideal S1x325x325 .bf16) : k0_pay18 v = lapOf v := rfl
theorem pay23_eq (v : Vec Ideal S1x325x325 .bf16) : k0_pay23 v = lapOf v := rfl
theorem pay11_eq (v : Vec Ideal S1x325x325 .bf16) :
    k0_pay11 (k0_pay6 v) (k0_pay7 v) (k0_pay8 v) (k0_pay9 v) k0_pay10 = lapOf v := rfl
theorem pay17_eq (v : Vec Ideal S1x325x325 .bf16) :
    k0_pay17 (k0_pay13 v) (k0_pay14 v) (k0_pay15 v) (k0_pay16 v) = lapOf v := rfl
theorem pay22_eq (v : Vec Ideal S1x325x325 .bf16) :
    k0_pay22 (k0_pay19 v) (k0_pay20 v) (k0_pay21 v) (kernelRun.sl.cst_49 (F := Ideal)) = lapOf v := rfl
theorem pay27_eq (v : Vec Ideal S1x325x325 .bf16) :
    k0_pay27 (k0_pay24 v) (k0_pay25 v) k0_pay26 = lapOf v := rfl

/-! ## Each step at an index -/

/-- A finite sum of reals, taken in the extended reals, is the real sum. -/
theorem coe_sum {ι : Type} (t : Finset ι) (f : ι → ℝ) : (∑ k ∈ t, ((f k : ℝ) : EReal)) = ((∑ k ∈ t, f k : ℝ) : EReal) := by
  classical
  induction t using Finset.induction_on with
  | empty => simp
  | insert i t hi ih => rw [Finset.sum_insert hi, Finset.sum_insert hi, ih, EReal.coe_add]

/-- The words `0.0` and `1.0`. -/
theorem word_zero : Scalar.ofBits (F := Ideal) .f32 0x00000000#32 = 0 := Ideal.ofBits_zero_f32
theorem word_one : Scalar.ofBits (F := Ideal) .f32 0x3F800000#32 = 1 := by
  show Ideal.ofBits .f32 0x3F800000#32 = 1
  simp [Ideal.ofBits, Ideal.ieee]
  rw [← EReal.coe_mul, ← EReal.coe_one]
  congr 1
  norm_num

/-- The widened block at `(s, m)` is the loaded block at `(0, s, m)`. -/
theorem blk_apply (v : Vec Ideal S1x325x325 .bf16) (s m : Fin 325) : blk v (ix2 s m) = v (ix3 (0 : Fin 1) s m) := by
  unfold blk
  rw [extf_apply]
  exact shapeCast_1ab_ab_apply v _ s m

/-- A row sum is the sum over the row. -/
theorem rowSum_apply (x : FVec Ideal S325x325 .f32) (s : Fin 325) : rowSum x (ix1 s) = ∑ k : Fin 325, x (ix2 s k) := by
  unfold rowSum
  refine (Ideal.multiReduction_add_single x 0x00000000#32 reduces_S325x325_S325 (.inl rfl) rfl (ix1 s)).trans ?_
  refine Finset.sum_congr rfl fun k _ => congrArg x ?_
  funext a
  match a with
  | ⟨0, _⟩ => exact Fin.ext rfl
  | ⟨1, _⟩ => exact Fin.ext rfl

/-- Above-zero, on a real. -/
theorem pos_apply (d : FVec Ideal S325 .f32) (r : ℝ) (s : Fin 325) (hd : d (ix1 s) = (r : EReal)) :
    pos d (ix1 s) = if 0 < r then 1#1 else 0#1 := by
  unfold pos
  rw [cmpf_apply, broadcast_apply, hd, word_zero, Ideal.cmpf_def]
  unfold Ideal.cmp
  by_cases hr : 0 < r
  · rw [if_pos hr]
    have : (0 : EReal) < (r : EReal) := EReal.coe_pos.mpr hr
    simp [this]
  · rw [if_neg hr]
    have : ¬ (0 : EReal) < (r : EReal) := fun h => hr (EReal.coe_pos.mp h)
    simp [this]

/-- The weight of a real entry: its reciprocal root where it is positive, else `0`. -/
theorem wt_apply (d : FVec Ideal S325 .f32) (r : ℝ) (s : Fin 325) (hd : d (ix1 s) = (r : EReal)) :
    wt d (ix1 s) = ((if 0 < r then (Real.sqrt r)⁻¹ else 0 : ℝ) : EReal) := by
  unfold wt
  rw [select_apply, pos_apply d r s hd, broadcast_apply, word_zero]
  by_cases hr : 0 < r
  · rw [if_pos hr, if_pos hr, select_one]
    show FloatOps.rsqrt (select (pos d) d (broadcast S325 (Scalar.ofBits .f32 0x3F800000#32)) (ix1 s)) = _
    rw [select_apply, pos_apply d r s hd, if_pos hr, select_one, hd, Ideal.rsqrt_def, Ideal.rsqrt_coe,
      if_neg (not_lt.mpr hr.le), if_neg hr.ne']
  · rw [if_neg hr, if_neg hr, select_zero, EReal.coe_zero]

/-- The scaled, negated block at `(s, m)`. -/
theorem scaled_apply (x : FVec Ideal S325x325 .f32) (w : FVec Ideal S325 .f32) (s m : Fin 325) :
    scaled x w (ix2 s m) = 0 - x (ix2 s m) * w (ix1 s) * w (ix1 m) := by
  unfold scaled
  rw [truncf_apply, subf_apply, broadcast_apply, word_zero, mulf_apply, mulf_apply]
  rw [col_repeat_apply w shapeCasts_S325_S325x1 broadcasts_S325x1_S325x325 s m,
    row_repeat_apply w shapeCasts_S325_S1x325 broadcasts_S1x325_S325x325 s m]

/-- One Laplacian of a block of reals is the real Laplacian. -/
theorem lapOf_apply (v : Vec Ideal S1x325x325 .bf16) (A : Fin 325 → Fin 325 → ℝ)
    (hv : ∀ s m, v (ix3 (0 : Fin 1) s m) = ((A s m : ℝ) : EReal)) (s m : Fin 325) :
    lapOf v (ix2 s m) = ((Spec.lap A s m : ℝ) : EReal) := by
  have hdeg : ∀ t : Fin 325, rowSum (blk v) (ix1 t) = ((Spec.deg A t : ℝ) : EReal) := fun t => by
    rw [rowSum_apply]
    unfold Spec.deg
    rw [← coe_sum]
    exact Finset.sum_congr rfl fun k _ => (blk_apply v t k).trans (hv t k)
  have hw : ∀ t : Fin 325, wt (rowSum (blk v)) (ix1 t) = ((Spec.dinv A t : ℝ) : EReal) := fun t =>
    wt_apply _ _ t (hdeg t)
  unfold lapOf
  rw [scaled_apply, blk_apply, hv, hw s, hw m]
  unfold Spec.lap
  rw [← EReal.coe_mul, ← EReal.coe_mul, ← EReal.coe_zero, ← EReal.coe_sub, zero_sub]

/-! ## The eight loads, and the eight Laplacians -/

/-- Block `g` of the adjacency buffer, as one load reads it: entry `(0, s, m)` of the load is entry `(g, s, m)` of
    the buffer's contents. -/
theorem load_apply (a : Args Ideal) (off : Fin 3 → ℕ)
    (inb : ∀ ax, off ax + S1x325x325.size ax ≤ S8x325x325.size ax) (g : Fin 8)
    (h0 : off 0 = g.val) (h1 : off 1 = 0) (h2 : off 2 = 0) (s m : Fin 325) :
    View.readAt (Elt Ideal) a.arg2.view (Rect.unit (s := S8x325x325) off S1x325x325.size inb).toLoadRect
        (a.harg2.unread a.x1) (ix3 (0 : Fin 1) s m) = a.x1 (ix3 g s m) := by
  rw [View.readAt_apply, Memref.IsWhole.read_unread]
  refine congrArg a.x1 ?_
  funext ax
  refine Fin.ext ?_
  match ax with
  | ⟨0, _⟩ => show off 0 + 1 * 0 = g.val; omega
  | ⟨1, _⟩ => show off 1 + 1 * s.val = s.val; omega
  | ⟨2, _⟩ => show off 2 + 1 * m.val = m.val; omega

/-- With the buffer's contents real, the load of block `g` is the coercion of graph `g`'s adjacency block. -/
theorem load_real (a : Args Ideal) (hf : Finite a.x1) (off : Fin 3 → ℕ)
    (inb : ∀ ax, off ax + S1x325x325.size ax ≤ S8x325x325.size ax) (g : Fin 8)
    (h0 : off 0 = g.val) (h1 : off 1 = 0) (h2 : off 2 = 0) (s m : Fin 325) :
    View.readAt (Elt Ideal) a.arg2.view (Rect.unit (s := S8x325x325) off S1x325x325.size inb).toLoadRect
        (a.harg2.unread a.x1) (ix3 (0 : Fin 1) s m) = ((a.Ag g s m : ℝ) : EReal) :=
  (load_apply a off inb g h0 h1 h2 s m).trans (Cert.Result.coe_toReal hf _).symm

/-- Graph `g`'s Laplacian at entry `(s, m)`. -/
theorem lap_value (a : Args Ideal) (hf : Finite a.x1) (g : Fin 8) (s m : Fin 325) :
    a.L g (ix2 s m) = ((Spec.lap (a.Ag g) s m : ℝ) : EReal) := by
  match g with
  | ⟨0, _⟩ =>
    exact (congrFun (pay5_eq _) _).trans
      (lapOf_apply _ _ (load_real a hf ![0, 0, 0] inb_S8x325x325_S1x325x325_0_0_0 0 rfl rfl rfl) s m)
  | ⟨1, _⟩ =>
    exact (congrFun (pay11_eq _) _).trans
      (lapOf_apply _ _ (load_real a hf ![1, 0, 0] inb_S8x325x325_S1x325x325_1_0_0 1 rfl rfl rfl) s m)
  | ⟨2, _⟩ =>
    exact (congrFun (pay12_eq _) _).trans
      (lapOf_apply _ _ (load_real a hf ![2, 0, 0] inb_S8x325x325_S1x325x325_2_0_0 2 rfl rfl rfl) s m)
  | ⟨3, _⟩ =>
    exact (congrFun (pay17_eq _) _).trans
      (lapOf_apply _ _ (load_real a hf ![3, 0, 0] inb_S8x325x325_S1x325x325_3_0_0 3 rfl rfl rfl) s m)
  | ⟨4, _⟩ =>
    exact (congrFun (pay18_eq _) _).trans
      (lapOf_apply _ _ (load_real a hf ![4, 0, 0] inb_S8x325x325_S1x325x325_4_0_0 4 rfl rfl rfl) s m)
  | ⟨5, _⟩ =>
    exact (congrFun (pay22_eq _) _).trans
      (lapOf_apply _ _ (load_real a hf ![5, 0, 0] inb_S8x325x325_S1x325x325_5_0_0 5 rfl rfl rfl) s m)
  | ⟨6, _⟩ =>
    exact (congrFun (pay23_eq _) _).trans
      (lapOf_apply _ _ (load_real a hf ![6, 0, 0] inb_S8x325x325_S1x325x325_6_0_0 6 rfl rfl rfl) s m)
  | ⟨7, _⟩ =>
    exact (congrFun (pay27_eq _) _).trans
      (lapOf_apply _ _ (load_real a hf ![7, 0, 0] inb_S8x325x325_S1x325x325_7_0_0 7 rfl rfl rfl) s m)

end Cert.KernelIdeal.Body

end
-- ==== Proof.KernelLayer1.lean ====
/-
  The first layer of one grid step.

  The stacked projection `P1` is ONE tall product of the stacked feature block with the side-by-side
  weights, so its row `r` is the product of row `r` of the features alone. Graph `g`'s stored block is
  `max(p₀ + L·(p₁ + 2 L·p₂) + b, 0)` with `p₀, p₁, p₂` the three column blocks of rows `336 g … 336 g + 324`
  of `P1`: at real inputs, `Spec.hid (Spec.layerKer …)`.
-/
import proofs.«129663_g81071802679316_cont_sun_m_195_35_alg».proof.Proof.KernelLap
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Body

open Cert.KernelIdeal Cert.KernelIdeal.Gen
open Idealize.ShloMosaic Idealize.ShloMosaic.TcCoe Idealize.ShloMosaic.ValueIdx
open Cert.Result (Finite)
open BigOperators

/-! ## Reals inside the extended reals -/

/-- The coercion of a finite sum of reals is the sum of the coercions. -/
theorem coe_finsum_real {ι : Type*} (t : Finset ι) (f : ι → ℝ) :
    ((∑ i ∈ t, f i : ℝ) : EReal) = ∑ i ∈ t, ((f i : ℝ) : EReal) := by
  classical
  induction t using Finset.induction_on with
  | empty => simp
  | insert a t ha ih => rw [Finset.sum_insert ha, Finset.sum_insert ha, EReal.coe_add, ih]

/-- The coercion is monotone, so it passes a maximum. -/
theorem coe_max_real (x y : ℝ) : ((max x y : ℝ) : EReal) = max (x : EReal) (y : EReal) :=
  EReal.coe_strictMono.monotone.map_max

/-- The word of `2.0` is the number two. -/
theorem ofBits_two_f32 : Ideal.ofBits .f32 0x40000000#32 = ((2 : ℝ) : EReal) := by
  simp [Ideal.ofBits, Ideal.ieee]
  rw [← EReal.coe_mul]
  exact congrArg _ (by norm_num)

/-! ## The two products of a block, read at an entry

A product of a `[325, 325]` matrix with a `[325, 256]` matrix into a zero accumulator is, at entry `(s, j)`, the
sum over the middle index of the entries' products; likewise the tall product of the `[2688, 384]` block with the
`[384, 768]` weights. The operands' indices at an output entry and a middle index are read off the contraction's axes. -/

theorem lhs_dotLV_0 (i : S325x256.Idx) (q : dot_S325x325_S325x256_S325x256_1_0_0_1_n_n.contr.Idx) :
    (dot_S325x325_S325x256_S325x256_1_0_0_1_n_n.lhsIdx i q 0).val = (i 0).val := by
  unfold DotDims.lhsIdx
  rw [dif_neg (show ¬(0 : Fin S325x325.rank) ∈ dot_S325x325_S325x256_S325x256_1_0_0_1_n_n.lhsBatch by decide), dif_pos (show (0 : Fin S325x325.rank) ∈ dot_S325x325_S325x256_S325x256_1_0_0_1_n_n.lhsNonContracting by decide)]
  rfl
theorem lhs_dotLV_1 (i : S325x256.Idx) (q : dot_S325x325_S325x256_S325x256_1_0_0_1_n_n.contr.Idx) :
    (dot_S325x325_S325x256_S325x256_1_0_0_1_n_n.lhsIdx i q 1).val = (q ⟨0, by decide⟩).val :=
  dot_S325x325_S325x256_S325x256_1_0_0_1_n_n.lhsIdx_val_of_single rfl i q
theorem rhs_dotLV_0 (i : S325x256.Idx) (q : dot_S325x325_S325x256_S325x256_1_0_0_1_n_n.contr.Idx) :
    (dot_S325x325_S325x256_S325x256_1_0_0_1_n_n.rhsIdx i q 0).val = (q ⟨0, by decide⟩).val :=
  dot_S325x325_S325x256_S325x256_1_0_0_1_n_n.rhsIdx_val_of_single rfl i q
theorem rhs_dotLV_1 (i : S325x256.Idx) (q : dot_S325x325_S325x256_S325x256_1_0_0_1_n_n.contr.Idx) :
    (dot_S325x325_S325x256_S325x256_1_0_0_1_n_n.rhsIdx i q 1).val = (i 1).val := by
  unfold DotDims.rhsIdx
  rw [dif_neg (show ¬(1 : Fin S325x256.rank) ∈ dot_S325x325_S325x256_S325x256_1_0_0_1_n_n.rhsBatch by decide), dif_pos (show (1 : Fin S325x256.rank) ∈ dot_S325x325_S325x256_S325x256_1_0_0_1_n_n.rhsNonContracting by decide)]
  rfl

/-- `L · V` at entry `(s, j)`. -/
theorem matmul_LV_apply (L : FVec Ideal S325x325 .bf16) (V : FVec Ideal S325x256 .bf16) (s : Fin 325) (j : Fin 256) :
    matmul dot_S325x325_S325x256_S325x256_1_0_0_1_n_n none L V (constant (F := Ideal) S325x256 .f32 0x00000000#32) (ix2 s j)
      = ∑ m : Fin 325, L (ix2 s m) * V (ix2 m j) := by
  simp only [matmul]
  rw [Ideal.matmul_constant_zero_apply, ← Equiv.sum_comp (contrEquiv1 dot_S325x325_S325x256_S325x256_1_0_0_1_n_n 325 rfl rfl).symm]
  refine Finset.sum_congr rfl fun k _ => ?_
  have hk := contrEquiv1_symm_val dot_S325x325_S325x256_S325x256_1_0_0_1_n_n 325 rfl rfl k
  have el : dot_S325x325_S325x256_S325x256_1_0_0_1_n_n.lhsIdx (ix2 s j) ((contrEquiv1 dot_S325x325_S325x256_S325x256_1_0_0_1_n_n 325 rfl rfl).symm k) = ix2 s k := funext fun a => Fin.ext (by
    match a with
    | ⟨0, _⟩ => exact lhs_dotLV_0 _ _
    | ⟨1, _⟩ => exact (lhs_dotLV_1 _ _).trans hk)
  have er : dot_S325x325_S325x256_S325x256_1_0_0_1_n_n.rhsIdx (ix2 s j) ((contrEquiv1 dot_S325x325_S325x256_S325x256_1_0_0_1_n_n 325 rfl rfl).symm k) = ix2 k j := funext fun a => Fin.ext (by
    match a with
    | ⟨0, _⟩ => exact (rhs_dotLV_0 _ _).trans hk
    | ⟨1, _⟩ => exact rhs_dotLV_1 _ _)
  rw [el, er]

theorem lhs_dotXW_0 (i : S2688x768.Idx) (q : dot_S2688x384_S384x768_S2688x768_1_0_0_1_n_n.contr.Idx) :
    (dot_S2688x384_S384x768_S2688x768_1_0_0_1_n_n.lhsIdx i q 0).val = (i 0).val := by
  unfold DotDims.lhsIdx
  rw [dif_neg (show ¬(0 : Fin S2688x384.rank) ∈ dot_S2688x384_S384x768_S2688x768_1_0_0_1_n_n.lhsBatch by decide), dif_pos (show (0 : Fin S2688x384.rank) ∈ dot_S2688x384_S384x768_S2688x768_1_0_0_1_n_n.lhsNonContracting by decide)]
  rfl
theorem lhs_dotXW_1 (i : S2688x768.Idx) (q : dot_S2688x384_S384x768_S2688x768_1_0_0_1_n_n.contr.Idx) :
    (dot_S2688x384_S384x768_S2688x768_1_0_0_1_n_n.lhsIdx i q 1).val = (q ⟨0, by decide⟩).val :=
  dot_S2688x384_S384x768_S2688x768_1_0_0_1_n_n.lhsIdx_val_of_single rfl i q
theorem rhs_dotXW_0 (i : S2688x768.Idx) (q : dot_S2688x384_S384x768_S2688x768_1_0_0_1_n_n.contr.Idx) :
    (dot_S2688x384_S384x768_S2688x768_1_0_0_1_n_n.rhsIdx i q 0).val = (q ⟨0, by decide⟩).val :=
  dot_S2688x384_S384x768_S2688x768_1_0_0_1_n_n.rhsIdx_val_of_single rfl i q
theorem rhs_dotXW_1 (i : S2688x768.Idx) (q : dot_S2688x384_S384x768_S2688x768_1_0_0_1_n_n.contr.Idx) :
    (dot_S2688x384_S384x768_S2688x768_1_0_0_1_n_n.rhsIdx i q 1).val = (i 1).val := by
  unfold DotDims.rhsIdx
  rw [dif_neg (show ¬(1 : Fin S384x768.rank) ∈ dot_S2688x384_S384x768_S2688x768_1_0_0_1_n_n.rhsBatch by decide), dif_pos (show (1 : Fin S384x768.rank) ∈ dot_S2688x384_S384x768_S2688x768_1_0_0_1_n_n.rhsNonContracting by decide)]
  rfl

/-- `X · W` at entry `(r, j)`. -/
theorem matmul_XW_apply (X : FVec Ideal S2688x384 .bf16) (W : FVec Ideal S384x768 .bf16) (r : Fin 2688) (j : Fin 768) :
    matmul dot_S2688x384_S384x768_S2688x768_1_0_0_1_n_n none X W (constant (F := Ideal) S2688x768 .f32 0x00000000#32) (ix2 r j)
      = ∑ f : Fin 384, X (ix2 r f) * W (ix2 f j) := by
  simp only [matmul]
  rw [Ideal.matmul_constant_zero_apply, ← Equiv.sum_comp (contrEquiv1 dot_S2688x384_S384x768_S2688x768_1_0_0_1_n_n 384 rfl rfl).symm]
  refine Finset.sum_congr rfl fun k _ => ?_
  have hk := contrEquiv1_symm_val dot_S2688x384_S384x768_S2688x768_1_0_0_1_n_n 384 rfl rfl k
  have el : dot_S2688x384_S384x768_S2688x768_1_0_0_1_n_n.lhsIdx (ix2 r j) ((contrEquiv1 dot_S2688x384_S384x768_S2688x768_1_0_0_1_n_n 384 rfl rfl).symm k) = ix2 r k := funext fun a => Fin.ext (by
    match a with
    | ⟨0, _⟩ => exact lhs_dotXW_0 _ _
    | ⟨1, _⟩ => exact (lhs_dotXW_1 _ _).trans hk)
  have er : dot_S2688x384_S384x768_S2688x768_1_0_0_1_n_n.rhsIdx (ix2 r j) ((contrEquiv1 dot_S2688x384_S384x768_S2688x768_1_0_0_1_n_n 384 rfl rfl).symm k) = ix2 k j := funext fun a => Fin.ext (by
    match a with
    | ⟨0, _⟩ => exact (rhs_dotXW_0 _ _).trans hk
    | ⟨1, _⟩ => exact rhs_dotXW_1 _ _)
  rw [el, er]

/-! ## A whole buffer loaded whole -/

/-- A load of the whole rectangle at zero offsets through a whole buffer held at the contents that read `X` reads `X`. -/
theorem load_whole_unread {sig : RefSig} {Val : EltTy → Type} {κ : Kind} {sp : Space} {s : Shape} {e : EltTy}
    {m : Memref sig κ sp s e} (h : m.IsWhole) (X : s.Idx → Val e) {off : Fin s.rank → ℕ} (hz : off = fun _ => 0)
    (inb : ∀ a, off a + s.size a ≤ s.size a) :
    View.readAt Val m.view (Rect.unit off s.size inb).toLoadRect (h.unread X) = X := by
  show View.ld (m.view.read Val (h.unread X)) (Rect.unit off s.size inb) = X
  rw [h.read_unread X, View.ld_unit_zero hz inb]

/-! ## The first projection -/

/-- The first projection at row `r`, column `j`: the row of features against the column of weights. -/
theorem P1_value (a : Args Ideal) (hf : a.FiniteIn) (r : Fin 2688) (j : Fin 768) :
    a.P1 (ix2 r j) = ((∑ f, a.X0r r f * a.Ws1 f j.val : ℝ) : EReal) := by
  have hx : View.readAt (Elt Ideal) a.arg1.view (Rect.unit (s := S2688x384) ![0, 0] S2688x384.size inb_S2688x384_S2688x384_0_0).toLoadRect (a.harg1.unread a.x0) = a.x0 :=
    load_whole_unread a.harg1 a.x0 (funext fun ax => by match ax with | ⟨0, _⟩ => rfl | ⟨1, _⟩ => rfl) _
  have hw : View.readAt (Elt Ideal) a.arg3.view (Rect.unit (s := S384x768) ![0, 0] S384x768.size inb_S384x768_S384x768_0_0).toLoadRect (a.harg3.unread a.x2) = a.x2 :=
    load_whole_unread a.harg3 a.x2 (funext fun ax => by match ax with | ⟨0, _⟩ => rfl | ⟨1, _⟩ => rfl) _
  unfold Args.P1 kernelRun.sl.r_25 kernelRun.sl.r k0_pay28 k0_pay2
  rw [hx, hw, shapeCast_self, shapeCast_self]
  refine (matmul_XW_apply a.x0 a.x2 r j).trans ?_
  rw [coe_finsum_real]
  refine Finset.sum_congr rfl fun f _ => ?_
  rw [EReal.coe_mul]
  congr 1
  · exact (Cert.Result.coe_toReal hf.x0 _).symm
  · show a.x2 (ix2 f j) = ((a.Ws1 f j.val : ℝ) : EReal)
    unfold Args.Ws1
    rw [dif_pos j.isLt]
    exact (Cert.Result.coe_toReal hf.x2 _).symm

/-! ## One hidden block as a function of the stacked projection

Graph by graph the body computes the same function of the stacked projection `P`, the graph's Laplacian `L`, the
bias `b` and the graph's row offset `off`: with `p₀, p₁, p₂` the column blocks `[0, 256)`, `[256, 512)`,
`[512, 768)` of rows `off … off + 324` of `P`, first `v = p₁ + 2 L·p₂`, then `max(p₀ + L·v + b, 0)`. -/

section Block
variable {F : FTy → Type} [FloatOps F]

/-- `v = p₁ + 2 L·p₂`. -/
def hidInner (P : FVec F S2688x768 .f32) (L : FVec F S325x325 .bf16) (off : ℕ)
    (h1 : S2688x768.Slices ![off, 256] S325x256) (h2 : S2688x768.Slices ![off, 512] S325x256) : FVec F S325x256 .bf16 :=
  truncf .bf16
    (addf (extractStridedSlice S325x256 ![off, 256] P h1)
      (mulf (broadcast S325x256 (Scalar.ofBits .f32 0x40000000#32))
        (matmul dot_S325x325_S325x256_S325x256_1_0_0_1_n_n none L
          (truncf .bf16 (extractStridedSlice S325x256 ![off, 512] P h2) bitsLt_bf16_f32)
          (constant S325x256 .f32 0x00000000#32))))
    bitsLt_bf16_f32

/-- `p₀ + L·v`. -/
def hidMid (P : FVec F S2688x768 .f32) (L : FVec F S325x325 .bf16) (off : ℕ)
    (h0 : S2688x768.Slices ![off, 0] S325x256) (h1 : S2688x768.Slices ![off, 256] S325x256)
    (h2 : S2688x768.Slices ![off, 512] S325x256) : FVec F S325x256 .f32 :=
  addf (extractStridedSlice S325x256 ![off, 0] P h0)
    (matmul dot_S325x325_S325x256_S325x256_1_0_0_1_n_n none L (hidInner P L off h1 h2)
      (constant S325x256 .f32 0x00000000#32))

/-- The bias, one row repeated down the block. -/
def biasRows (b : Vec F S256 .f32) : FVec F S325x256 .f32 :=
  broadcastTo S325x256 (shapeCast S1x256 b shapeCasts_S256_S1x256) broadcasts_S1x256_S325x256

/-- `max(x + b, 0)` as stored. -/
def reluStore (x : FVec F S325x256 .f32) (bb : FVec F S325x256 .f32) : FVec F S325x256 .bf16 :=
  shapeCast S325x256
    (truncf .bf16 (maximumf (addf x bb) (broadcast S325x256 (Scalar.ofBits .f32 0x00000000#32))) bitsLt_bf16_f32)
    shapeCasts_S325x256_S325x256

/-- The block `max(p₀ + L·(p₁ + 2 L·p₂) + b, 0)`. -/
def hidBlk (P : FVec F S2688x768 .f32) (L : FVec F S325x325 .bf16) (b : Vec F S256 .f32) (off : ℕ)
    (h0 : S2688x768.Slices ![off, 0] S325x256) (h1 : S2688x768.Slices ![off, 256] S325x256)
    (h2 : S2688x768.Slices ![off, 512] S325x256) : FVec F S325x256 .bf16 :=
  reluStore (hidMid P L off h0 h1 h2) (biasRows b)

end Block

/-- A `[325, 256]` window of the stacked projection at row offset `off`, column offset `c`, read at `(s, j)`. -/
theorem slice_block_apply {α : Type} (P : S2688x768.Idx → α) (off c : ℕ) (h : S2688x768.Slices ![off, c] S325x256)
    (s : Fin 325) (j : Fin 256) (hs : off + s.val < 2688) (hj : c + j.val < 768) :
    extractStridedSlice S325x256 ![off, c] P h (ix2 s j) = P (ix2 ⟨off + s.val, hs⟩ ⟨c + j.val, hj⟩) :=
  extractStridedSlice_apply _ _ _ _ _ (fun ax => by
    match ax with
    | ⟨0, _⟩ => rfl
    | ⟨1, _⟩ => rfl)

/-- The repeated bias row at `(s, j)` is the bias at `j`. -/
theorem biasRows_apply {F : FTy → Type} [FloatOps F] (b : Vec F S256 .f32) (s : Fin 325) (j : Fin 256) :
    biasRows b (ix2 s j) = b (ix1 j) := by
  unfold biasRows
  rw [broadcastTo_1b_ab_apply, shapeCast_a_1a_apply]

/-- `v = p₁ + 2 L·p₂` at `(m, j)`, when `L` and the rows of `P` from `off` on hold real numbers. -/
theorem hidInner_apply (P : FVec Ideal S2688x768 .f32) (L : FVec Ideal S325x325 .bf16) (off : ℕ)
    (h1 : S2688x768.Slices ![off, 256] S325x256) (h2 : S2688x768.Slices ![off, 512] S325x256)
    (Pr : Fin 325 → ℕ → ℝ) (Lr : Fin 325 → Fin 325 → ℝ)
    (hL : ∀ s m, L (ix2 s m) = ((Lr s m : ℝ) : EReal))
    (hP : ∀ (s : Fin 325) (j : ℕ) (hs : off + s.val < 2688) (hj : j < 768),
      P (ix2 ⟨off + s.val, hs⟩ ⟨j, hj⟩) = ((Pr s j : ℝ) : EReal))
    (m : Fin 325) (j : Fin 256) :
    hidInner P L off h1 h2 (ix2 m j)
      = ((Pr m (256 + j.val) + 2 * ∑ m', Lr m m' * Pr m' (512 + j.val) : ℝ) : EReal) := by
  have hoff : off + 325 ≤ 2688 := h1.2 0
  have hm := m.isLt
  have hj := j.isLt
  have hsum : ∑ m' : Fin 325, L (ix2 m m')
        * (truncf .bf16 (extractStridedSlice S325x256 ![off, 512] P h2) bitsLt_bf16_f32 : FVec Ideal S325x256 .bf16) (ix2 m' j)
      = ((∑ m', Lr m m' * Pr m' (512 + j.val) : ℝ) : EReal) := by
    rw [coe_finsum_real]
    refine Finset.sum_congr rfl fun m' _ => ?_
    have hm' := m'.isLt
    rw [truncf_apply, slice_block_apply P off 512 h2 m' j (by omega) (by omega), hL, hP m' (512 + j.val) _ _,
      EReal.coe_mul]
  unfold hidInner
  simp only [truncf_apply, addf_apply, mulf_apply, broadcast_apply]
  rw [Ideal.ofBits_def, ofBits_two_f32, matmul_LV_apply, hsum, slice_block_apply P off 256 h1 m j (by omega) (by omega),
    hP m (256 + j.val) _ _, ← EReal.coe_mul, ← EReal.coe_add]

/-- `p₀ + L·v` at `(s, j)`. -/
theorem hidMid_apply (P : FVec Ideal S2688x768 .f32) (L : FVec Ideal S325x325 .bf16) (off : ℕ)
    (h0 : S2688x768.Slices ![off, 0] S325x256) (h1 : S2688x768.Slices ![off, 256] S325x256)
    (h2 : S2688x768.Slices ![off, 512] S325x256)
    (Pr : Fin 325 → ℕ → ℝ) (Lr : Fin 325 → Fin 325 → ℝ)
    (hL : ∀ s m, L (ix2 s m) = ((Lr s m : ℝ) : EReal))
    (hP : ∀ (s : Fin 325) (j : ℕ) (hs : off + s.val < 2688) (hj : j < 768),
      P (ix2 ⟨off + s.val, hs⟩ ⟨j, hj⟩) = ((Pr s j : ℝ) : EReal))
    (s : Fin 325) (j : Fin 256) :
    hidMid P L off h0 h1 h2 (ix2 s j)
      = ((Pr s j.val + ∑ m, Lr s m * (Pr m (256 + j.val) + 2 * ∑ m', Lr m m' * Pr m' (512 + j.val)) : ℝ) : EReal) := by
  have hoff : off + 325 ≤ 2688 := h1.2 0
  have hs := s.isLt
  have hj := j.isLt
  have hsum : ∑ m : Fin 325, L (ix2 s m) * hidInner P L off h1 h2 (ix2 m j)
      = ((∑ m, Lr s m * (Pr m (256 + j.val) + 2 * ∑ m', Lr m m' * Pr m' (512 + j.val)) : ℝ) : EReal) := by
    rw [coe_finsum_real]
    refine Finset.sum_congr rfl fun m _ => ?_
    rw [hL, hidInner_apply P L off h1 h2 Pr Lr hL hP m j, EReal.coe_mul]
  unfold hidMid
  rw [addf_apply, matmul_LV_apply, hsum, slice_block_apply P off 0 h0 s j (by omega) (by omega)]
  have h00 := hP s (0 + j.val) (by omega) (by omega)
  rw [h00, ← EReal.coe_add]
  exact congrArg _ (by rw [Nat.zero_add])

/-- `max(x + b, 0)` as stored, at `(s, j)`, when `x` and `b` hold real numbers there. -/
theorem reluStore_apply (x bb : FVec Ideal S325x256 .f32) (s : Fin 325) (j : Fin 256) (xr br : ℝ)
    (hx : x (ix2 s j) = ((xr : ℝ) : EReal)) (hb : bb (ix2 s j) = ((br : ℝ) : EReal)) :
    reluStore x bb (ix2 s j) = ((max (xr + br) 0 : ℝ) : EReal) := by
  unfold reluStore
  rw [shapeCast_self]
  simp only [truncf_apply, maximumf_apply, addf_apply, broadcast_apply]
  rw [hx, hb, Ideal.ofBits_def, Ideal.ofBits_zero_f32, ← EReal.coe_add, ← EReal.coe_zero, ← coe_max_real]

/-- The block at `(s, j)`: `max(p₀ + L·(p₁ + 2 L·p₂) + b, 0)` over the reals. -/
theorem hidBlk_apply (P : FVec Ideal S2688x768 .f32) (L : FVec Ideal S325x325 .bf16) (b : Vec Ideal S256 .f32) (off : ℕ)
    (h0 : S2688x768.Slices ![off, 0] S325x256) (h1 : S2688x768.Slices ![off, 256] S325x256)
    (h2 : S2688x768.Slices ![off, 512] S325x256)
    (Pr : Fin 325 → ℕ → ℝ) (Lr : Fin 325 → Fin 325 → ℝ) (br : Fin 256 → ℝ)
    (hL : ∀ s m, L (ix2 s m) = ((Lr s m : ℝ) : EReal))
    (hP : ∀ (s : Fin 325) (j : ℕ) (hs : off + s.val < 2688) (hj : j < 768),
      P (ix2 ⟨off + s.val, hs⟩ ⟨j, hj⟩) = ((Pr s j : ℝ) : EReal))
    (hb : ∀ j, b (ix1 j) = ((br j : ℝ) : EReal))
    (s : Fin 325) (j : Fin 256) :
    hidBlk P L b off h0 h1 h2 (ix2 s j)
      = ((max ((Pr s j.val + ∑ m, Lr s m * (Pr m (256 + j.val) + 2 * ∑ m', Lr m m' * Pr m' (512 + j.val))) + br j) 0 : ℝ) : EReal) := by
  unfold hidBlk
  exact reluStore_apply _ _ s j _ _ (hidMid_apply P L off h0 h1 h2 Pr Lr hL hP s j)
    ((biasRows_apply b s j).trans (hb j))

/-! ## The eight first-layer blocks are that function -/

/-- Graph `g`'s three column windows lie inside the stacked projection. -/
theorem slices_grow (g : Fin 8) (c : ℕ) (hc : c + 256 ≤ 768) : S2688x768.Slices ![336 * g.val, c] S325x256 :=
  ⟨rfl, fun ax => by
    match ax with
    | ⟨0, _⟩ => show 336 * g.val + 325 ≤ 2688; have := g.isLt; omega
    | ⟨1, _⟩ => show c + 256 ≤ 768; exact hc⟩

/-- Graph `g`'s stored block is the block function of the stacked projection at row offset `336 g`. -/
theorem T1_eq_hidBlk {F : FTy → Type} [FloatOps F] (a : Args F) (g : Fin 8) :
    a.T1 g = hidBlk a.P1 (a.L g) a.B1 (336 * g.val) (slices_grow g 0 (by decide)) (slices_grow g 256 (by decide))
      (slices_grow g 512 (by decide)) := by
  match g with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl

/-- The first bias as loaded is the real bias. -/
theorem B1_value (a : Args Ideal) (hf : a.FiniteIn) (j : Fin 256) : a.B1 (ix1 j) = ((a.b1r j : ℝ) : EReal) := by
  have hx : a.B1 = a.x3 :=
    load_whole_unread a.harg4 a.x3 (funext fun ax => by match ax with | ⟨0, _⟩ => rfl) _
  rw [hx]
  exact (Cert.Result.coe_toReal hf.x3 _).symm

/-- Graph `g`'s first hidden block, entry `(s, j)`. -/
theorem T1_value (a : Args Ideal) (hf : a.FiniteIn) (g : Fin 8) (s : Fin 325) (j : Fin 256) :
    a.T1 g (ix2 s j) = ((a.h1r g s j : ℝ) : EReal) := by
  rw [T1_eq_hidBlk a g]
  exact hidBlk_apply a.P1 (a.L g) a.B1 (336 * g.val) _ _ _
    (fun s j => ∑ f, a.X0r (grow g s) f * a.Ws1 f j) (Spec.lap (a.Ag g)) a.b1r
    (fun s m => lap_value a hf.x1 g s m)
    (fun s j hs hj => P1_value a hf ⟨336 * g.val + s.val, hs⟩ ⟨j, hj⟩)
    (fun j => B1_value a hf j) s j

end Cert.KernelIdeal.Body

end
-- ==== Proof.KernelLayer2.lean ====
/-
  The second layer of one grid step.

  The first scratch buffer is read back whole after eight stores, one per graph, each covering rows
  `336 g … 336 g + 325` and replacing rows `336 g … 336 g + 324` by the graph's hidden block: so row
  `336 g + s` (`s < 325`) reads the stored block's row `s`, whatever the buffer held before (`H1_value`, at
  any reading of floats). The rows no store replaces hold whatever the buffer held; the stacked
  projection `P2` is one tall product, so they reach only their own rows of it, which nothing reads.
-/
import proofs.«129663_g81071802679316_cont_sun_m_195_35_alg».proof.Proof.KernelLayer1
import Idealize.ShloMosaic.Lib.ValueIdx
import Idealize.ShloMosaic.Lib.ValueLayout
import Idealize.ShloMosaic.Lib.Pipeline.Value
import Idealize.ShloMosaic.Lib.WritesUnit
import Idealize.ShloMosaic.PureOps.Ideal.Laws

set_option maxRecDepth 16384

noncomputable section

namespace Cert.KernelIdeal.Body

open Cert.KernelIdeal Cert.KernelIdeal.Gen
open Idealize.ShloMosaic Idealize.ShloMosaic.TcCoe Idealize.ShloMosaic.ValueIdx
open Cert.Result (Finite)
open BigOperators

/-- A block stored over the first 325 rows of a 326-row rectangle reads the block on those rows. -/
theorem updateSlice_top {α : Type} (old : S326x256.Idx → α) (t : S325x256.Idx → α)
    (h : S326x256.Slices ![0, 0] S325x256) (s : Fin 325) (j : Fin 256) :
    updateSlice old t ![0, 0] h (ix2 ⟨s.val, by have := s.isLt; omega⟩ j) = t (ix2 s j) := by
  unfold updateSlice
  rw [dif_pos (by
    intro a
    match a with
    | ⟨0, _⟩ => exact ⟨Nat.zero_le _, by show s.val < 0 + 325; have := s.isLt; omega⟩
    | ⟨1, _⟩ => exact ⟨Nat.zero_le _, by show j.val < 0 + 256; have := j.isLt; omega⟩)]
  congr 1
  funext b
  match b with
  | ⟨0, _⟩ => rfl
  | ⟨1, _⟩ => rfl

section Bands

variable {sig : RefSig} {κ : Kind} {sp : Space} {e : EltTy} {Val : EltTy → Type}
  (v : View sig κ sp S2688x256 e) (f : v.ty.Contents Val)

/-- A store to 326 rows starting above graph `g`'s band leaves row `336 g + s` as the earlier stores left it. -/
theorem read_band_above {o : ℕ} (inb : ∀ a : Fin 2, (![o, 0] : Fin 2 → ℕ) a + S326x256.size a ≤ S2688x256.size a)
    (w : (Rect.unit (s := S2688x256) ![o, 0] S326x256.size inb).shape.Idx → Val e) (L : List (View.Piece Val S2688x256 e))
    (inb' : ∀ a : Fin 2, (![0, 0] : Fin 2 → ℕ) a + S2688x256.size a ≤ S2688x256.size a)
    (g : Fin 8) (s : Fin 325) (j : Fin 256) (h : 336 * g.val + 325 ≤ o) :
    v.read Val (v.writes Val f ((⟨Rect.unit (s := S2688x256) ![o, 0] S326x256.size inb, w⟩ : View.Piece Val S2688x256 e) :: L))
        ((Rect.unit (s := S2688x256) ![0, 0] S2688x256.size inb').idx (ix2 (grow g s) j))
      = v.read Val (v.writes Val f L) ((Rect.unit (s := S2688x256) ![0, 0] S2688x256.size inb').idx (ix2 (grow g s) j)) := by
  refine View.read_writes_cons_rows_of_not_mem v f inb w L _ rfl rfl (Or.inl ?_)
  show 0 + 1 * (336 * g.val + s.val) < o
  have := s.isLt; omega

/-- The store to rows `336 g … 336 g + 325` that replaces the first 325 of them by a block leaves row `336 g + s`
    (`s < 325`) holding the block's row `s`. -/
theorem read_band_at {o : ℕ} (inb : ∀ a : Fin 2, (![o, 0] : Fin 2 → ℕ) a + S326x256.size a ≤ S2688x256.size a)
    (old : S326x256.Idx → Val e) (t : S325x256.Idx → Val e) (hsl : S326x256.Slices ![0, 0] S325x256)
    (L : List (View.Piece Val S2688x256 e))
    (inb' : ∀ a : Fin 2, (![0, 0] : Fin 2 → ℕ) a + S2688x256.size a ≤ S2688x256.size a)
    (g : Fin 8) (s : Fin 325) (j : Fin 256) (h : o = 336 * g.val) :
    v.read Val (v.writes Val f ((⟨Rect.unit (s := S2688x256) ![o, 0] S326x256.size inb,
          updateSlice old t ![0, 0] hsl⟩ : View.Piece Val S2688x256 e) :: L))
        ((Rect.unit (s := S2688x256) ![0, 0] S2688x256.size inb').idx (ix2 (grow g s) j))
      = t (ix2 s j) := by
  subst h
  refine (View.read_writes_cons_rows_of_mem v f inb _ L _ (ix2 ⟨s.val, by have := s.isLt; omega⟩ j) rfl ?_ ?_).trans
    (updateSlice_top old t hsl s j)
  · show 0 + 1 * (336 * g.val + s.val) = 336 * g.val + s.val
    omega
  · show 0 + 1 * j.val = j.val
    omega

end Bands

/-- The first scratch buffer read back: row `336 g + s` is row `s` of graph `g`'s stored block. The eight stores
    are listed last first; the stores of the graphs after `g` start at rows `≥ 336 (g + 1)`, above row
    `336 g + s`, and graph `g`'s own store covers it. -/
theorem H1_value {F : FTy → Type} [FloatOps F] (a : Args F) (g : Fin 8) (s : Fin 325) (j : Fin 256) :
    a.H1 (ix2 (grow g s) j) = a.T1 g (ix2 s j) := by
  unfold Args.H1 kernelRun.sl.v346 kernelRun.sl.HS0_8
  rw [View.readAt_apply]
  match g with
  | ⟨0, _⟩ =>
    refine (read_band_above _ _ _ _ _ _ ⟨0, by omega⟩ s j (show 336 * 0 + 325 ≤ 2352 by omega)).trans ?_
    refine (read_band_above _ _ _ _ _ _ ⟨0, by omega⟩ s j (show 336 * 0 + 325 ≤ 2016 by omega)).trans ?_
    refine (read_band_above _ _ _ _ _ _ ⟨0, by omega⟩ s j (show 336 * 0 + 325 ≤ 1680 by omega)).trans ?_
    refine (read_band_above _ _ _ _ _ _ ⟨0, by omega⟩ s j (show 336 * 0 + 325 ≤ 1344 by omega)).trans ?_
    refine (read_band_above _ _ _ _ _ _ ⟨0, by omega⟩ s j (show 336 * 0 + 325 ≤ 1008 by omega)).trans ?_
    refine (read_band_above _ _ _ _ _ _ ⟨0, by omega⟩ s j (show 336 * 0 + 325 ≤ 672 by omega)).trans ?_
    refine (read_band_above _ _ _ _ _ _ ⟨0, by omega⟩ s j (show 336 * 0 + 325 ≤ 336 by omega)).trans ?_
    exact read_band_at _ _ _ _ _ _ _ _ ⟨0, by omega⟩ s j rfl
  | ⟨1, _⟩ =>
    refine (read_band_above _ _ _ _ _ _ ⟨1, by omega⟩ s j (show 336 * 1 + 325 ≤ 2352 by omega)).trans ?_
    refine (read_band_above _ _ _ _ _ _ ⟨1, by omega⟩ s j (show 336 * 1 + 325 ≤ 2016 by omega)).trans ?_
    refine (read_band_above _ _ _ _ _ _ ⟨1, by omega⟩ s j (show 336 * 1 + 325 ≤ 1680 by omega)).trans ?_
    refine (read_band_above _ _ _ _ _ _ ⟨1, by omega⟩ s j (show 336 * 1 + 325 ≤ 1344 by omega)).trans ?_
    refine (read_band_above _ _ _ _ _ _ ⟨1, by omega⟩ s j (show 336 * 1 + 325 ≤ 1008 by omega)).trans ?_
    refine (read_band_above _ _ _ _ _ _ ⟨1, by omega⟩ s j (show 336 * 1 + 325 ≤ 672 by omega)).trans ?_
    exact read_band_at _ _ _ _ _ _ _ _ ⟨1, by omega⟩ s j rfl
  | ⟨2, _⟩ =>
    refine (read_band_above _ _ _ _ _ _ ⟨2, by omega⟩ s j (show 336 * 2 + 325 ≤ 2352 by omega)).trans ?_
    refine (read_band_above _ _ _ _ _ _ ⟨2, by omega⟩ s j (show 336 * 2 + 325 ≤ 2016 by omega)).trans ?_
    refine (read_band_above _ _ _ _ _ _ ⟨2, by omega⟩ s j (show 336 * 2 + 325 ≤ 1680 by omega)).trans ?_
    refine (read_band_above _ _ _ _ _ _ ⟨2, by omega⟩ s j (show 336 * 2 + 325 ≤ 1344 by omega)).trans ?_
    refine (read_band_above _ _ _ _ _ _ ⟨2, by omega⟩ s j (show 336 * 2 + 325 ≤ 1008 by omega)).trans ?_
    exact read_band_at _ _ _ _ _ _ _ _ ⟨2, by omega⟩ s j rfl
  | ⟨3, _⟩ =>
    refine (read_band_above _ _ _ _ _ _ ⟨3, by omega⟩ s j (show 336 * 3 + 325 ≤ 2352 by omega)).trans ?_
    refine (read_band_above _ _ _ _ _ _ ⟨3, by omega⟩ s j (show 336 * 3 + 325 ≤ 2016 by omega)).trans ?_
    refine (read_band_above _ _ _ _ _ _ ⟨3, by omega⟩ s j (show 336 * 3 + 325 ≤ 1680 by omega)).trans ?_
    refine (read_band_above _ _ _ _ _ _ ⟨3, by omega⟩ s j (show 336 * 3 + 325 ≤ 1344 by omega)).trans ?_
    exact read_band_at _ _ _ _ _ _ _ _ ⟨3, by omega⟩ s j rfl
  | ⟨4, _⟩ =>
    refine (read_band_above _ _ _ _ _ _ ⟨4, by omega⟩ s j (show 336 * 4 + 325 ≤ 2352 by omega)).trans ?_
    refine (read_band_above _ _ _ _ _ _ ⟨4, by omega⟩ s j (show 336 * 4 + 325 ≤ 2016 by omega)).trans ?_
    refine (read_band_above _ _ _ _ _ _ ⟨4, by omega⟩ s j (show 336 * 4 + 325 ≤ 1680 by omega)).trans ?_
    exact read_band_at _ _ _ _ _ _ _ _ ⟨4, by omega⟩ s j rfl
  | ⟨5, _⟩ =>
    refine (read_band_above _ _ _ _ _ _ ⟨5, by omega⟩ s j (show 336 * 5 + 325 ≤ 2352 by omega)).trans ?_
    refine (read_band_above _ _ _ _ _ _ ⟨5, by omega⟩ s j (show 336 * 5 + 325 ≤ 2016 by omega)).trans ?_
    exact read_band_at _ _ _ _ _ _ _ _ ⟨5, by omega⟩ s j rfl
  | ⟨6, _⟩ =>
    refine (read_band_above _ _ _ _ _ _ ⟨6, by omega⟩ s j (show 336 * 6 + 325 ≤ 2352 by omega)).trans ?_
    exact read_band_at _ _ _ _ _ _ _ _ ⟨6, by omega⟩ s j rfl
  | ⟨7, _⟩ =>
    exact read_band_at _ _ _ _ _ _ _ _ ⟨7, by omega⟩ s j rfl

/-! ### The tall product of the second layer

Row `r`, column `j` of the product of a `2688 × 256` array with a `256 × 768` array is the sum over the 256 shared
coordinates of row `r` of the first against column `j` of the second: a row of the product reads that row of the
left operand only. -/

theorem lhs_P2_0 (i : S2688x768.Idx) (q : dot_S2688x256_S256x768_S2688x768_1_0_0_1_n_n.contr.Idx) :
    (dot_S2688x256_S256x768_S2688x768_1_0_0_1_n_n.lhsIdx i q 0).val = (i 0).val := by
  unfold DotDims.lhsIdx
  rw [dif_neg (show ¬(0 : Fin S2688x256.rank) ∈ dot_S2688x256_S256x768_S2688x768_1_0_0_1_n_n.lhsBatch by decide), dif_pos (show (0 : Fin S2688x256.rank) ∈ dot_S2688x256_S256x768_S2688x768_1_0_0_1_n_n.lhsNonContracting by decide)]
  rfl
theorem lhs_P2_1 (i : S2688x768.Idx) (q : dot_S2688x256_S256x768_S2688x768_1_0_0_1_n_n.contr.Idx) :
    (dot_S2688x256_S256x768_S2688x768_1_0_0_1_n_n.lhsIdx i q 1).val = (q ⟨0, by decide⟩).val :=
  dot_S2688x256_S256x768_S2688x768_1_0_0_1_n_n.lhsIdx_val_of_single rfl i q
theorem rhs_P2_0 (i : S2688x768.Idx) (q : dot_S2688x256_S256x768_S2688x768_1_0_0_1_n_n.contr.Idx) :
    (dot_S2688x256_S256x768_S2688x768_1_0_0_1_n_n.rhsIdx i q 0).val = (q ⟨0, by decide⟩).val :=
  dot_S2688x256_S256x768_S2688x768_1_0_0_1_n_n.rhsIdx_val_of_single rfl i q
theorem rhs_P2_1 (i : S2688x768.Idx) (q : dot_S2688x256_S256x768_S2688x768_1_0_0_1_n_n.contr.Idx) :
    (dot_S2688x256_S256x768_S2688x768_1_0_0_1_n_n.rhsIdx i q 1).val = (i 1).val := by
  unfold DotDims.rhsIdx
  rw [dif_neg (show ¬(1 : Fin S256x768.rank) ∈ dot_S2688x256_S256x768_S2688x768_1_0_0_1_n_n.rhsBatch by decide), dif_pos (show (1 : Fin S256x768.rank) ∈ dot_S2688x256_S256x768_S2688x768_1_0_0_1_n_n.rhsNonContracting by decide)]
  rfl

/-- The tall product at row `r`, column `j`. -/
theorem pay43_apply (W : FVec Ideal S256x768 .bf16) (H : Vec Ideal S2688x256 .bf16) (r : Fin 2688) (j : Fin 768) :
    k0_pay43 W H (ix2 r j) = ∑ k : Fin 256, H (ix2 r k) * W (ix2 k j) := by
  unfold k0_pay43
  simp only [matmul]
  rw [Ideal.matmul_constant_zero_apply, ← Equiv.sum_comp (ValueIdx.contrEquiv1 dot_S2688x256_S256x768_S2688x768_1_0_0_1_n_n 256 rfl rfl).symm]
  refine Finset.sum_congr rfl fun k _ => ?_
  have hk := ValueIdx.contrEquiv1_symm_val dot_S2688x256_S256x768_S2688x768_1_0_0_1_n_n 256 rfl rfl k
  have el : dot_S2688x256_S256x768_S2688x768_1_0_0_1_n_n.lhsIdx (ix2 r j) ((ValueIdx.contrEquiv1 dot_S2688x256_S256x768_S2688x768_1_0_0_1_n_n 256 rfl rfl).symm k) = ix2 r k := funext fun a => Fin.ext (by
    match a with
    | ⟨0, _⟩ => exact lhs_P2_0 _ _
    | ⟨1, _⟩ => exact (lhs_P2_1 _ _).trans hk)
  have er : dot_S2688x256_S256x768_S2688x768_1_0_0_1_n_n.rhsIdx (ix2 r j) ((ValueIdx.contrEquiv1 dot_S2688x256_S256x768_S2688x768_1_0_0_1_n_n 256 rfl rfl).symm k) = ix2 k j := funext fun a => Fin.ext (by
    match a with
    | ⟨0, _⟩ => exact (rhs_P2_0 _ _).trans hk
    | ⟨1, _⟩ => exact rhs_P2_1 _ _)
  rw [el, er]

/-- The second layer's side-by-side weights as loaded: entry `(f, j)` is the real weight there. -/
theorem W2_value (a : Args Ideal) (hf : Finite a.x4) (f : Fin 256) (j : Fin 768) :
    a.W2 (ix2 f j) = ((a.Ws2 f j.val : ℝ) : EReal) := by
  unfold Args.W2 kernelRun.sl.r_1 k0_pay3
  rw [shapeCast_self, View.readAt_apply, a.harg5.read_unread]
  unfold Args.Ws2
  rw [dif_pos j.isLt, Cert.Result.coe_toReal hf]
  refine congrArg a.x4 (funext fun b => Fin.ext ?_)
  match b with
  | ⟨0, _⟩ => exact (Nat.zero_add _).trans (Nat.one_mul _)
  | ⟨1, _⟩ => exact (Nat.zero_add _).trans (Nat.one_mul _)

/-- The second projection at a graph's row. Row `336 g + s` of the tall product reads row `336 g + s` of the scratch
    buffer alone, which is graph `g`'s first hidden block at row `s`; the rows of the buffer no store replaced
    enter other rows of the product only. -/
theorem P2_value (a : Args Ideal) (hf : a.FiniteIn) (g : Fin 8) (s : Fin 325) (j : Fin 768) :
    a.P2 (ix2 (grow g s) j) = ((∑ f, a.h1r g s f * a.Ws2 f j.val : ℝ) : EReal) := by
  have e : a.P2 = k0_pay43 a.W2 a.H1 := rfl
  rw [e, pay43_apply, coe_finsum_real]
  refine Finset.sum_congr rfl fun k _ => ?_
  rw [H1_value, T1_value a hf, W2_value a hf.x4, EReal.coe_mul]

/-- The three column windows `[c, c + 256)` of rows `336 g … 336 g + 324` lie inside the stacked projection. -/
theorem band_slices (g : Fin 8) (c : ℕ) (hc : c + 256 ≤ 768) : S2688x768.Slices ![336 * g.val, c] S325x256 :=
  ⟨rfl, fun ax => by
    match ax with
    | ⟨0, _⟩ => show 336 * g.val + 325 ≤ 2688; have := g.isLt; omega
    | ⟨1, _⟩ => show c + 256 ≤ 768; exact hc⟩

/-- Graph by graph the stored second block is the one function `hidBlk` of the second stacked projection, the
    graph's Laplacian, the second bias and the graph's row offset `336 g`. -/
theorem T2_eq_hidBlk {F : FTy → Type} [FloatOps F] (a : Args F) (g : Fin 8) :
    a.T2 g = hidBlk a.P2 (a.L g) a.B2 (336 * g.val)
      (band_slices g 0 (by omega)) (band_slices g 256 (by omega)) (band_slices g 512 (by omega)) := by
  match g with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl

/-- The second bias as loaded. -/
theorem B2_value (a : Args Ideal) (hf : Finite a.x5) (j : Fin 256) :
    a.B2 (ix1 j) = ((a.b2r j : ℝ) : EReal) := by
  unfold Args.B2 kernelRun.sl.r_32
  rw [load_whole_unread a.harg6 a.x5 (funext fun ax => by match ax with | ⟨0, _⟩ => rfl) _]
  exact (Cert.Result.coe_toReal hf _).symm

/-- Graph `g`'s second hidden block, entry `(s, j)`. -/
theorem T2_value (a : Args Ideal) (hf : a.FiniteIn) (g : Fin 8) (s : Fin 325) (j : Fin 256) :
    a.T2 g (ix2 s j) = ((a.h2r g s j : ℝ) : EReal) := by
  rw [T2_eq_hidBlk]
  refine (hidBlk_apply a.P2 (a.L g) a.B2 (336 * g.val) _ _ _
    (fun s c => ∑ f, a.h1r g s f * a.Ws2 f c) (Spec.lap (a.Ag g)) a.b2r
    (fun s m => lap_value a hf.x1 g s m)
    (fun s c hs hc => P2_value a hf g s ⟨c, hc⟩)
    (fun c => B2_value a hf.x5 c) s j).trans ?_
  rfl

end Cert.KernelIdeal.Body

end
-- ==== Proof.KernelLayer3.lean ====
/-
  The third layer of one grid step, and what the output buffer ends with.

  As for the second layer, with the second scratch buffer; the output blocks are not clipped at zero. The
  eight stores into the output buffer are the blocks `T3 g` at `[g, 0, 0]`; they tile the buffer, so its
  contents after the body are those blocks side by side: entry `(g, s, o)` is graph `g`'s output at `(s, o)`.
-/
import proofs.«129663_g81071802679316_cont_sun_m_195_35_alg».proof.Proof.KernelLayer2
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Body

open Cert.KernelIdeal Cert.KernelIdeal.Gen
open Idealize.ShloMosaic Idealize.ShloMosaic.TcCoe Idealize.ShloMosaic.ValueIdx
open Cert.Result (Finite)
open BigOperators

namespace L3

/-- Rows `336 k … 336 k + 325` lie inside the 2688 rows. -/
theorem band_inb (k : Fin 8) : ∀ a, ![336 * k.val, 0] a + S326x256.size a ≤ S2688x256.size a := fun a => by
  have hk := k.isLt
  match a with
  | ⟨0, _⟩ => show 336 * k.val + 326 ≤ 2688; omega
  | ⟨1, _⟩ => show 0 + 256 ≤ 256; omega

/-- The band of 326 rows from row `336 k` of a scratch buffer. -/
abbrev band (k : Fin 8) : Rect S2688x256 := Rect.unit (s := S2688x256) ![336 * k.val, 0] S326x256.size (band_inb k)

/-- Two bands that share an element are the same band: they start 336 rows apart and are 326 rows long. -/
theorem band_sep (k g : Fin 8) (x : S326x256.Idx) (h : (band g).emb x ∈ (band k).set) : k = g := by
  obtain ⟨h1, h2⟩ := (Rect.mem_set_unit.mp h) 0
  have hx : (x 0).val < 326 := (x 0).isLt
  change 336 * k.val ≤ 336 * g.val + 1 * (x 0).val at h1
  change 336 * g.val + 1 * (x 0).val < 336 * k.val + 326 at h2
  exact Fin.ext (by omega)

/-- Eight stores, one per band, into a buffer: an element of band `g` reads what the store through band `g` put there,
    whatever the buffer held and in whatever order the stores came. -/
theorem band_read {sig : RefSig} {κ : Kind} {sp : Space} {Val : EltTy → Type} {e : EltTy}
    (v : View sig κ sp S2688x256 e) (f : v.ty.Contents Val) (w : Fin 8 → S326x256.Idx → Val e) (g : Fin 8) (x : S326x256.Idx) :
    v.read Val (v.writes Val f
      [(⟨band 7, w 7⟩ : View.Piece Val S2688x256 e), ⟨band 6, w 6⟩, ⟨band 5, w 5⟩, ⟨band 4, w 4⟩,
       ⟨band 3, w 3⟩, ⟨band 2, w 2⟩, ⟨band 1, w 1⟩, ⟨band 0, w 0⟩]) ((band g).emb x) = w g x := by
  refine View.read_writes_of_unique v f (⟨band g, w g⟩ : View.Piece Val S2688x256 e) x _ ?_ ?_
  · match g with
    | ⟨0, _⟩ => simp
    | ⟨1, _⟩ => simp
    | ⟨2, _⟩ => simp
    | ⟨3, _⟩ => simp
    | ⟨4, _⟩ => simp
    | ⟨5, _⟩ => simp
    | ⟨6, _⟩ => simp
    | ⟨7, _⟩ => simp
    | ⟨_ + 8, h⟩ => exact absurd h (Nat.not_lt.2 (Nat.le_add_left _ _))
  · intro q hq hm
    simp only [List.mem_cons, List.not_mem_nil, or_false] at hq
    rcases hq with rfl | rfl | rfl | rfl | rfl | rfl | rfl | rfl
    · exact congrArg (fun k => (⟨band k, w k⟩ : View.Piece Val S2688x256 e)) (band_sep 7 g x hm)
    · exact congrArg (fun k => (⟨band k, w k⟩ : View.Piece Val S2688x256 e)) (band_sep 6 g x hm)
    · exact congrArg (fun k => (⟨band k, w k⟩ : View.Piece Val S2688x256 e)) (band_sep 5 g x hm)
    · exact congrArg (fun k => (⟨band k, w k⟩ : View.Piece Val S2688x256 e)) (band_sep 4 g x hm)
    · exact congrArg (fun k => (⟨band k, w k⟩ : View.Piece Val S2688x256 e)) (band_sep 3 g x hm)
    · exact congrArg (fun k => (⟨band k, w k⟩ : View.Piece Val S2688x256 e)) (band_sep 2 g x hm)
    · exact congrArg (fun k => (⟨band k, w k⟩ : View.Piece Val S2688x256 e)) (band_sep 1 g x hm)
    · exact congrArg (fun k => (⟨band k, w k⟩ : View.Piece Val S2688x256 e)) (band_sep 0 g x hm)

/-- A block of 325 rows written over the first 325 rows of a 326-row rectangle reads the block there. -/
theorem updateSlice_top {α : Type} (old : S326x256.Idx → α) (blk : S325x256.Idx → α) (h : S326x256.Slices ![0, 0] S325x256)
    (s : Fin 325) (j : Fin 256) :
    updateSlice old blk ![0, 0] h (ix2 (⟨s.val, by omega⟩ : Fin 326) j) = blk (ix2 s j) := by
  unfold updateSlice
  rw [dif_pos (fun a => by
    have hs := s.isLt; have hj := j.isLt
    match a with
    | ⟨0, _⟩ => exact ⟨Nat.zero_le _, by show s.val < 0 + 325; omega⟩
    | ⟨1, _⟩ => exact ⟨Nat.zero_le _, by show j.val < 0 + 256; omega⟩)]
  refine congrArg blk (funext fun b => Fin.ext ?_)
  match b with
  | ⟨0, _⟩ => rfl
  | ⟨1, _⟩ => rfl

end L3

/-- The second scratch buffer read back: row `336 g + s` is row `s` of graph `g`'s stored block. -/
theorem H2_value {F : FTy → Type} [FloatOps F] (a : Args F) (g : Fin 8) (s : Fin 325) (j : Fin 256) :
    a.H2 (ix2 (grow g s) j) = a.T2 g (ix2 s j) := by
  -- row `336 g + s` of the buffer is row `s` of band `g`
  have hy : (Rect.unit (s := S2688x256) ![0, 0] S2688x256.size inb_S2688x256_S2688x256_0_0).toLoadRect.idx (ix2 (grow g s) j)
      = (L3.band g).emb (ix2 (⟨s.val, by omega⟩ : Fin 326) j) := funext fun d => Fin.ext (by
    match d with
    | ⟨0, _⟩ => show 0 + 1 * (336 * g.val + s.val) = 336 * g.val + 1 * s.val; omega
    | ⟨1, _⟩ => show 0 + 1 * j.val = 0 + 1 * j.val; rfl)
  unfold Args.H2 kernelRun.sl.v509 kernelRun.sl.HS1_8
  rw [View.readAt_apply, hy]
  -- the eight stores are one per band, each the band as it was with the graph's block over its first 325 rows
  exact (L3.band_read a.arg11.view (a.harg11.unread a.xs1)
    (fun k => updateSlice (View.readAt (Elt F) a.arg11.view (L3.band k).toLoadRect (a.harg11.unread a.xs1)) (a.T2 k) ![0, 0]
      slices_S326x256_S325x256_0_0) g _).trans (L3.updateSlice_top _ _ _ s j)

namespace L3

/-! ### Reals inside the extended reals -/

/-- The coercion of a finite sum of reals is the sum of the coercions. -/
theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The word `0x40000000` is the number two. -/
theorem two_eq : (Scalar.ofBits .f32 0x40000000#32 : Ideal .f32) = ((2 : ℝ) : EReal) := by
  show Ideal.ofBits .f32 0x40000000#32 = _
  simp [Ideal.ofBits, Ideal.ieee]
  rw [← EReal.coe_mul]
  norm_num

/-! ### The two products read at an index -/

theorem lhsA_0 (i : S325x128.Idx) (q : dot_S325x325_S325x128_S325x128_1_0_0_1_n_n.contr.Idx) :
    (dot_S325x325_S325x128_S325x128_1_0_0_1_n_n.lhsIdx i q 0).val = (i 0).val := by
  unfold DotDims.lhsIdx
  rw [dif_neg (show ¬(0 : Fin S325x325.rank) ∈ dot_S325x325_S325x128_S325x128_1_0_0_1_n_n.lhsBatch by decide), dif_pos (show (0 : Fin S325x325.rank) ∈ dot_S325x325_S325x128_S325x128_1_0_0_1_n_n.lhsNonContracting by decide)]
  rfl
theorem lhsA_1 (i : S325x128.Idx) (q : dot_S325x325_S325x128_S325x128_1_0_0_1_n_n.contr.Idx) :
    (dot_S325x325_S325x128_S325x128_1_0_0_1_n_n.lhsIdx i q 1).val = (q ⟨0, by decide⟩).val :=
  dot_S325x325_S325x128_S325x128_1_0_0_1_n_n.lhsIdx_val_of_single rfl i q
theorem rhsA_0 (i : S325x128.Idx) (q : dot_S325x325_S325x128_S325x128_1_0_0_1_n_n.contr.Idx) :
    (dot_S325x325_S325x128_S325x128_1_0_0_1_n_n.rhsIdx i q 0).val = (q ⟨0, by decide⟩).val :=
  dot_S325x325_S325x128_S325x128_1_0_0_1_n_n.rhsIdx_val_of_single rfl i q
theorem rhsA_1 (i : S325x128.Idx) (q : dot_S325x325_S325x128_S325x128_1_0_0_1_n_n.contr.Idx) :
    (dot_S325x325_S325x128_S325x128_1_0_0_1_n_n.rhsIdx i q 1).val = (i 1).val := by
  unfold DotDims.rhsIdx
  rw [dif_neg (show ¬(1 : Fin S325x128.rank) ∈ dot_S325x325_S325x128_S325x128_1_0_0_1_n_n.rhsBatch by decide), dif_pos (show (1 : Fin S325x128.rank) ∈ dot_S325x325_S325x128_S325x128_1_0_0_1_n_n.rhsNonContracting by decide)]
  rfl

/-- A product with a 325 × 325 matrix on the left, into the zero splat, at `(s, o)`: row `s` of the left operand against
    column `o` of the right one. -/
theorem mmA_apply (Lm : FVec Ideal S325x325 .bf16) (R : FVec Ideal S325x128 .bf16) (s : Fin 325) (o : Fin 128) :
    matmul dot_S325x325_S325x128_S325x128_1_0_0_1_n_n none Lm R (constant (F := Ideal) S325x128 .f32 0x00000000#32) (ix2 s o)
      = ∑ m : Fin 325, Lm (ix2 s m) * R (ix2 m o) := by
  show FloatOps.matmul dot_S325x325_S325x128_S325x128_1_0_0_1_n_n none Lm R (constant (F := Ideal) S325x128 .f32 0x00000000#32) (ix2 s o) = _
  rw [Ideal.matmul_constant_zero_apply, ← Equiv.sum_comp (ValueIdx.contrEquiv1 dot_S325x325_S325x128_S325x128_1_0_0_1_n_n 325 rfl rfl).symm]
  refine Finset.sum_congr rfl fun k _ => ?_
  have hk := ValueIdx.contrEquiv1_symm_val dot_S325x325_S325x128_S325x128_1_0_0_1_n_n 325 rfl rfl k
  have el : dot_S325x325_S325x128_S325x128_1_0_0_1_n_n.lhsIdx (ix2 s o) ((ValueIdx.contrEquiv1 dot_S325x325_S325x128_S325x128_1_0_0_1_n_n 325 rfl rfl).symm k) = ix2 s k := funext fun a => Fin.ext (by
    match a with
    | ⟨0, _⟩ => exact lhsA_0 _ _
    | ⟨1, _⟩ => exact (lhsA_1 _ _).trans hk)
  have er : dot_S325x325_S325x128_S325x128_1_0_0_1_n_n.rhsIdx (ix2 s o) ((ValueIdx.contrEquiv1 dot_S325x325_S325x128_S325x128_1_0_0_1_n_n 325 rfl rfl).symm k) = ix2 k o := funext fun a => Fin.ext (by
    match a with
    | ⟨0, _⟩ => exact (rhsA_0 _ _).trans hk
    | ⟨1, _⟩ => exact rhsA_1 _ _)
  rw [el, er]

theorem lhsB_0 (i : S2688x384.Idx) (q : dot_S2688x256_S256x384_S2688x384_1_0_0_1_n_n.contr.Idx) :
    (dot_S2688x256_S256x384_S2688x384_1_0_0_1_n_n.lhsIdx i q 0).val = (i 0).val := by
  unfold DotDims.lhsIdx
  rw [dif_neg (show ¬(0 : Fin S2688x256.rank) ∈ dot_S2688x256_S256x384_S2688x384_1_0_0_1_n_n.lhsBatch by decide), dif_pos (show (0 : Fin S2688x256.rank) ∈ dot_S2688x256_S256x384_S2688x384_1_0_0_1_n_n.lhsNonContracting by decide)]
  rfl
theorem lhsB_1 (i : S2688x384.Idx) (q : dot_S2688x256_S256x384_S2688x384_1_0_0_1_n_n.contr.Idx) :
    (dot_S2688x256_S256x384_S2688x384_1_0_0_1_n_n.lhsIdx i q 1).val = (q ⟨0, by decide⟩).val :=
  dot_S2688x256_S256x384_S2688x384_1_0_0_1_n_n.lhsIdx_val_of_single rfl i q
theorem rhsB_0 (i : S2688x384.Idx) (q : dot_S2688x256_S256x384_S2688x384_1_0_0_1_n_n.contr.Idx) :
    (dot_S2688x256_S256x384_S2688x384_1_0_0_1_n_n.rhsIdx i q 0).val = (q ⟨0, by decide⟩).val :=
  dot_S2688x256_S256x384_S2688x384_1_0_0_1_n_n.rhsIdx_val_of_single rfl i q
theorem rhsB_1 (i : S2688x384.Idx) (q : dot_S2688x256_S256x384_S2688x384_1_0_0_1_n_n.contr.Idx) :
    (dot_S2688x256_S256x384_S2688x384_1_0_0_1_n_n.rhsIdx i q 1).val = (i 1).val := by
  unfold DotDims.rhsIdx
  rw [dif_neg (show ¬(1 : Fin S256x384.rank) ∈ dot_S2688x256_S256x384_S2688x384_1_0_0_1_n_n.rhsBatch by decide), dif_pos (show (1 : Fin S256x384.rank) ∈ dot_S2688x256_S256x384_S2688x384_1_0_0_1_n_n.rhsNonContracting by decide)]
  rfl

/-- The tall product into the zero splat, at `(r, j)`: row `r` of the stacked rows against column `j` of the weights. -/
theorem mmB_apply (X : FVec Ideal S2688x256 .bf16) (W : FVec Ideal S256x384 .bf16) (r : Fin 2688) (j : Fin 384) :
    matmul dot_S2688x256_S256x384_S2688x384_1_0_0_1_n_n none X W (constant (F := Ideal) S2688x384 .f32 0x00000000#32) (ix2 r j)
      = ∑ f : Fin 256, X (ix2 r f) * W (ix2 f j) := by
  show FloatOps.matmul dot_S2688x256_S256x384_S2688x384_1_0_0_1_n_n none X W (constant (F := Ideal) S2688x384 .f32 0x00000000#32) (ix2 r j) = _
  rw [Ideal.matmul_constant_zero_apply, ← Equiv.sum_comp (ValueIdx.contrEquiv1 dot_S2688x256_S256x384_S2688x384_1_0_0_1_n_n 256 rfl rfl).symm]
  refine Finset.sum_congr rfl fun k _ => ?_
  have hk := ValueIdx.contrEquiv1_symm_val dot_S2688x256_S256x384_S2688x384_1_0_0_1_n_n 256 rfl rfl k
  have el : dot_S2688x256_S256x384_S2688x384_1_0_0_1_n_n.lhsIdx (ix2 r j) ((ValueIdx.contrEquiv1 dot_S2688x256_S256x384_S2688x384_1_0_0_1_n_n 256 rfl rfl).symm k) = ix2 r k := funext fun a => Fin.ext (by
    match a with
    | ⟨0, _⟩ => exact lhsB_0 _ _
    | ⟨1, _⟩ => exact (lhsB_1 _ _).trans hk)
  have er : dot_S2688x256_S256x384_S2688x384_1_0_0_1_n_n.rhsIdx (ix2 r j) ((ValueIdx.contrEquiv1 dot_S2688x256_S256x384_S2688x384_1_0_0_1_n_n 256 rfl rfl).symm k) = ix2 k j := funext fun a => Fin.ext (by
    match a with
    | ⟨0, _⟩ => exact (rhsB_0 _ _).trans hk
    | ⟨1, _⟩ => exact rhsB_1 _ _)
  rw [el, er]

end L3

namespace L3

/-! ### The third layer's weights and bias as real arrays -/

/-- The third side-by-side weight matrix as loaded, entry `(f, j)`. -/
theorem W3_value (a : Args Ideal) (hf : a.FiniteIn) (f : Fin 256) (j : Fin 384) :
    a.W3 (ix2 f j) = ((a.Ws3 f j.val : ℝ) : EReal) := by
  have hi : (Rect.unit (s := S256x384) ![0, 0] S256x384.size inb_S256x384_S256x384_0_0).toLoadRect.idx (ix2 f j) = ix2 f j :=
    funext fun d => Fin.ext (by
      match d with
      | ⟨0, _⟩ => show 0 + 1 * f.val = f.val; omega
      | ⟨1, _⟩ => show 0 + 1 * j.val = j.val; omega)
  have hw : a.Ws3 f j.val = EReal.toReal (a.x6 (ix2 f j)) := by unfold Args.Ws3; rw [dif_pos j.isLt]
  -- the load is cast to its own shape, which changes nothing
  have h1 := congrFun (shapeCast_self (s := S256x384)
    (fun y : S256x384.Idx => View.readAt (Elt Ideal) a.arg7.view
      (Rect.unit (s := S256x384) ![0, 0] S256x384.size inb_S256x384_S256x384_0_0).toLoadRect (a.harg7.unread a.x6) y)
    shapeCasts_S256x384_S256x384) (ix2 f j)
  refine h1.trans ?_
  show a.arg7.view.read (Elt Ideal) (a.harg7.unread a.x6)
    ((Rect.unit (s := S256x384) ![0, 0] S256x384.size inb_S256x384_S256x384_0_0).toLoadRect.idx (ix2 f j)) = _
  rw [a.harg7.read_unread a.x6, hi, hw, Cert.Result.coe_toReal hf.x6]

/-- The third bias as loaded, entry `o`. -/
theorem B3_value (a : Args Ideal) (hf : a.FiniteIn) (o : Fin 128) : a.B3 (ix1 o) = ((a.b3r o : ℝ) : EReal) := by
  have hi : (Rect.unit (s := S128) ![0] S128.size inb_S128_S128_0).toLoadRect.idx (ix1 o) = ix1 o :=
    funext fun d => Fin.ext (by
      match d with
      | ⟨0, _⟩ => show 0 + 1 * o.val = o.val; omega)
  unfold Args.B3 kernelRun.sl.r_37
  rw [View.readAt_apply, a.harg8.read_unread a.x7, hi]
  exact (Cert.Result.coe_toReal hf.x7 _).symm

end L3

/-- The third projection at a graph's row. -/
theorem P3_value (a : Args Ideal) (hf : a.FiniteIn) (g : Fin 8) (s : Fin 325) (j : Fin 384) :
    a.P3 (ix2 (grow g s) j) = ((∑ f, a.h2r g s f * a.Ws3 f j.val : ℝ) : EReal) := by
  -- one tall product: row `336 g + s` of it is that row of the scratch buffer against the weights
  have e : a.P3 = matmul dot_S2688x256_S256x384_S2688x384_1_0_0_1_n_n none a.H2 a.W3
      (constant (F := Ideal) S2688x384 .f32 0x00000000#32) := rfl
  rw [e, L3.mmB_apply, L3.coe_sum]
  refine Finset.sum_congr rfl fun f _ => ?_
  rw [H2_value, T2_value a hf, L3.W3_value a hf, EReal.coe_mul]

namespace L3

/-! ### One graph's output block as one function of the row offset -/

variable {F : FTy → Type} [FloatOps F]

/-- The 325 × 128 block of the stacked projection at rows `r0 …`, columns `c0 …`. -/
def cut (r0 c0 : ℕ) (h : S2688x384.Slices ![r0, c0] S325x128) (P : FVec F S2688x384 .f32) : FVec F S325x128 .f32 :=
  extractStridedSlice S325x128 ![r0, c0] P h

/-- A 325 × 128 block multiplied by the Laplacian from the left. -/
def lmul (Lm : FVec F S325x325 .bf16) (X : FVec F S325x128 .f32) : FVec F S325x128 .f32 :=
  matmul dot_S325x325_S325x128_S325x128_1_0_0_1_n_n none Lm (truncf .bf16 X bitsLt_bf16_f32) (constant S325x128 .f32 0x00000000#32)

/-- The bias laid along every row. -/
def biasRows (b : Vec F S128 .f32) : FVec F S325x128 .f32 :=
  broadcastTo S325x128 (shapeCast S1x128 b shapeCasts_S128_S1x128) broadcasts_S1x128_S325x128

/-- Graph output block from the stacked projection `P`, rows `r0 … r0 + 324`: with `p₀, p₁, p₂` the three column blocks,
    `p₀ + L·(p₁ + 2·(L·p₂)) + b`, under a leading unit axis. -/
def blk3 (r0 : ℕ) (h0 : S2688x384.Slices ![r0, 0] S325x128) (h1 : S2688x384.Slices ![r0, 128] S325x128)
    (h2 : S2688x384.Slices ![r0, 256] S325x128) (Lm : FVec F S325x325 .bf16) (b : Vec F S128 .f32)
    (P : FVec F S2688x384 .f32) : FVec F S1x325x128 .f32 :=
  shapeCast S1x325x128
    (addf
      (addf (cut r0 0 h0 P)
        (lmul Lm (addf (cut r0 128 h1 P) (mulf (broadcast S325x128 (Scalar.ofBits .f32 0x40000000#32)) (lmul Lm (cut r0 256 h2 P))))))
      (biasRows b))
    shapeCasts_S325x128_S1x325x128

/-- Rows `336 g … 336 g + 324` and 128 columns from `c0 ≤ 256` lie inside the stacked projection. -/
theorem cut_ok (g : Fin 8) (c0 : ℕ) (hc : c0 + 128 ≤ 384) : S2688x384.Slices ![336 * g.val, c0] S325x128 :=
  ⟨rfl, fun a => by
    have hg := g.isLt
    match a with
    | ⟨0, _⟩ => show 336 * g.val + 325 ≤ 2688; omega
    | ⟨1, _⟩ => show c0 + 128 ≤ 384; omega⟩

end L3

namespace L3

/-! ### The block at an index, over real arrays -/

/-- A block of the stacked projection at `(s, o)` is the projection at row `r0 + s`, column `c0 + o`. -/
theorem cut_apply (r0 c0 : ℕ) (h : S2688x384.Slices ![r0, c0] S325x128) (P : FVec Ideal S2688x384 .f32) (s : Fin 325) (o : Fin 128)
    (k : Fin 2688) (c : Fin 384) (hk : k.val = r0 + s.val) (hc : c.val = c0 + o.val) :
    cut r0 c0 h P (ix2 s o) = P (ix2 k c) :=
  extractStridedSlice_apply _ _ _ _ _ (fun ax => by
    match ax with
    | ⟨0, _⟩ => exact hk
    | ⟨1, _⟩ => exact hc)

/-- Multiplying a real block by a real matrix from the left: row `s` of the matrix against the block's column. -/
theorem lmul_apply (Lm : FVec Ideal S325x325 .bf16) (X : FVec Ideal S325x128 .f32) (Lr : Fin 325 → Fin 325 → ℝ) (o : Fin 128)
    (xr : Fin 325 → ℝ) (hL : ∀ s m, Lm (ix2 s m) = ((Lr s m : ℝ) : EReal)) (hX : ∀ m, X (ix2 m o) = ((xr m : ℝ) : EReal)) (s : Fin 325) :
    lmul Lm X (ix2 s o) = ((∑ m, Lr s m * xr m : ℝ) : EReal) := by
  unfold lmul
  rw [mmA_apply, coe_sum]
  refine Finset.sum_congr rfl fun m _ => ?_
  rw [truncf_apply, hL, hX, EReal.coe_mul]

/-- The bias row at `(s, o)` is the bias at `o`. -/
theorem biasRows_apply (b : Vec Ideal S128 .f32) (s : Fin 325) (o : Fin 128) : biasRows b (ix2 s o) = b (ix1 o) := by
  unfold biasRows
  rw [broadcastTo_1b_ab_apply, shapeCast_a_1a_apply]

/-- The output block over real data: if the Laplacian, the bias and rows `r0 …` of the stacked projection are the real
    arrays `Lr`, `br`, `p`, entry `(0, s, o)` of the block is `p₀ + L·(p₁ + 2 L·p₂) + b` at `(s, o)`, the three column blocks of
    `p` being its columns `o`, `128 + o`, `256 + o`. -/
theorem blk3_apply (r0 : ℕ) (hr : r0 + 325 ≤ 2688) (h0 : S2688x384.Slices ![r0, 0] S325x128) (h1 : S2688x384.Slices ![r0, 128] S325x128)
    (h2 : S2688x384.Slices ![r0, 256] S325x128) (Lm : FVec Ideal S325x325 .bf16) (b : Vec Ideal S128 .f32) (P : FVec Ideal S2688x384 .f32)
    (Lr : Fin 325 → Fin 325 → ℝ) (br : Fin 128 → ℝ) (p : Fin 325 → ℕ → ℝ)
    (hL : ∀ s m, Lm (ix2 s m) = ((Lr s m : ℝ) : EReal)) (hb : ∀ o, b (ix1 o) = ((br o : ℝ) : EReal))
    (hP : ∀ (s : Fin 325) (c : Fin 384), P (ix2 (⟨r0 + s.val, by have := s.isLt; omega⟩ : Fin 2688) c) = ((p s c.val : ℝ) : EReal))
    (s : Fin 325) (o : Fin 128) :
    blk3 r0 h0 h1 h2 Lm b P (ix3 (0 : Fin 1) s o)
      = (((p s o.val + ∑ m, Lr s m * (p m (128 + o.val) + 2 * ∑ m', Lr m m' * p m' (256 + o.val))) + br o : ℝ) : EReal) := by
  have ho := o.isLt
  have e2 : ∀ m : Fin 325, lmul Lm (cut r0 256 h2 P) (ix2 m o) = ((∑ m', Lr m m' * p m' (256 + o.val) : ℝ) : EReal) := fun m =>
    lmul_apply Lm _ Lr o (fun m' => p m' (256 + o.val)) hL (fun m' => by
      rw [cut_apply r0 256 h2 P m' o ⟨r0 + m'.val, by have := m'.isLt; omega⟩ ⟨256 + o.val, by omega⟩ rfl rfl, hP]) m
  have e1 : ∀ m : Fin 325, (addf (cut r0 128 h1 P) (mulf (broadcast S325x128 (Scalar.ofBits .f32 0x40000000#32)) (lmul Lm (cut r0 256 h2 P)))) (ix2 m o)
      = ((p m (128 + o.val) + 2 * ∑ m', Lr m m' * p m' (256 + o.val) : ℝ) : EReal) := fun m => by
    rw [addf_apply, mulf_apply, broadcast_apply, e2, two_eq,
      cut_apply r0 128 h1 P m o ⟨r0 + m.val, by have := m.isLt; omega⟩ ⟨128 + o.val, by omega⟩ rfl rfl, hP, ← EReal.coe_mul, ← EReal.coe_add]
  unfold blk3
  rw [shapeCast_ab_1ab_apply, addf_apply, addf_apply, biasRows_apply, hb,
    lmul_apply Lm _ Lr o (fun m => p m (128 + o.val) + 2 * ∑ m', Lr m m' * p m' (256 + o.val)) hL e1 s,
    cut_apply r0 0 h0 P s o ⟨r0 + s.val, by have := s.isLt; omega⟩ ⟨o.val, by omega⟩ rfl (Nat.zero_add _).symm, hP,
    ← EReal.coe_add, ← EReal.coe_add]

end L3

namespace L3

/-- Each graph's output block is the one function of the row offset, at offset `336 g`. -/
theorem T3_eq {F : FTy → Type} [FloatOps F] (a : Args F) (g : Fin 8) :
    a.T3 g = blk3 (336 * g.val) (cut_ok g 0 (by omega)) (cut_ok g 128 (by omega)) (cut_ok g 256 (by omega)) (a.L g) a.B3 a.P3 := by
  match g with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨_ + 8, h⟩ => exact absurd h (Nat.not_lt.2 (Nat.le_add_left _ _))

end L3

/-- Graph `g`'s output block, entry `(0, s, o)`. -/
theorem T3_value (a : Args Ideal) (hf : a.FiniteIn) (g : Fin 8) (s : Fin 325) (o : Fin 128) :
    a.T3 g (ix3 (0 : Fin 1) s o) = ((a.outr g s o : ℝ) : EReal) := by
  rw [L3.T3_eq]
  exact L3.blk3_apply (336 * g.val) (by have := g.isLt; omega) _ _ _ (a.L g) a.B3 a.P3 (Spec.lap (a.Ag g)) a.b3r
    (fun s c => ∑ f, a.h2r g s f * a.Ws3 f c) (fun s m => lap_value a hf.x1 g s m) (fun o => L3.B3_value a hf o)
    (fun s c => P3_value a hf g s c) s o

/-- The output buffer's pieces, last store first: block `T3 g` through the rectangle at `[g, 0, 0]`. -/
theorem out_pieces {F : FTy → Type} [FloatOps F] (a : Args F) (i : grid0.Coords) :
    (a.run i).1 =
      [⟨Rect.unit (s := S8x325x128) ![7, 0, 0] S1x325x128.size inb_S8x325x128_S1x325x128_7_0_0, a.T3 7⟩,
       ⟨Rect.unit (s := S8x325x128) ![6, 0, 0] S1x325x128.size inb_S8x325x128_S1x325x128_6_0_0, a.T3 6⟩,
       ⟨Rect.unit (s := S8x325x128) ![5, 0, 0] S1x325x128.size inb_S8x325x128_S1x325x128_5_0_0, a.T3 5⟩,
       ⟨Rect.unit (s := S8x325x128) ![4, 0, 0] S1x325x128.size inb_S8x325x128_S1x325x128_4_0_0, a.T3 4⟩,
       ⟨Rect.unit (s := S8x325x128) ![3, 0, 0] S1x325x128.size inb_S8x325x128_S1x325x128_3_0_0, a.T3 3⟩,
       ⟨Rect.unit (s := S8x325x128) ![2, 0, 0] S1x325x128.size inb_S8x325x128_S1x325x128_2_0_0, a.T3 2⟩,
       ⟨Rect.unit (s := S8x325x128) ![1, 0, 0] S1x325x128.size inb_S8x325x128_S1x325x128_1_0_0, a.T3 1⟩,
       ⟨Rect.unit (s := S8x325x128) ![0, 0, 0] S1x325x128.size inb_S8x325x128_S1x325x128_0_0_0, a.T3 0⟩] := by
  rfl

namespace L3

/-- A unit block at graph `k` of the output shape, read at its local index: graph `k`, same node, same feature. -/
theorem blockIdx (k : Fin 8) (inb) (x : S1x325x128.Idx) :
    (Rect.unit (s := S8x325x128) ![k.val, 0, 0] S1x325x128.size inb).emb x = ix3 k (x 1) (x 2) := by
  funext d
  match d with
  | ⟨0, _⟩ => exact Fin.ext (by have h : (x 0).val < 1 := (x 0).isLt; show k.val + 1 * (x 0).val = k.val; omega)
  | ⟨1, _⟩ => exact Fin.ext (by show 0 + 1 * (x 1).val = (x 1).val; omega)
  | ⟨2, _⟩ => exact Fin.ext (by show 0 + 1 * (x 2).val = (x 2).val; omega)

/-- Graph `k`'s block is the block at `[k, 0, 0]` of the function "entry `(g, s, o)` is graph `g`'s block at `(0, s, o)`". -/
theorem piece_eq {F : FTy → Type} [FloatOps F] (a : Args F) (k : Fin 8) (inb) (x : S1x325x128.Idx) :
    a.T3 k x = (fun y : S8x325x128.Idx => a.T3 (y 0) (ix3 (0 : Fin 1) (y 1) (y 2)))
      ((Rect.unit (s := S8x325x128) ![k.val, 0, 0] S1x325x128.size inb).emb x) := by
  rw [blockIdx]
  show a.T3 k x = a.T3 k (ix3 (0 : Fin 1) (x 1) (x 2))
  refine congrArg (a.T3 k) (funext fun d => ?_)
  match d with
  | ⟨0, _⟩ => exact Fin.ext (by have h : (x 0).val < 1 := (x 0).isLt; show (x 0).val = 0; omega)
  | ⟨1, _⟩ => rfl
  | ⟨2, _⟩ => rfl

/-- The eight blocks tile the output buffer, so after the body entry `(g, s, o)` of it is graph `g`'s block at `(0, s, o)`. -/
theorem out_canon {F : FTy → Type} [FloatOps F] (a : Args F) (i : grid0.Coords) (g : Fin 8) (s : Fin 325) (o : Fin 128) :
    View.canon (a.run i).1 (ix3 g s o) = a.T3 g (ix3 (0 : Fin 1) s o) := by
  rw [out_pieces]
  refine (View.canon_apply_of_pieces (fun y : S8x325x128.Idx => a.T3 (y 0) (ix3 (0 : Fin 1) (y 1) (y 2))) _ ?_ (ix3 g s o)
    (View.cover_of_tiledL (s := S8x325x128) _ S1x325x128.size (by sl_kernel_rfl) _)).trans rfl
  intro p hp x
  simp only [List.mem_cons, List.not_mem_nil, or_false] at hp
  rcases hp with rfl | rfl | rfl | rfl | rfl | rfl | rfl | rfl
  · exact piece_eq a 7 inb_S8x325x128_S1x325x128_7_0_0 x
  · exact piece_eq a 6 inb_S8x325x128_S1x325x128_6_0_0 x
  · exact piece_eq a 5 inb_S8x325x128_S1x325x128_5_0_0 x
  · exact piece_eq a 4 inb_S8x325x128_S1x325x128_4_0_0 x
  · exact piece_eq a 3 inb_S8x325x128_S1x325x128_3_0_0 x
  · exact piece_eq a 2 inb_S8x325x128_S1x325x128_2_0_0 x
  · exact piece_eq a 1 inb_S8x325x128_S1x325x128_1_0_0 x
  · exact piece_eq a 0 inb_S8x325x128_S1x325x128_0_0_0 x

end L3

/-- What the output buffer holds after the body, entry `(g, s, o)`: graph `g`'s output. -/
theorem out_value (a : Args Ideal) (hf : a.FiniteIn) (i : grid0.Coords) (g : Fin 8) (s : Fin 325) (o : Fin 128) :
    View.canon (a.run i).1 (ix3 g s o) = ((a.outr g s o : ℝ) : EReal) :=
  (L3.out_canon a i g s o).trans (T3_value a hf g s o)

end Cert.KernelIdeal.Body

end
-- ==== Proof.KernelIdealFrame.lean ====
/-
  The frame of the program: it runs to the end, nothing faults, and its eight argument arrays end as
  they were launched — at any reading of floats.

  The program is three stretches of host operations (the node features reshaped, narrowed, padded
  from 325 to 336 rows per graph and stacked; each weight triple `[W0 − W2 | W1 | W2]` laid side by
  side and narrowed; the adjacency narrowed) followed by ONE pipelined region over two grid steps
  of eight graphs each. No host operation writes an argument array, so the region finds them as
  launched. Inside the region nine windows are staged: eight inputs, which the body only reads,
  and the output, which it overwrites whole; the two scratch buffers are the region's own. Nothing
  is claimed here about what the output holds, so its window is left unnamed: the body is handed
  that buffer at any contents and hands it back at any contents. The body's run itself is
  `Body.kernelRun`; this file feeds it each input window's block, opens the region's invariant into
  the two scratch buffers and closes it again.
-/
import proofs.«129663_g81071802679316_cont_sun_m_195_35_alg».proof.Proof.KernelIdealRun

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the region finds -/

/-- A core's buffers when the region is entered: the launch contents after the three host stretches. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- The program up to its region: the three host stretches, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-! Every host operation writes a buffer of its own, never an argument: the region finds each argument as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, StableHlo.nary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, StableHlo.nary_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, StableHlo.nary_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, StableHlo.nary_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at grid step `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's staging buffer holds its block at every step, whether the step fetched it or an earlier one did
    (the weights and biases are fetched at the first step only, and their block index never moves). -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run to the region's post -/

/-- Each argument array ends as launched: the three biases are input windows' arrays, never written; the other five
    bypass the region; and the region found all eight as launched. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      (Pipeline.RDat.FramePost.arr_in h c 3 rfl).trans ((hA c 3).trans (V_main_arg3 m c)),
      ((h c).2 main_arg4 (Pipeline.mem_restRefs_of main_arg4 (by decide) (by decide))).trans (V_main_arg4 m c),
      (Pipeline.RDat.FramePost.arr_in h c 5 rfl).trans ((hA c 5).trans (V_main_arg5 m c)),
      ((h c).2 main_arg6 (Pipeline.mem_restRefs_of main_arg6 (by decide) (by decide))).trans (V_main_arg6 m c),
      (Pipeline.RDat.FramePost.arr_in h c 7 rfl).trans ((hA c 7).trans (V_main_arg7 m c))⟩) h

/-! ## The staging and scratch buffers as the pipeline passes them -/

abbrev scM0 : Memref sig .tc .vmem S2688x256 .bf16 := Memref.whole cc0_scratch0
abbrev scM1 : Memref sig .tc .vmem S2688x256 .bf16 := Memref.whole cc0_scratch1

/-- The region's invariant is its two scratch buffers, each at some contents, and the generator register. -/
theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-! ## Proof data that names nothing of the output -/

/-- The output window (8) is forgotten. -/
def forgets : Fin 9 → Bool := fun w => w.val == 8

/-- Arrays as the region finds them; after the body each input's buffer at its block, the output's unnamed; the invariant
    the scratch buffers at anything; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d
theorem before_6 (c : Dev nD) (t : Fin cfg0.N) (d) : (dats m 0 c).before 6 t d = iblk m c 6 t :=
  before_6_of m (dats m 0 c) (A_eq m c 6) (after_6 m c) t d
theorem before_7 (c : Dev nD) (t : Fin cfg0.N) (d) : (dats m 0 c).before 7 t d = iblk m c 7 t :=
  before_7_of m (dats m 0 c) (A_eq m c 7) (after_7 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare d))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ (∃ d, owns (c : Thread nD τ) (st0_8 t) fullShare d))

set_option maxHeartbeats 1600000 in
/-- At any step: the inputs' buffers hold their blocks, the invariant hands over the scratch buffers at whatever they hold,
    the run applies, and every written buffer is handed back at what it then holds. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  rw [show (dats m 0 c).Φ t.castSucc = Pipeline.ΦA spec0 c from rfl, PhiA_eq]
  iintro ⟨⟨⟨⟨%ds0, HS0⟩, ⟨%ds1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun c (grid0.coords t) _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) ds0 ds1).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  isplitl [HS1]; · iexact HS1
  iintro ⟨H0, H1, H2, H3, H4, H5, H6, H7, ⟨%e8, H8⟩, ⟨%es0, HS0⟩, ⟨%es1, HS1⟩⟩
  isplitl [HS0 HS1 Hg]
  · isplitl [HS0 HS1]
    · isplitl [HS0]
      · unfold owns; iexists _; iexists _; isplitr
        swap; · iexact HS0
        ipureintro; rfl
      · unfold owns; iexists _; iexists _; isplitr
        swap; · iexact HS1
        ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  unfold owns; iexists _; iexists _; isplitr
  swap; · iexact H8
  ipureintro; rfl

theorem body_obligation (c : Dev nD) : BodyObligation (dats (F := F) m 0 c) (defs₀ (F := F)) Variants.none () Set.univ forgets := fun t => by
  rw [bigSep_W0, bigSep_W0]
  exact sound_body m c t

/-! ## The run and the frame -/

set_option backward.isDefEq.respectTransparency.types false in
/-- Every weakly fair execution terminates without a fault; every input window's array and every buffer that bypasses the
    region ends as the region found it. -/
theorem run_main : θ_run defs (onTc (τ := τ) (main (F := F))) (s₀ m ρ) (Pipeline.RDat.FramePost (cfgs 0) (fun c => (dats m 0 c).toRForget forgets) (V m)) :=
  Pipeline.RDat.θ_run_frame cfgs (0 : Fin 1) launch0 defs₀ Variants.none (fun c => (dats m 0 c).toRForget forgets) m ρ main
    (hbody := fun c => (body_obligation m c).loose.toRForget) (hshare := fun c => ((dats m 0 c).toRForget forgets).share_full fun _ => rfl)
    (howed := fun _ _ => rfl) (V := V m) (hmain := hmain m Variants.none) (hA := A_eq m) (hΦ := fun _ _ => rfl)

/-- The frame claim's post, at any reading of floats. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (fun c => (dats m 0 c).toRForget forgets) (A_eq m) (run_main m ρ)

end Cert.KernelIdeal.Body

end
-- ==== Proof.KernelArgs.lean ====
/-
  The body's arguments at a grid step.

  At step `t` on core `c` the pipeline calls the body on the windows' current staging buffers, which hold the
  windows' blocks at `t` (`iblk`), and on the two scratch buffers at whatever they then hold. Step `t`'s graph
  number `g` is graph `8 t + g` of the sixteen.
-/
import proofs.«129663_g81071802679316_cont_sun_m_195_35_alg».proof.Proof.KernelIdealFrame
import proofs.«129663_g81071802679316_cont_sun_m_195_35_alg».proof.Proof.KernelReals

set_option maxRecDepth 16384

noncomputable section

namespace Cert.KernelIdeal.Body

open Cert.KernelIdeal Cert.KernelIdeal.Gen
open Idealize.ShloMosaic Idealize.ShloMosaic.TcCoe Idealize.ShloMosaic.ValueIdx

variable (m : (ℓ : Loc nD τ sig) → Buf (Elt Ideal) ℓ)

/-- The grid has two steps. -/
theorem step_lt (t : Fin cfg0.N) : t.val < 2 := lt_of_lt_of_eq t.isLt (show cfg0.N = 2 from N_0)

/-- Graph `g` of step `t` among the sixteen. -/
def gidx (t : Fin cfg0.N) (g : Fin 8) : Fin 16 := ⟨8 * t.val + g.val, by have := step_lt t; have := g.isLt; omega⟩

/-- The body's arguments at step `t` on core `c`, the scratch buffers at `ds0`, `ds1`. -/
def argsAt (c : Dev nD) (t : Fin cfg0.N) (ds0 ds1 : Vec Ideal S2688x256 .bf16) : Args Ideal where
  c := c
  arg1 := win0_0.stage (cfg0.slots t 0)
  harg1 := hstage0_0 ((cfg0.slots t 0).cast nbuf0_0)
  arg2 := win0_1.stage (cfg0.slots t 1)
  harg2 := hstage0_1 ((cfg0.slots t 1).cast nbuf0_1)
  arg3 := win0_2.stage (cfg0.slots t 2)
  harg3 := hstage0_2 ((cfg0.slots t 2).cast nbuf0_2)
  arg4 := win0_3.stage (cfg0.slots t 3)
  harg4 := hstage0_3 ((cfg0.slots t 3).cast nbuf0_3)
  arg5 := win0_4.stage (cfg0.slots t 4)
  harg5 := hstage0_4 ((cfg0.slots t 4).cast nbuf0_4)
  arg6 := win0_5.stage (cfg0.slots t 5)
  harg6 := hstage0_5 ((cfg0.slots t 5).cast nbuf0_5)
  arg7 := win0_6.stage (cfg0.slots t 6)
  harg7 := hstage0_6 ((cfg0.slots t 6).cast nbuf0_6)
  arg8 := win0_7.stage (cfg0.slots t 7)
  harg8 := hstage0_7 ((cfg0.slots t 7).cast nbuf0_7)
  arg9 := win0_8.stage (cfg0.slots t 8)
  harg9 := hstage0_8 ((cfg0.slots t 8).cast nbuf0_8)
  arg10 := Memref.whole cc0_scratch0
  harg10 := Memref.isWhole_whole _
  arg11 := Memref.whole cc0_scratch1
  harg11 := Memref.isWhole_whole _
  x0 := iblk m c 0 t
  x1 := iblk m c 1 t
  x2 := iblk m c 2 t
  x3 := iblk m c 3 t
  x4 := iblk m c 4 t
  x5 := iblk m c 5 t
  x6 := iblk m c 6 t
  x7 := iblk m c 7 t
  xs0 := ds0
  xs1 := ds1

end Cert.KernelIdeal.Body

end
-- ==== Proof.KernelBlocksX.lean ====
/-
  A grid step's feature and adjacency blocks are the argument arrays' own entries.

  Before the region the host reshapes the node features `[16, 325, 12, 32]` to `[16, 325, 384]`, narrows them
  (the identity at this reading of floats), pads each graph from 325 to 336 rows with zeros and stacks
  the sixteen graphs into `[5376, 384]`; the adjacency is only narrowed. Step `t` stages rows
  `2688 t … 2688 t + 2687` of the stacked features and graphs `8 t … 8 t + 7` of the adjacency. So row
  `336 g + s` (`s < 325`) of the step's feature block is node `s` of graph `8 t + g`, and the padding rows are zero.
-/
import proofs.«129663_g81071802679316_cont_sun_m_195_35_alg».proof.Proof.KernelArgs
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws
import Idealize.ShloMosaic.Lib.KernelVsHost

set_option maxRecDepth 16384

noncomputable section

namespace Cert.KernelIdeal.Body

open Cert.KernelIdeal Cert.KernelIdeal.Gen
open Idealize.ShloMosaic Idealize.ShloMosaic.TcCoe Idealize.ShloMosaic.ValueIdx
open Cert.Result (Finite Ar Xr Wr br)

variable (m : (ℓ : Loc nD τ sig) → Buf (Elt Ideal) ℓ)

/-! ## What the host wrote -/

/-- The narrowed adjacency, as the region finds it, is the narrowing of the adjacency argument. -/
theorem v37_eq (c : Dev nD) :
    @Eq (FVec Ideal S16x325x325 .bf16) (V m c main_v37)
      (truncf .bf16 (m ((c.tc : Thread nD τ).loc main_arg1) : FVec Ideal S16x325x325 .f32) bitsLt_bf16_f32) := by
  dsimp only [V]
  simp only [hostOps0, hostOps0_1, hostOps0_2, List.flatten_cons, List.flatten_nil, List.append_nil, List.cons_append, List.nil_append]
  after_results

/-- The stacked features, as the region finds them: the feature argument with its last two axes flattened, narrowed,
    padded by eleven rows per graph with the converted integer zero, and the sixteen graphs laid one under the other. -/
theorem v3_eq (c : Dev nD) :
    @Eq (FVec Ideal S5376x384 .bf16) (V m c main_v3)
      (shapeCast S5376x384
        (pad S16x336x384 ![0, 0, 0] ![0, 11, 0] ![0, 0, 0]
          (truncf .bf16 (shapeCast S16x325x384 (m ((c.tc : Thread nD τ).loc main_arg0) : FVec Ideal S16x325x12x32 .f32) shapeCasts_S16x325x12x32_S16x325x384) bitsLt_bf16_f32 : FVec Ideal S16x325x384 .bf16)
          (sitofp .bf16 (constantI S_ 32 0#32) : FVec Ideal S_ .bf16)
          pads_S16x325x384_S16x336x384_000_0110_000 h_S_)
        shapeCasts_S16x336x384_S5376x384) := by
  dsimp only [V]
  simp only [hostOps0, hostOps0_1, hostOps0_2, List.flatten_cons, List.flatten_nil, List.append_nil, List.cons_append, List.nil_append]
  after_results
  rfl

/-! ## The stacked features read at a row -/

/-- Row `336 b + s` with `s < 325`, feature `f`. Row-major, that row of `[5376, 384]` is row `s` of graph `b` in
    `[16, 336, 384]`; it lies inside the unpadded `[16, 325, 384]`; narrowing changes nothing; and position `f` of the
    flattened last axis is entry `(f / 32, f % 32)` of `[12, 32]` since `f = 32 (f / 32) + f % 32`. -/
theorem stacked_inside (X : FVec Ideal S16x325x12x32 .f32) (z : FVec Ideal S_ .bf16) (R : Fin 5376) (f : Fin 384)
    (b : Fin 16) (s : Fin 325) (hR : R.val = 336 * b.val + s.val) :
    (shapeCast S5376x384
        (pad S16x336x384 ![0, 0, 0] ![0, 11, 0] ![0, 0, 0]
          (truncf .bf16 (shapeCast S16x325x384 X shapeCasts_S16x325x12x32_S16x325x384) bitsLt_bf16_f32 : FVec Ideal S16x325x384 .bf16)
          z pads_S16x325x384_S16x336x384_000_0110_000 h_S_)
        shapeCasts_S16x336x384_S5376x384 : FVec Ideal S5376x384 .bf16) (ix2 R f)
      = X (ix4 b s ⟨f.val / 32, by have := f.isLt; omega⟩ ⟨f.val % 32, Nat.mod_lt _ (by decide)⟩) := by
  have hs := s.isLt
  rw [shapeCast_apply _ shapeCasts_S16x336x384_S5376x384 (ix2 R f) (ix3 b (⟨s.val, by omega⟩ : Fin 336) f) (by
    rw [Shape.rowMajor_val_three, Shape.rowMajor_val_two]
    show (b.val * 336 + s.val) * 384 + f.val = R.val * 384 + f.val
    omega)]
  rw [pad_apply_of_inside _ _ _ _ _ pads_S16x325x384_S16x336x384_000_0110_000 h_S_ (ix3 b (⟨s.val, by omega⟩ : Fin 336) f) (ix3 b s f) (fun a => by
    match a with
    | ⟨0, _⟩ => show b.val = 0 + b.val * (0 + 1); omega
    | ⟨1, _⟩ => show s.val = 0 + s.val * (0 + 1); omega
    | ⟨2, _⟩ => show f.val = 0 + f.val * (0 + 1); omega)]
  rw [truncf_apply]
  exact shapeCast_apply _ shapeCasts_S16x325x12x32_S16x325x384 (ix3 b s f) _ (by
    rw [Shape.rowMajor_val_four, Shape.rowMajor_val_three]
    show ((b.val * 325 + s.val) * 12 + f.val / 32) * 32 + f.val % 32 = (b.val * 325 + s.val) * 384 + f.val
    omega)

/-- Row `336 b + s` with `325 ≤ s`: row `s` of graph `b` lies past the 325 unpadded rows, so it holds the padding value. -/
theorem stacked_outside (X : FVec Ideal S16x325x12x32 .f32) (z : FVec Ideal S_ .bf16) (R : Fin 5376) (f : Fin 384)
    (b : Fin 16) (s : Fin 336) (hR : R.val = 336 * b.val + s.val) (hs : 325 ≤ s.val) :
    (shapeCast S5376x384
        (pad S16x336x384 ![0, 0, 0] ![0, 11, 0] ![0, 0, 0]
          (truncf .bf16 (shapeCast S16x325x384 X shapeCasts_S16x325x12x32_S16x325x384) bitsLt_bf16_f32 : FVec Ideal S16x325x384 .bf16)
          z pads_S16x325x384_S16x336x384_000_0110_000 h_S_)
        shapeCasts_S16x336x384_S5376x384 : FVec Ideal S5376x384 .bf16) (ix2 R f)
      = z (Shape.Idx.first h_S_) := by
  rw [shapeCast_apply _ shapeCasts_S16x336x384_S5376x384 (ix2 R f) (ix3 b s f) (by
    rw [Shape.rowMajor_val_three, Shape.rowMajor_val_two]
    show (b.val * 336 + s.val) * 384 + f.val = R.val * 384 + f.val
    omega)]
  exact pad_apply_of_not_inside _ _ _ _ _ pads_S16x325x384_S16x336x384_000_0110_000 h_S_ (ix3 b s f) (1 : Fin 3) (by
    show ¬(0 ≤ s.val ∧ (s.val - 0) % (0 + 1) = 0 ∧ (s.val - 0) / (0 + 1) < 325)
    omega)

/-- The padding value, the integer zero converted, is the real zero. -/
theorem pad_value : (sitofp .bf16 (constantI S_ 32 0#32) : FVec Ideal S_ .bf16) (Shape.Idx.first h_S_) = 0 :=
  sitofp_zero

/-- An unpadded row of the stacked features as the region finds them is the feature argument's entry. -/
theorem v3_inside (c : Dev nD) (R : Fin 5376) (f : Fin 384) (b : Fin 16) (s : Fin 325) (hR : R.val = 336 * b.val + s.val) :
    (V m c main_v3 : FVec Ideal S5376x384 .bf16) (ix2 R f)
      = m ((c.tc : Thread nD τ).loc main_arg0) (ix4 b s ⟨f.val / 32, by have := f.isLt; omega⟩ ⟨f.val % 32, Nat.mod_lt _ (by decide)⟩) := by
  rw [v3_eq]
  exact stacked_inside _ _ R f b s hR

/-- A padding row of the stacked features as the region finds them is zero. -/
theorem v3_outside (c : Dev nD) (R : Fin 5376) (f : Fin 384) (b : Fin 16) (s : Fin 336) (hR : R.val = 336 * b.val + s.val)
    (hs : 325 ≤ s.val) : (V m c main_v3 : FVec Ideal S5376x384 .bf16) (ix2 R f) = (0 : EReal) := by
  rw [v3_eq]
  exact (stacked_outside _ _ R f b s hR hs).trans pad_value

/-! ## A step's blocks inside the arrays -/

/-- The two moving windows' block indices over the two-step grid: the step number on the leading axis, zero elsewhere. -/
theorem idx_facts : ∀ t : Fin cfg0.N, win0_0.index t (0 : Fin 2) = t.val ∧ win0_0.index t (1 : Fin 2) = 0
    ∧ win0_1.index t (0 : Fin 3) = t.val ∧ win0_1.index t (1 : Fin 3) = 0 ∧ win0_1.index t (2 : Fin 3) = 0 :=
  (by decide +kernel : ∀ t : Fin grid0.N, _)

/-- Graph `g` of the step's adjacency block is graph `8 t + g` of the narrowed adjacency: a block's element sits at
    block index times block size plus its own coordinate. -/
theorem x1_read (c : Dev nD) (t : Fin cfg0.N) (ds0 ds1 : Vec Ideal S2688x256 .bf16) (g : Fin 8) (s k : Fin 325) :
    (argsAt m c t ds0 ds1).x1 (ix3 g s k) = (V m c main_v37 : FVec Ideal S16x325x325 .bf16) (ix3 (gidx t g) s k) := by
  obtain ⟨e0, e1, e2, e3, e4⟩ := idx_facts t
  show (V m c main_v37 : FVec Ideal S16x325x325 .bf16) (((cfg0.win 1).blk t).view.emb (ix3 g s k)) = _
  refine congrArg _ (funext fun a => Fin.ext ?_)
  match a with
  | ⟨0, _⟩ => show win0_1.index t (0 : Fin 3) * 8 + 1 * g.val = 8 * t.val + g.val; omega
  | ⟨1, _⟩ => show win0_1.index t (1 : Fin 3) * 325 + 1 * s.val = s.val; omega
  | ⟨2, _⟩ => show win0_1.index t (2 : Fin 3) * 325 + 1 * k.val = k.val; omega

/-- Row `r` of the step's feature block is row `2688 t + r` of the stacked features. -/
theorem x0_read (c : Dev nD) (t : Fin cfg0.N) (ds0 ds1 : Vec Ideal S2688x256 .bf16) (r : Fin 2688) (f : Fin 384) :
    (argsAt m c t ds0 ds1).x0 (ix2 r f)
      = (V m c main_v3 : FVec Ideal S5376x384 .bf16) (ix2 ⟨2688 * t.val + r.val, by have := step_lt t; have := r.isLt; omega⟩ f) := by
  obtain ⟨e0, e1, e2, e3, e4⟩ := idx_facts t
  show (V m c main_v3 : FVec Ideal S5376x384 .bf16) (((cfg0.win 0).blk t).view.emb (ix2 r f)) = _
  refine congrArg _ (funext fun a => Fin.ext ?_)
  match a with
  | ⟨0, _⟩ => show win0_0.index t (0 : Fin 2) * 2688 + 1 * r.val = 2688 * t.val + r.val; omega
  | ⟨1, _⟩ => show win0_0.index t (1 : Fin 2) * 384 + 1 * f.val = f.val; omega

/-- An entry of the step's adjacency block is the adjacency argument's entry (narrowing is the identity). -/
theorem x1_apply (c : Dev nD) (t : Fin cfg0.N) (ds0 ds1 : Vec Ideal S2688x256 .bf16) (g : Fin 8) (s k : Fin 325) :
    (argsAt m c t ds0 ds1).x1 (ix3 g s k) = m ((c.tc : Thread nD τ).loc main_arg1) (ix3 (gidx t g) s k) := by
  rw [x1_read, v37_eq]
  rfl

/-! ## The statements -/

/-- Graph `g` of step `t`: its adjacency block is graph `8 t + g`'s adjacency matrix. -/
theorem Ag_eq (c : Dev nD) (t : Fin cfg0.N) (ds0 ds1 : Vec Ideal S2688x256 .bf16) (g : Fin 8) :
    (argsAt m c t ds0 ds1).Ag g = Ar (m ((c.tc : Thread nD τ).loc main_arg1)) (gidx t g) := by
  funext s k
  show EReal.toReal ((argsAt m c t ds0 ds1).x1 (ix3 g s k)) = EReal.toReal (m ((c.tc : Thread nD τ).loc main_arg1) (ix3 (gidx t g) s k))
  rw [x1_apply]

/-- Its node features are graph `8 t + g`'s, flattened: row `336 g + s` of the step's block is row
    `2688 t + 336 g + s = 336 (8 t + g) + s` of the stacked features, an unpadded row since `s < 325`. -/
theorem Xg_eq (c : Dev nD) (t : Fin cfg0.N) (ds0 ds1 : Vec Ideal S2688x256 .bf16) (g : Fin 8) :
    (argsAt m c t ds0 ds1).Xg g = Xr (m ((c.tc : Thread nD τ).loc main_arg0)) (gidx t g) := by
  funext s f
  show EReal.toReal ((argsAt m c t ds0 ds1).x0 (ix2 (grow g s) f))
    = EReal.toReal (m ((c.tc : Thread nD τ).loc main_arg0) (ix4 (gidx t g) s ⟨f.val / 32, by have := f.isLt; omega⟩ ⟨f.val % 32, Nat.mod_lt _ (by decide)⟩))
  rw [x0_read, v3_inside m c _ f (gidx t g) s (by show 2688 * t.val + (336 * g.val + s.val) = 336 * (8 * t.val + g.val) + s.val; omega)]

/-- The step's feature block holds real numbers only: an argument's entry, or a padding zero. -/
theorem x0_finite (c : Dev nD) (t : Fin cfg0.N) (ds0 ds1 : Vec Ideal S2688x256 .bf16) (h0 : Finite (m ((c.tc : Thread nD τ).loc main_arg0))) :
    Finite (argsAt m c t ds0 ds1).x0 := by
  intro i
  obtain ⟨r, f, rfl⟩ : ∃ (r : Fin 2688) (f : Fin 384), i = ix2 r f := ⟨i 0, i 1, eq_ix2 i⟩
  have ht := step_lt t
  have hr : r.val < 2688 := r.isLt
  rw [x0_read]
  by_cases hs : (2688 * t.val + r.val) % 336 < 325
  · rw [v3_inside m c _ f ⟨(2688 * t.val + r.val) / 336, by omega⟩ ⟨(2688 * t.val + r.val) % 336, hs⟩
      (by show 2688 * t.val + r.val = 336 * ((2688 * t.val + r.val) / 336) + (2688 * t.val + r.val) % 336; omega)]
    exact h0 _
  · rw [v3_outside m c _ f ⟨(2688 * t.val + r.val) / 336, by omega⟩ ⟨(2688 * t.val + r.val) % 336, Nat.mod_lt _ (by decide)⟩
      (by show 2688 * t.val + r.val = 336 * ((2688 * t.val + r.val) / 336) + (2688 * t.val + r.val) % 336; omega)
      (by show 325 ≤ (2688 * t.val + r.val) % 336; omega)]
    exact ⟨EReal.zero_ne_top, EReal.zero_ne_bot⟩

/-- The step's adjacency block holds real numbers only. -/
theorem x1_finite (c : Dev nD) (t : Fin cfg0.N) (ds0 ds1 : Vec Ideal S2688x256 .bf16) (h1 : Finite (m ((c.tc : Thread nD τ).loc main_arg1))) :
    Finite (argsAt m c t ds0 ds1).x1 := by
  intro i
  obtain ⟨g, s, k, rfl⟩ : ∃ (g : Fin 8) (s k : Fin 325), i = ix3 g s k := ⟨i 0, i 1, i 2, eq_ix3 i⟩
  rw [x1_apply]
  exact h1 _

end Cert.KernelIdeal.Body

end
-- ==== Proof.KernelBlocksW.lean ====
/-
  A grid step's weights and biases are the argument arrays'.

  Before the region the host cuts each weight triple `[3, Fi, Fo]` into its three matrices, subtracts the
  third from the first, lays `[W 0 − W 2 | W 1 | W 2]` side by side (a concatenation along the columns) and
  narrows the result (the identity at this reading of floats); the biases are staged as they are. Every
  step stages these arrays whole. With real entries the side-by-side array read by column number is
  `Spec.stack` of the triple.
-/
import proofs.«129663_g81071802679316_cont_sun_m_195_35_alg».proof.Proof.KernelArgs
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

namespace Cert.KernelIdeal.Body

open Cert.KernelIdeal Cert.KernelIdeal.Gen
open Idealize.ShloMosaic Idealize.ShloMosaic.TcCoe Idealize.ShloMosaic.ValueIdx
open Cert.Result (Finite Ar Xr Wr br)

variable (m : (ℓ : Loc nD τ sig) → Buf (Elt Ideal) ℓ)

/-! ## Reading the host's layout operations at an index -/

section Layout
variable {α : Type} {Fi Fo : ℕ}

/-- Matrix `k` of a weight triple, cut out as a `[1, Fi, Fo]` slab and flattened to `[Fi, Fo]`, read at `(f, o)`: entry
    `(k, f, o)` of the triple (the slab's first coordinate is `0`, so both row-major positions are `f * Fo + o`). -/
theorem sliceMat_apply (W : (⟨3, ![3, Fi, Fo]⟩ : Shape).Idx → α) (k : ℕ) (hk : k < 3)
    (hs : (⟨3, ![3, Fi, Fo]⟩ : Shape).Slices ![k, 0, 0] ⟨3, ![1, Fi, Fo]⟩)
    (hc : (⟨3, ![1, Fi, Fo]⟩ : Shape).ShapeCasts ⟨2, ![Fi, Fo]⟩) (f : Fin Fi) (o : Fin Fo) :
    shapeCast ⟨2, ![Fi, Fo]⟩ (extractStridedSlice ⟨3, ![1, Fi, Fo]⟩ ![k, 0, 0] W hs) hc (ix2 f o) = W (ix3 ⟨k, hk⟩ f o) := by
  refine (shapeCast_apply _ hc (ix2 f o) (ix3 (⟨0, Nat.one_pos⟩ : Fin 1) f o) ?_).trans ?_
  · rw [Shape.rowMajor_val_three, Shape.rowMajor_val_two]
    show ((0 : ℕ) * Fi + f.val) * Fo + o.val = f.val * Fo + o.val
    rw [Nat.zero_mul, Nat.zero_add]
  · refine extractStridedSlice_apply _ W hs _ _ fun a => ?_
    match a with
    | ⟨0, _⟩ => rfl
    | ⟨1, _⟩ => exact (Nat.zero_add _).symm
    | ⟨2, _⟩ => exact (Nat.zero_add _).symm

variable {N : ℕ} (A B C : (⟨2, ![Fi, Fo]⟩ : Shape).Idx → α)
  (h : Shape.Concatenates ([(⟨⟨2, ![Fi, Fo]⟩, A⟩ : (s : Shape) × (s.Idx → α)), ⟨⟨2, ![Fi, Fo]⟩, B⟩, ⟨⟨2, ![Fi, Fo]⟩, C⟩].map (·.1)) ⟨2, ![Fi, N]⟩ 1)

/-- Three `[Fi, Fo]` matrices laid side by side along the columns, read at column `j = o` of the first. -/
theorem cat3_apply_0 (f : Fin Fi) (j : Fin N) (o : Fin Fo) (hj : o.val = j.val) :
    concatenate ⟨2, ![Fi, N]⟩ 1 [⟨⟨2, ![Fi, Fo]⟩, A⟩, ⟨⟨2, ![Fi, Fo]⟩, B⟩, ⟨⟨2, ![Fi, Fo]⟩, C⟩] h (ix2 f j) = A (ix2 f o) :=
  concatenate_apply_piece (1 : Fin 2) _ h (ix2 f j) 0 (by show (0 : ℕ) < 3; omega) ⟨2, ![Fi, Fo]⟩ A rfl rfl 0 rfl (ix2 f o)
    (fun b hb => match b, hb with | ⟨0, _⟩, _ => rfl | ⟨1, _⟩, hb => absurd rfl hb)
    (by show 0 + o.val = j.val; omega)

/-- … at column `j = Fo + o`: the second. -/
theorem cat3_apply_1 (f : Fin Fi) (j : Fin N) (o : Fin Fo) (hj : Fo + o.val = j.val) :
    concatenate ⟨2, ![Fi, N]⟩ 1 [⟨⟨2, ![Fi, Fo]⟩, A⟩, ⟨⟨2, ![Fi, Fo]⟩, B⟩, ⟨⟨2, ![Fi, Fo]⟩, C⟩] h (ix2 f j) = B (ix2 f o) :=
  concatenate_apply_piece (1 : Fin 2) _ h (ix2 f j) 1 (by show (1 : ℕ) < 3; omega) ⟨2, ![Fi, Fo]⟩ B rfl rfl Fo (by simp) (ix2 f o)
    (fun b hb => match b, hb with | ⟨0, _⟩, _ => rfl | ⟨1, _⟩, hb => absurd rfl hb)
    (by show Fo + o.val = j.val; omega)

/-- … at column `j = 2 Fo + o`: the third. -/
theorem cat3_apply_2 (f : Fin Fi) (j : Fin N) (o : Fin Fo) (hj : 2 * Fo + o.val = j.val) :
    concatenate ⟨2, ![Fi, N]⟩ 1 [⟨⟨2, ![Fi, Fo]⟩, A⟩, ⟨⟨2, ![Fi, Fo]⟩, B⟩, ⟨⟨2, ![Fi, Fo]⟩, C⟩] h (ix2 f j) = C (ix2 f o) :=
  concatenate_apply_piece (1 : Fin 2) _ h (ix2 f j) 2 (by show (2 : ℕ) < 3; omega) ⟨2, ![Fi, Fo]⟩ C rfl rfl (2 * Fo) (by simp; omega) (ix2 f o)
    (fun b hb => match b, hb with | ⟨0, _⟩, _ => rfl | ⟨1, _⟩, hb => absurd rfl hb)
    (by show 2 * Fo + o.val = j.val; omega)

end Layout

/-! ## The side-by-side array as the host builds it -/

section HostStack
variable {Fi Fo N : ℕ}

/-- `[W 0 − W 2 | W 1 | W 2]` as the host's operations spell it: each matrix a `[1, Fi, Fo]` slab of the triple
    flattened to `[Fi, Fo]`, the first less the third, the three laid side by side along the columns. -/
def hostStack (W : FVec Ideal ⟨3, ![3, Fi, Fo]⟩ .f32)
    (hs0 : (⟨3, ![3, Fi, Fo]⟩ : Shape).Slices ![0, 0, 0] ⟨3, ![1, Fi, Fo]⟩)
    (hs1 : (⟨3, ![3, Fi, Fo]⟩ : Shape).Slices ![1, 0, 0] ⟨3, ![1, Fi, Fo]⟩)
    (hs2 : (⟨3, ![3, Fi, Fo]⟩ : Shape).Slices ![2, 0, 0] ⟨3, ![1, Fi, Fo]⟩)
    (hc : (⟨3, ![1, Fi, Fo]⟩ : Shape).ShapeCasts ⟨2, ![Fi, Fo]⟩)
    (hcat : Shape.Concatenates [(⟨2, ![Fi, Fo]⟩ : Shape), ⟨2, ![Fi, Fo]⟩, ⟨2, ![Fi, Fo]⟩] ⟨2, ![Fi, N]⟩ 1) :
    FVec Ideal ⟨2, ![Fi, N]⟩ .f32 :=
  concatenate ⟨2, ![Fi, N]⟩ 1
    [⟨⟨2, ![Fi, Fo]⟩, (subf (shapeCast ⟨2, ![Fi, Fo]⟩ (extractStridedSlice ⟨3, ![1, Fi, Fo]⟩ ![0, 0, 0] W hs0) hc : FVec Ideal ⟨2, ![Fi, Fo]⟩ .f32)
        (shapeCast ⟨2, ![Fi, Fo]⟩ (extractStridedSlice ⟨3, ![1, Fi, Fo]⟩ ![2, 0, 0] W hs2) hc) : FVec Ideal ⟨2, ![Fi, Fo]⟩ .f32)⟩,
      ⟨⟨2, ![Fi, Fo]⟩, (shapeCast ⟨2, ![Fi, Fo]⟩ (extractStridedSlice ⟨3, ![1, Fi, Fo]⟩ ![1, 0, 0] W hs1) hc : FVec Ideal ⟨2, ![Fi, Fo]⟩ .f32)⟩,
      ⟨⟨2, ![Fi, Fo]⟩, (shapeCast ⟨2, ![Fi, Fo]⟩ (extractStridedSlice ⟨3, ![1, Fi, Fo]⟩ ![2, 0, 0] W hs2) hc : FVec Ideal ⟨2, ![Fi, Fo]⟩ .f32)⟩]
    hcat

variable (W : FVec Ideal ⟨3, ![3, Fi, Fo]⟩ .f32)
  (hs0 : (⟨3, ![3, Fi, Fo]⟩ : Shape).Slices ![0, 0, 0] ⟨3, ![1, Fi, Fo]⟩)
  (hs1 : (⟨3, ![3, Fi, Fo]⟩ : Shape).Slices ![1, 0, 0] ⟨3, ![1, Fi, Fo]⟩)
  (hs2 : (⟨3, ![3, Fi, Fo]⟩ : Shape).Slices ![2, 0, 0] ⟨3, ![1, Fi, Fo]⟩)
  (hc : (⟨3, ![1, Fi, Fo]⟩ : Shape).ShapeCasts ⟨2, ![Fi, Fo]⟩)
  (hcat : Shape.Concatenates [(⟨2, ![Fi, Fo]⟩ : Shape), ⟨2, ![Fi, Fo]⟩, ⟨2, ![Fi, Fo]⟩] ⟨2, ![Fi, N]⟩ 1)

/-- Column `o` of the first block: `W 0 − W 2`. -/
theorem hostStack_0 (f : Fin Fi) (j : Fin N) (o : Fin Fo) (hj : o.val = j.val) :
    hostStack W hs0 hs1 hs2 hc hcat (ix2 f j) = W (ix3 (0 : Fin 3) f o) - W (ix3 (2 : Fin 3) f o) :=
  (cat3_apply_0 _ _ _ hcat f j o hj).trans
    (congrArg₂ (fun a b : EReal => a - b) (sliceMat_apply W 0 (by omega) hs0 hc f o) (sliceMat_apply W 2 (by omega) hs2 hc f o))

/-- Column `Fo + o`: `W 1`. -/
theorem hostStack_1 (f : Fin Fi) (j : Fin N) (o : Fin Fo) (hj : Fo + o.val = j.val) :
    hostStack W hs0 hs1 hs2 hc hcat (ix2 f j) = W (ix3 (1 : Fin 3) f o) :=
  (cat3_apply_1 _ _ _ hcat f j o hj).trans (sliceMat_apply W 1 (by omega) hs1 hc f o)

/-- Column `2 Fo + o`: `W 2`. -/
theorem hostStack_2 (f : Fin Fi) (j : Fin N) (o : Fin Fo) (hj : 2 * Fo + o.val = j.val) :
    hostStack W hs0 hs1 hs2 hc hcat (ix2 f j) = W (ix3 (2 : Fin 3) f o) :=
  (cat3_apply_2 _ _ _ hcat f j o hj).trans (sliceMat_apply W 2 (by omega) hs2 hc f o)

end HostStack

/-! ## From the staged array's entries to the side-by-side real weights -/

section Reals
variable {Fi Fo N : ℕ}

/-- An array `[Fi, N]`, `N = 3 Fo`, whose columns `o`, `Fo + o`, `2 Fo + o` hold `W 0 − W 2`, `W 1`, `W 2` of a triple
    of real entries, read by column number as real numbers, is the side-by-side matrix of the triple: in the first block
    the difference of two real entries is the real difference; past column `3 Fo` both read `0`. -/
theorem stack_of_read (hN : N = 3 * Fo) (W : (⟨3, ![3, Fi, Fo]⟩ : Shape).Idx → EReal) (hW : Finite W)
    (x : (⟨2, ![Fi, N]⟩ : Shape).Idx → EReal)
    (h0 : ∀ (f : Fin Fi) (j : Fin N) (o : Fin Fo), o.val = j.val → x (ix2 f j) = W (ix3 (0 : Fin 3) f o) - W (ix3 (2 : Fin 3) f o))
    (h1 : ∀ (f : Fin Fi) (j : Fin N) (o : Fin Fo), Fo + o.val = j.val → x (ix2 f j) = W (ix3 (1 : Fin 3) f o))
    (h2 : ∀ (f : Fin Fi) (j : Fin N) (o : Fin Fo), 2 * Fo + o.val = j.val → x (ix2 f j) = W (ix3 (2 : Fin 3) f o)) :
    (fun (f : Fin Fi) (j : ℕ) => if h : j < N then EReal.toReal (x (ix2 f ⟨j, h⟩)) else 0) = Spec.stack (Wr W) := by
  funext f j
  unfold Spec.stack Wr
  by_cases hj : j < N
  · rw [dif_pos hj]
    by_cases c0 : j < Fo
    · rw [dif_pos c0, h0 f ⟨j, hj⟩ ⟨j, c0⟩ rfl]
      exact EReal.toReal_sub (hW _).1 (hW _).2 (hW _).1 (hW _).2
    · rw [dif_neg c0]
      by_cases c1 : j - Fo < Fo
      · rw [dif_pos c1, h1 f ⟨j, hj⟩ ⟨j - Fo, c1⟩ (by show Fo + (j - Fo) = j; omega)]
      · rw [dif_neg c1, dif_pos (show j - 2 * Fo < Fo by omega), h2 f ⟨j, hj⟩ ⟨j - 2 * Fo, by omega⟩ (by show 2 * Fo + (j - 2 * Fo) = j; omega)]
  · rw [dif_neg hj, dif_neg (by omega), dif_neg (by omega), dif_neg (by omega)]

/-- Such an array holds real numbers only: each entry is an entry of the triple or the difference of two. -/
theorem finite_of_read (hN : N = 3 * Fo) (W : (⟨3, ![3, Fi, Fo]⟩ : Shape).Idx → EReal) (hW : Finite W)
    (x : (⟨2, ![Fi, N]⟩ : Shape).Idx → EReal)
    (h0 : ∀ (f : Fin Fi) (j : Fin N) (o : Fin Fo), o.val = j.val → x (ix2 f j) = W (ix3 (0 : Fin 3) f o) - W (ix3 (2 : Fin 3) f o))
    (h1 : ∀ (f : Fin Fi) (j : Fin N) (o : Fin Fo), Fo + o.val = j.val → x (ix2 f j) = W (ix3 (1 : Fin 3) f o))
    (h2 : ∀ (f : Fin Fi) (j : Fin N) (o : Fin Fo), 2 * Fo + o.val = j.val → x (ix2 f j) = W (ix3 (2 : Fin 3) f o)) :
    Finite x := by
  intro i
  obtain ⟨f, j, rfl⟩ : ∃ (f : Fin Fi) (j : Fin N), i = ix2 f j := ⟨i 0, i 1, eq_ix2 i⟩
  have hj : j.val < N := j.isLt
  by_cases c0 : j.val < Fo
  · rw [h0 f j ⟨j.val, c0⟩ rfl, ← Cert.Result.coe_toReal hW (ix3 (0 : Fin 3) f _), ← Cert.Result.coe_toReal hW (ix3 (2 : Fin 3) f _),
      ← EReal.coe_sub]
    exact ⟨EReal.coe_ne_top _, EReal.coe_ne_bot _⟩
  · by_cases c1 : j.val - Fo < Fo
    · rw [h1 f j ⟨j.val - Fo, c1⟩ (by show Fo + (j.val - Fo) = j.val; omega)]
      exact hW _
    · rw [h2 f j ⟨j.val - 2 * Fo, by omega⟩ (by show 2 * Fo + (j.val - 2 * Fo) = j.val; omega)]
      exact hW _

end Reals

/-- What a three-operand operation leaves at its own result: its function of the three operands' contents, each at its
    own reference. -/
theorem nary3_result {x a b y : Ref sig .tc}
    (f : ((k : Fin 3) → ((![x, a, b] : Fin 3 → Ref sig .tc) k).ty.Contents (Elt Ideal)) → y.ty.Contents (Elt Ideal)) (hxs hy)
    (F : Valuation τ sig (Elt Ideal)) :
    (StableHlo.nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [StableHlo.nary_result]; congr 1; funext k; fin_cases k <;> rfl

open StableHlo in
/-- A buffer's contents after a line of host operations, from the last operation back: at its own result buffer an operation
    leaves its function of its operands' contents, at any other buffer what was there. -/
macro "host_results" : tactic =>
  `(tactic| (simp only [after_cons, after_nil]
             repeat (first
               | (rw [unary_result_ne]; rotate_left; decide)
               | (rw [reshape_result_ne]; rotate_left; decide)
               | (rw [binary_result_ne]; rotate_left; decide)
               | (rw [nary_result_ne]; rotate_left; decide)
               | (rw [nullary_result_ne]; rotate_left; decide)
               | rw [unary_result] | rw [reshape_result] | rw [binary_result] | rw [nary3_result])))

/-! ## What the host wrote -/

set_option maxHeartbeats 4000000 in
/-- The first layer's staged weights, as the region finds them: the host's side-by-side array of the weight argument, narrowed. -/
theorem v14_eq (c : Dev nD) :
    @Eq (FVec Ideal S384x768 .bf16) (V m c main_v14)
      (truncf .bf16 (hostStack (m ((c.tc : Thread nD τ).loc main_arg2) : FVec Ideal S3x384x256 .f32)
        slices_S3x384x256_S1x384x256_0_0_0 slices_S3x384x256_S1x384x256_1_0_0 slices_S3x384x256_S1x384x256_2_0_0
        shapeCasts_S1x384x256_S384x256 concatenates_S384x256_S384x256_S384x256_S384x768_d1 : FVec Ideal S384x768 .f32) bitsLt_bf16_f32) := by
  dsimp only [V]
  simp only [hostOps0, hostOps0_1, hostOps0_2, List.flatten_cons, List.flatten_nil, List.append_nil, List.cons_append, List.nil_append]
  host_results
  rfl

set_option maxHeartbeats 4000000 in
/-- The second layer's staged weights, as the region finds them: the host's side-by-side array of the weight argument, narrowed. -/
theorem v25_eq (c : Dev nD) :
    @Eq (FVec Ideal S256x768 .bf16) (V m c main_v25)
      (truncf .bf16 (hostStack (m ((c.tc : Thread nD τ).loc main_arg4) : FVec Ideal S3x256x256 .f32)
        slices_S3x256x256_S1x256x256_0_0_0 slices_S3x256x256_S1x256x256_1_0_0 slices_S3x256x256_S1x256x256_2_0_0
        shapeCasts_S1x256x256_S256x256 concatenates_S256x256_S256x256_S256x256_S256x768_d1 : FVec Ideal S256x768 .f32) bitsLt_bf16_f32) := by
  dsimp only [V]
  simp only [hostOps0, hostOps0_1, hostOps0_2, List.flatten_cons, List.flatten_nil, List.append_nil, List.cons_append, List.nil_append]
  host_results
  rfl

set_option maxHeartbeats 4000000 in
/-- The third layer's staged weights, as the region finds them: the host's side-by-side array of the weight argument, narrowed. -/
theorem v36_eq (c : Dev nD) :
    @Eq (FVec Ideal S256x384 .bf16) (V m c main_v36)
      (truncf .bf16 (hostStack (m ((c.tc : Thread nD τ).loc main_arg6) : FVec Ideal S3x256x128 .f32)
        slices_S3x256x128_S1x256x128_0_0_0 slices_S3x256x128_S1x256x128_1_0_0 slices_S3x256x128_S1x256x128_2_0_0
        shapeCasts_S1x256x128_S256x128 concatenates_S256x128_S256x128_S256x128_S256x384_d1 : FVec Ideal S256x384 .f32) bitsLt_bf16_f32) := by
  dsimp only [V]
  simp only [hostOps0, hostOps0_1, hostOps0_2, List.flatten_cons, List.flatten_nil, List.append_nil, List.cons_append, List.nil_append]
  host_results
  rfl

/-! ## A step's blocks are the whole arrays -/

/-- The weights' and biases' block index never moves: zero on every axis at both grid steps. -/
theorem idxW_facts : ∀ t : Fin cfg0.N, win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0 :=
  (by decide +kernel : ∀ t : Fin grid0.N, _)

/-- A block's element sits at block index times block size plus its own coordinate; the index is zero and the block is the
    array, so entry `(f, j)` of the step's first weight block is entry `(f, j)` of the staged array. -/
theorem x2_read (c : Dev nD) (t : Fin cfg0.N) (ds0 ds1 : Vec Ideal S2688x256 .bf16) (f : Fin 384) (j : Fin 768) :
    (argsAt m c t ds0 ds1).x2 (ix2 f j) = (V m c main_v14 : FVec Ideal S384x768 .bf16) (ix2 f j) := by
  obtain ⟨e0, e1, -⟩ := idxW_facts t
  show (V m c main_v14 : FVec Ideal S384x768 .bf16) (((cfg0.win 2).blk t).view.emb (ix2 f j)) = _
  refine congrArg _ (funext fun a => Fin.ext ?_)
  match a with
  | ⟨0, _⟩ => show win0_2.index t (0 : Fin 2) * 384 + 1 * f.val = f.val; omega
  | ⟨1, _⟩ => show win0_2.index t (1 : Fin 2) * 768 + 1 * j.val = j.val; omega

theorem x4_read (c : Dev nD) (t : Fin cfg0.N) (ds0 ds1 : Vec Ideal S2688x256 .bf16) (f : Fin 256) (j : Fin 768) :
    (argsAt m c t ds0 ds1).x4 (ix2 f j) = (V m c main_v25 : FVec Ideal S256x768 .bf16) (ix2 f j) := by
  obtain ⟨-, -, -, e0, e1, -⟩ := idxW_facts t
  show (V m c main_v25 : FVec Ideal S256x768 .bf16) (((cfg0.win 4).blk t).view.emb (ix2 f j)) = _
  refine congrArg _ (funext fun a => Fin.ext ?_)
  match a with
  | ⟨0, _⟩ => show win0_4.index t (0 : Fin 2) * 256 + 1 * f.val = f.val; omega
  | ⟨1, _⟩ => show win0_4.index t (1 : Fin 2) * 768 + 1 * j.val = j.val; omega

theorem x6_read (c : Dev nD) (t : Fin cfg0.N) (ds0 ds1 : Vec Ideal S2688x256 .bf16) (f : Fin 256) (j : Fin 384) :
    (argsAt m c t ds0 ds1).x6 (ix2 f j) = (V m c main_v36 : FVec Ideal S256x384 .bf16) (ix2 f j) := by
  obtain ⟨-, -, -, -, -, -, e0, e1, -⟩ := idxW_facts t
  show (V m c main_v36 : FVec Ideal S256x384 .bf16) (((cfg0.win 6).blk t).view.emb (ix2 f j)) = _
  refine congrArg _ (funext fun a => Fin.ext ?_)
  match a with
  | ⟨0, _⟩ => show win0_6.index t (0 : Fin 2) * 256 + 1 * f.val = f.val; omega
  | ⟨1, _⟩ => show win0_6.index t (1 : Fin 2) * 384 + 1 * j.val = j.val; omega

/-- The biases are staged as they are: entry `o` of a step's bias block is entry `o` of the bias argument, which no host
    operation writes. -/
theorem x3_read (c : Dev nD) (t : Fin cfg0.N) (ds0 ds1 : Vec Ideal S2688x256 .bf16) (o : Fin 256) :
    (argsAt m c t ds0 ds1).x3 (ix1 o) = m ((c.tc : Thread nD τ).loc main_arg3) (ix1 o) := by
  obtain ⟨-, -, e0, -⟩ := idxW_facts t
  rw [← V_main_arg3 m c]
  show (V m c main_arg3 : FVec Ideal S256 .f32) (((cfg0.win 3).blk t).view.emb (ix1 o)) = _
  refine congrArg _ (funext fun a => Fin.ext ?_)
  match a with
  | ⟨0, _⟩ => show win0_3.index t (0 : Fin 1) * 256 + 1 * o.val = o.val; omega

theorem x5_read (c : Dev nD) (t : Fin cfg0.N) (ds0 ds1 : Vec Ideal S2688x256 .bf16) (o : Fin 256) :
    (argsAt m c t ds0 ds1).x5 (ix1 o) = m ((c.tc : Thread nD τ).loc main_arg5) (ix1 o) := by
  obtain ⟨-, -, -, -, -, e0, -⟩ := idxW_facts t
  rw [← V_main_arg5 m c]
  show (V m c main_arg5 : FVec Ideal S256 .f32) (((cfg0.win 5).blk t).view.emb (ix1 o)) = _
  refine congrArg _ (funext fun a => Fin.ext ?_)
  match a with
  | ⟨0, _⟩ => show win0_5.index t (0 : Fin 1) * 256 + 1 * o.val = o.val; omega

theorem x7_read (c : Dev nD) (t : Fin cfg0.N) (ds0 ds1 : Vec Ideal S2688x256 .bf16) (o : Fin 128) :
    (argsAt m c t ds0 ds1).x7 (ix1 o) = m ((c.tc : Thread nD τ).loc main_arg7) (ix1 o) := by
  obtain ⟨-, -, -, -, -, -, -, -, e0⟩ := idxW_facts t
  rw [← V_main_arg7 m c]
  show (V m c main_arg7 : FVec Ideal S128 .f32) (((cfg0.win 7).blk t).view.emb (ix1 o)) = _
  refine congrArg _ (funext fun a => Fin.ext ?_)
  match a with
  | ⟨0, _⟩ => show win0_7.index t (0 : Fin 1) * 128 + 1 * o.val = o.val; omega

/-! ## The statements -/

/-- The first layer's side-by-side weights. -/
theorem Ws1_eq (c : Dev nD) (t : Fin cfg0.N) (ds0 ds1 : Vec Ideal S2688x256 .bf16) (h2 : Finite (m ((c.tc : Thread nD τ).loc main_arg2))) :
    (argsAt m c t ds0 ds1).Ws1 = Spec.stack (Wr (m ((c.tc : Thread nD τ).loc main_arg2))) :=
  stack_of_read (Fi := 384) (Fo := 256) (N := 768) (by norm_num) (m ((c.tc : Thread nD τ).loc main_arg2)) h2 (argsAt m c t ds0 ds1).x2
    (fun f j o hj => by rw [x2_read, v14_eq, truncf_apply]; exact hostStack_0 _ _ _ _ _ _ f j o hj)
    (fun f j o hj => by rw [x2_read, v14_eq, truncf_apply]; exact hostStack_1 _ _ _ _ _ _ f j o hj)
    (fun f j o hj => by rw [x2_read, v14_eq, truncf_apply]; exact hostStack_2 _ _ _ _ _ _ f j o hj)

/-- The second layer's. -/
theorem Ws2_eq (c : Dev nD) (t : Fin cfg0.N) (ds0 ds1 : Vec Ideal S2688x256 .bf16) (h4 : Finite (m ((c.tc : Thread nD τ).loc main_arg4))) :
    (argsAt m c t ds0 ds1).Ws2 = Spec.stack (Wr (m ((c.tc : Thread nD τ).loc main_arg4))) :=
  stack_of_read (Fi := 256) (Fo := 256) (N := 768) (by norm_num) (m ((c.tc : Thread nD τ).loc main_arg4)) h4 (argsAt m c t ds0 ds1).x4
    (fun f j o hj => by rw [x4_read, v25_eq, truncf_apply]; exact hostStack_0 _ _ _ _ _ _ f j o hj)
    (fun f j o hj => by rw [x4_read, v25_eq, truncf_apply]; exact hostStack_1 _ _ _ _ _ _ f j o hj)
    (fun f j o hj => by rw [x4_read, v25_eq, truncf_apply]; exact hostStack_2 _ _ _ _ _ _ f j o hj)

/-- The third layer's. -/
theorem Ws3_eq (c : Dev nD) (t : Fin cfg0.N) (ds0 ds1 : Vec Ideal S2688x256 .bf16) (h6 : Finite (m ((c.tc : Thread nD τ).loc main_arg6))) :
    (argsAt m c t ds0 ds1).Ws3 = Spec.stack (Wr (m ((c.tc : Thread nD τ).loc main_arg6))) :=
  stack_of_read (Fi := 256) (Fo := 128) (N := 384) (by norm_num) (m ((c.tc : Thread nD τ).loc main_arg6)) h6 (argsAt m c t ds0 ds1).x6
    (fun f j o hj => by rw [x6_read, v36_eq, truncf_apply]; exact hostStack_0 _ _ _ _ _ _ f j o hj)
    (fun f j o hj => by rw [x6_read, v36_eq, truncf_apply]; exact hostStack_1 _ _ _ _ _ _ f j o hj)
    (fun f j o hj => by rw [x6_read, v36_eq, truncf_apply]; exact hostStack_2 _ _ _ _ _ _ f j o hj)

/-- The biases. -/
theorem b1r_eq (c : Dev nD) (t : Fin cfg0.N) (ds0 ds1 : Vec Ideal S2688x256 .bf16) :
    (argsAt m c t ds0 ds1).b1r = br (m ((c.tc : Thread nD τ).loc main_arg3)) := by
  funext o
  show EReal.toReal ((argsAt m c t ds0 ds1).x3 (ix1 o)) = EReal.toReal (m ((c.tc : Thread nD τ).loc main_arg3) (ix1 o))
  rw [x3_read]

theorem b2r_eq (c : Dev nD) (t : Fin cfg0.N) (ds0 ds1 : Vec Ideal S2688x256 .bf16) :
    (argsAt m c t ds0 ds1).b2r = br (m ((c.tc : Thread nD τ).loc main_arg5)) := by
  funext o
  show EReal.toReal ((argsAt m c t ds0 ds1).x5 (ix1 o)) = EReal.toReal (m ((c.tc : Thread nD τ).loc main_arg5) (ix1 o))
  rw [x5_read]

theorem b3r_eq (c : Dev nD) (t : Fin cfg0.N) (ds0 ds1 : Vec Ideal S2688x256 .bf16) :
    (argsAt m c t ds0 ds1).b3r = br (m ((c.tc : Thread nD τ).loc main_arg7)) := by
  funext o
  show EReal.toReal ((argsAt m c t ds0 ds1).x7 (ix1 o)) = EReal.toReal (m ((c.tc : Thread nD τ).loc main_arg7) (ix1 o))
  rw [x7_read]

/-! Each staged entry is an argument's entry or the difference of two. -/

theorem x2_finite (c : Dev nD) (t : Fin cfg0.N) (ds0 ds1 : Vec Ideal S2688x256 .bf16) (h2 : Finite (m ((c.tc : Thread nD τ).loc main_arg2))) :
    Finite (argsAt m c t ds0 ds1).x2 :=
  finite_of_read (Fi := 384) (Fo := 256) (N := 768) (by norm_num) (m ((c.tc : Thread nD τ).loc main_arg2)) h2 (argsAt m c t ds0 ds1).x2
    (fun f j o hj => by rw [x2_read, v14_eq, truncf_apply]; exact hostStack_0 _ _ _ _ _ _ f j o hj)
    (fun f j o hj => by rw [x2_read, v14_eq, truncf_apply]; exact hostStack_1 _ _ _ _ _ _ f j o hj)
    (fun f j o hj => by rw [x2_read, v14_eq, truncf_apply]; exact hostStack_2 _ _ _ _ _ _ f j o hj)

theorem x4_finite (c : Dev nD) (t : Fin cfg0.N) (ds0 ds1 : Vec Ideal S2688x256 .bf16) (h4 : Finite (m ((c.tc : Thread nD τ).loc main_arg4))) :
    Finite (argsAt m c t ds0 ds1).x4 :=
  finite_of_read (Fi := 256) (Fo := 256) (N := 768) (by norm_num) (m ((c.tc : Thread nD τ).loc main_arg4)) h4 (argsAt m c t ds0 ds1).x4
    (fun f j o hj => by rw [x4_read, v25_eq, truncf_apply]; exact hostStack_0 _ _ _ _ _ _ f j o hj)
    (fun f j o hj => by rw [x4_read, v25_eq, truncf_apply]; exact hostStack_1 _ _ _ _ _ _ f j o hj)
    (fun f j o hj => by rw [x4_read, v25_eq, truncf_apply]; exact hostStack_2 _ _ _ _ _ _ f j o hj)

theorem x6_finite (c : Dev nD) (t : Fin cfg0.N) (ds0 ds1 : Vec Ideal S2688x256 .bf16) (h6 : Finite (m ((c.tc : Thread nD τ).loc main_arg6))) :
    Finite (argsAt m c t ds0 ds1).x6 :=
  finite_of_read (Fi := 256) (Fo := 128) (N := 384) (by norm_num) (m ((c.tc : Thread nD τ).loc main_arg6)) h6 (argsAt m c t ds0 ds1).x6
    (fun f j o hj => by rw [x6_read, v36_eq, truncf_apply]; exact hostStack_0 _ _ _ _ _ _ f j o hj)
    (fun f j o hj => by rw [x6_read, v36_eq, truncf_apply]; exact hostStack_1 _ _ _ _ _ _ f j o hj)
    (fun f j o hj => by rw [x6_read, v36_eq, truncf_apply]; exact hostStack_2 _ _ _ _ _ _ f j o hj)

theorem x3_finite (c : Dev nD) (t : Fin cfg0.N) (ds0 ds1 : Vec Ideal S2688x256 .bf16) (h3 : Finite (m ((c.tc : Thread nD τ).loc main_arg3))) :
    Finite (argsAt m c t ds0 ds1).x3 := by
  intro i
  obtain ⟨o, rfl⟩ : ∃ o : Fin 256, i = ix1 o := ⟨i 0, eq_ix1 i⟩
  rw [x3_read]
  exact h3 _

theorem x5_finite (c : Dev nD) (t : Fin cfg0.N) (ds0 ds1 : Vec Ideal S2688x256 .bf16) (h5 : Finite (m ((c.tc : Thread nD τ).loc main_arg5))) :
    Finite (argsAt m c t ds0 ds1).x5 := by
  intro i
  obtain ⟨o, rfl⟩ : ∃ o : Fin 256, i = ix1 o := ⟨i 0, eq_ix1 i⟩
  rw [x5_read]
  exact h5 _

theorem x7_finite (c : Dev nD) (t : Fin cfg0.N) (ds0 ds1 : Vec Ideal S2688x256 .bf16) (h7 : Finite (m ((c.tc : Thread nD τ).loc main_arg7))) :
    Finite (argsAt m c t ds0 ds1).x7 := by
  intro i
  obtain ⟨o, rfl⟩ : ∃ o : Fin 128, i = ix1 o := ⟨i 0, eq_ix1 i⟩
  rw [x7_read]
  exact h7 _

/-- The staged weights and biases hold real numbers only. -/
theorem w_finite (c : Dev nD) (t : Fin cfg0.N) (ds0 ds1 : Vec Ideal S2688x256 .bf16)
    (h2 : Finite (m ((c.tc : Thread nD τ).loc main_arg2))) (h3 : Finite (m ((c.tc : Thread nD τ).loc main_arg3))) (h4 : Finite (m ((c.tc : Thread nD τ).loc main_arg4))) (h5 : Finite (m ((c.tc : Thread nD τ).loc main_arg5)))
    (h6 : Finite (m ((c.tc : Thread nD τ).loc main_arg6))) (h7 : Finite (m ((c.tc : Thread nD τ).loc main_arg7))) :
    Finite (argsAt m c t ds0 ds1).x2 ∧ Finite (argsAt m c t ds0 ds1).x3 ∧ Finite (argsAt m c t ds0 ds1).x4
      ∧ Finite (argsAt m c t ds0 ds1).x5 ∧ Finite (argsAt m c t ds0 ds1).x6 ∧ Finite (argsAt m c t ds0 ds1).x7 :=
  ⟨x2_finite m c t ds0 ds1 h2, x3_finite m c t ds0 ds1 h3, x4_finite m c t ds0 ds1 h4,
    x5_finite m c t ds0 ds1 h5, x6_finite m c t ds0 ds1 h6, x7_finite m c t ds0 ds1 h7⟩

end Cert.KernelIdeal.Body

end
-- ==== Proof.SpecLaws.lean ====
/-
  The two arrangements of a layer are one function, and so are the two nets.
-/
import proofs.«129663_g81071802679316_cont_sun_m_195_35_alg».proof.Proof.Spec

noncomputable section

namespace Cert.Spec

open BigOperators

variable {S Fi Fo F0 F1 F2 F3 : ℕ}

/-- Column `o` of the side-by-side weights lies in the first block, which holds `W 0 − W 2`. -/
private theorem stack_block0 (W : Fin 3 → Fin Fi → Fin Fo → ℝ) (f : Fin Fi) (o : Fin Fo) :
    stack W f o.val = W 0 f o - W 2 f o := by
  unfold stack
  rw [dif_pos o.isLt]

/-- Column `Fo + o` lies in the second block, which holds `W 1`. -/
private theorem stack_block1 (W : Fin 3 → Fin Fi → Fin Fo → ℝ) (f : Fin Fi) (o : Fin Fo) :
    stack W f (Fo + o.val) = W 1 f o := by
  unfold stack
  have h0 : ¬ (Fo + o.val < Fo) := by omega
  have h1 : Fo + o.val - Fo < Fo := by have := o.isLt; omega
  rw [dif_neg h0, dif_pos h1]
  congr 1
  exact Fin.ext (by simp)

/-- Column `2 * Fo + o` lies in the third block, which holds `W 2`. -/
private theorem stack_block2 (W : Fin 3 → Fin Fi → Fin Fo → ℝ) (f : Fin Fi) (o : Fin Fo) :
    stack W f (2 * Fo + o.val) = W 2 f o := by
  unfold stack
  have ho := o.isLt
  have h0 : ¬ (2 * Fo + o.val < Fo) := by omega
  have h1 : ¬ (2 * Fo + o.val - Fo < Fo) := by omega
  have h2 : 2 * Fo + o.val - 2 * Fo < Fo := by omega
  rw [dif_neg h0, dif_neg h1, dif_pos h2]
  congr 1
  exact Fin.ext (by simp)

/-- Matrix products associate: `a · (y · w) = (a · y) · w`, written entry by entry as an exchange of
    two finite sums. -/
private theorem row_mul_assoc (a : Fin S → ℝ) (y : Fin S → Fin Fi → ℝ) (w : Fin Fi → ℝ) :
    ∑ m, a m * (∑ f, y m f * w f) = ∑ f, (∑ m, a m * y m f) * w f := by
  simp only [Finset.mul_sum, Finset.sum_mul]
  rw [Finset.sum_comm]
  refine Finset.sum_congr rfl (fun f _ => Finset.sum_congr rfl (fun m _ => ?_))
  ring

/-- Projection first over `[W 0 − W 2 | W 1 | W 2]` is the basis-first layer. -/
theorem layer_eq (L : Fin S → Fin S → ℝ) (x : Fin S → Fin Fi → ℝ) (W : Fin 3 → Fin Fi → Fin Fo → ℝ) (b : Fin Fo → ℝ) :
    layerKer L x (stack W) b = layerRef L x W b := by
  funext s o
  unfold layerKer layerRef
  -- read the three blocks of the side-by-side weights
  simp only [stack_block0, stack_block1, stack_block2]
  -- `L · (x · W 2) = (L · x) · W 2`, row by row
  have hin : ∀ m, ∑ m', L m m' * (∑ f, x m' f * W 2 f o) = ∑ f, (∑ m', L m m' * x m' f) * W 2 f o :=
    fun m => row_mul_assoc (L m) x (fun f => W 2 f o)
  simp only [hin]
  -- `L · (p₁ + 2 q) = L · p₁ + 2 (L · q)`
  have hsplit : ∑ m, L s m * ((∑ f, x m f * W 1 f o) + 2 * ∑ f, (∑ m', L m m' * x m' f) * W 2 f o)
      = (∑ m, L s m * (∑ f, x m f * W 1 f o))
        + 2 * ∑ m, L s m * (∑ f, (∑ m', L m m' * x m' f) * W 2 f o) := by
    rw [Finset.mul_sum, ← Finset.sum_add_distrib]
    refine Finset.sum_congr rfl (fun m _ => ?_)
    ring
  -- `L · (x · W 1) = (L · x) · W 1` and `L · ((L · x) · W 2) = (L · (L · x)) · W 2`
  have h1 : ∑ m, L s m * (∑ f, x m f * W 1 f o) = ∑ f, (∑ m, L s m * x m f) * W 1 f o :=
    row_mul_assoc (L s) x (fun f => W 1 f o)
  have h2 : ∑ m, L s m * (∑ f, (∑ m', L m m' * x m' f) * W 2 f o)
      = ∑ f, (∑ m, L s m * (∑ m', L m m' * x m' f)) * W 2 f o :=
    row_mul_assoc (L s) (fun m f => ∑ m', L m m' * x m' f) (fun f => W 2 f o)
  -- the products distribute over the differences `W 0 − W 2` and `2 L (L x) − x`
  have e0 : ∑ f, x s f * (W 0 f o - W 2 f o) = (∑ f, x s f * W 0 f o) - ∑ f, x s f * W 2 f o := by
    simp only [mul_sub, Finset.sum_sub_distrib]
  have e2 : ∑ f, (2 * (∑ m, L s m * (∑ m', L m m' * x m' f)) - x s f) * W 2 f o
      = 2 * (∑ f, (∑ m, L s m * (∑ m', L m m' * x m' f)) * W 2 f o) - ∑ f, x s f * W 2 f o := by
    rw [Finset.mul_sum, ← Finset.sum_sub_distrib]
    refine Finset.sum_congr rfl (fun f _ => ?_)
    ring
  rw [hsplit, h1, h2, e0, e2]
  ring

/-- The two nets are one function. -/
theorem net_eq (A : Fin S → Fin S → ℝ) (X : Fin S → Fin F0 → ℝ)
    (W1 : Fin 3 → Fin F0 → Fin F1 → ℝ) (b1 : Fin F1 → ℝ) (W2 : Fin 3 → Fin F1 → Fin F2 → ℝ) (b2 : Fin F2 → ℝ)
    (W3 : Fin 3 → Fin F2 → Fin F3 → ℝ) (b3 : Fin F3 → ℝ) :
    netKer A X (stack W1) b1 (stack W2) b2 (stack W3) b3 = netRef A X W1 b1 W2 b2 W3 b3 := by
  unfold netKer netRef
  rw [layer_eq, layer_eq, layer_eq]

end Cert.Spec

end
-- ==== Proof.KernelIdealValue.lean ====
/-
  The idealized kernel's output array after the run is `G` of the argument arrays.

  With every argument entry a real number, one grid step's output buffer ends holding, at `(g, s, o)`, the
  net of graph `8 t + g` at node `s`, output feature `o` (the body's value, layer by layer, then the two
  arrangements of a layer being one function). That is block `t` of `G` read through the output window's
  rectangle, so the proof data can NAME what each step writes back; the two steps' blocks tile the output
  array (graphs `0 … 7` and `8 … 15`), and the array ends holding `G` whole.
-/
import proofs.«129663_g81071802679316_cont_sun_m_195_35_alg».proof.Proof.KernelLayer3
import proofs.«129663_g81071802679316_cont_sun_m_195_35_alg».proof.Proof.KernelBlocksX
import proofs.«129663_g81071802679316_cont_sun_m_195_35_alg».proof.Proof.KernelBlocksW
import proofs.«129663_g81071802679316_cont_sun_m_195_35_alg».proof.Proof.SpecLaws

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Result (Finite)

local notation "𝕄" => MT nD τ sig Unit (Elt Ideal) ℕ (UR sig nD τ) ℕ

variable (m : (ℓ : Loc nD τ sig) → Buf (Elt Ideal) ℓ) (ρ : Dev nD → PrngReg)

/-- Every argument array, on every core, holds real numbers only. -/
structure FinArgs : Prop where
  h0 : ∀ c : Dev nD, Finite (m ((c.tc : Thread nD τ).loc main_arg0))
  h1 : ∀ c : Dev nD, Finite (m ((c.tc : Thread nD τ).loc main_arg1))
  h2 : ∀ c : Dev nD, Finite (m ((c.tc : Thread nD τ).loc main_arg2))
  h3 : ∀ c : Dev nD, Finite (m ((c.tc : Thread nD τ).loc main_arg3))
  h4 : ∀ c : Dev nD, Finite (m ((c.tc : Thread nD τ).loc main_arg4))
  h5 : ∀ c : Dev nD, Finite (m ((c.tc : Thread nD τ).loc main_arg5))
  h6 : ∀ c : Dev nD, Finite (m ((c.tc : Thread nD τ).loc main_arg6))
  h7 : ∀ c : Dev nD, Finite (m ((c.tc : Thread nD τ).loc main_arg7))

/-- The result array of this memory's arguments, on core `c`. -/
def Gm (c : Dev nD) : S16x325x128.Idx → EReal :=
  Result.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))

/-- Step `t`'s block of the result: `Gm` read through the output window's rectangle at `t`. -/
def Gblk (c : Dev nD) (t : Fin cfg0.N) : ((cfg0.win 8).xblock (cfg0.grid.coords t)).Idx → Elt Ideal (cfg0.win 8).elt :=
  ((cfg0.win 8).blk t).view.read (Elt Ideal) (Gm m c)

/-- The output window's block index at step `t` is `(t, 0, 0)`. -/
theorem idx8 : ∀ t : Fin cfg0.N, win0_8.index t (0 : Fin 3) = t.val ∧ win0_8.index t (1 : Fin 3) = 0 ∧ win0_8.index t (2 : Fin 3) = 0 :=
  (by decide +kernel : ∀ t : Fin grid0.N, win0_8.index t (0 : Fin 3) = t.val ∧ win0_8.index t (1 : Fin 3) = 0 ∧ win0_8.index t (2 : Fin 3) = 0)

/-- The step's input buffers hold real numbers only. -/
theorem finiteIn (hfin : FinArgs m) (c : Dev nD) (t : Fin cfg0.N) (ds0 ds1 : Vec Ideal S2688x256 .bf16) :
    (argsAt m c t ds0 ds1).FiniteIn := by
  obtain ⟨w2, w3, w4, w5, w6, w7⟩ := w_finite m c t ds0 ds1 (hfin.h2 c) (hfin.h3 c) (hfin.h4 c) (hfin.h5 c) (hfin.h6 c) (hfin.h7 c)
  exact ⟨x0_finite m c t ds0 ds1 (hfin.h0 c), x1_finite m c t ds0 ds1 (hfin.h1 c), w2, w3, w4, w5, w6, w7⟩

/-- Graph `g` of step `t`: the body's output is the basis-first net of graph `8 t + g`. -/
theorem outr_eq (hfin : FinArgs m) (c : Dev nD) (t : Fin cfg0.N) (ds0 ds1 : Vec Ideal S2688x256 .bf16) (g : Fin 8) :
    (argsAt m c t ds0 ds1).outr g
      = Spec.netRef (Result.Ar (m ((c.tc : Thread nD τ).loc main_arg1)) (gidx t g)) (Result.Xr (m ((c.tc : Thread nD τ).loc main_arg0)) (gidx t g))
          (Result.Wr (m ((c.tc : Thread nD τ).loc main_arg2))) (Result.br (m ((c.tc : Thread nD τ).loc main_arg3))) (Result.Wr (m ((c.tc : Thread nD τ).loc main_arg4))) (Result.br (m ((c.tc : Thread nD τ).loc main_arg5)))
          (Result.Wr (m ((c.tc : Thread nD τ).loc main_arg6))) (Result.br (m ((c.tc : Thread nD τ).loc main_arg7))) := by
  rw [Args.outr_eq_netKer, Ag_eq, Xg_eq, Ws1_eq m c t ds0 ds1 (hfin.h2 c), Ws2_eq m c t ds0 ds1 (hfin.h4 c),
    Ws3_eq m c t ds0 ds1 (hfin.h6 c), b1r_eq, b2r_eq, b3r_eq, Spec.net_eq]

/-- What the run's output pieces leave: step `t`'s block of the result. -/
theorem canon_eq (hfin : FinArgs m) (c : Dev nD) (t : Fin cfg0.N) (ds0 ds1 : Vec Ideal S2688x256 .bf16) :
    View.canon ((argsAt m c t ds0 ds1).run (grid0.coords t)).1 = Gblk m c t := by
  funext y
  obtain ⟨g, s, o, rfl⟩ : ∃ (g : Fin 8) (s : Fin 325) (o : Fin 128), y = ix3 g s o := ⟨y 0, y 1, y 2, eq_ix3 y⟩
  rw [out_value _ (finiteIn m hfin c t ds0 ds1), outr_eq m hfin]
  obtain ⟨e0, e1, e2⟩ := idx8 t
  have hemb : ((cfg0.win 8).blk t).view.emb (ix3 g s o) = ix3 (gidx t g) s o := by
    funext a; apply Fin.ext
    match a with
    | ⟨0, _⟩ => show win0_8.index t (0 : Fin 3) * 8 + 1 * g.val = 8 * t.val + g.val; omega
    | ⟨1, _⟩ => show win0_8.index t (1 : Fin 3) * 325 + 1 * s.val = s.val; omega
    | ⟨2, _⟩ => show win0_8.index t (2 : Fin 3) * 128 + 1 * o.val = o.val; omega
  show _ = Gm m c (((cfg0.win 8).blk t).view.emb (ix3 g s o))
  rw [hemb]
  rfl

/-- The run's eight output stores tile the output buffer. -/
theorem cover8 (c : Dev nD) (t : Fin cfg0.N) (ds0 ds1 : Vec Ideal S2688x256 .bf16) (y : S8x325x128.Idx) :
    ∃ pc ∈ ((argsAt m c t ds0 ds1).run (grid0.coords t)).1, y ∈ pc.1.set := by
  rw [out_pieces]
  exact View.cover_of_tiledL (s := S8x325x128) _ (![1, 325, 128] : Fin 3 → ℕ) (by sl_kernel_rfl) y

/-! ## Proof data that names the output -/

def datsV (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => Gblk m c t
  Φ _ := Pipeline.ΦA spec0 c
  q _ := fullShare
  owed _ := 0

theorem AV_eq (c : Dev nD) (w : Fin cfg0.W) : (datsV m 0 c).A w = V m c (Pipeline.arrRef spec0 w) := by
  dsimp only [datsV]

theorem afterV_0 (c : Dev nD) (t : Fin cfg0.N) : (datsV m 0 c).after 0 t = iblk m c 0 t := by dsimp only [datsV]
theorem afterV_1 (c : Dev nD) (t : Fin cfg0.N) : (datsV m 0 c).after 1 t = iblk m c 1 t := by dsimp only [datsV]
theorem afterV_2 (c : Dev nD) (t : Fin cfg0.N) : (datsV m 0 c).after 2 t = iblk m c 2 t := by dsimp only [datsV]
theorem afterV_3 (c : Dev nD) (t : Fin cfg0.N) : (datsV m 0 c).after 3 t = iblk m c 3 t := by dsimp only [datsV]
theorem afterV_4 (c : Dev nD) (t : Fin cfg0.N) : (datsV m 0 c).after 4 t = iblk m c 4 t := by dsimp only [datsV]
theorem afterV_5 (c : Dev nD) (t : Fin cfg0.N) : (datsV m 0 c).after 5 t = iblk m c 5 t := by dsimp only [datsV]
theorem afterV_6 (c : Dev nD) (t : Fin cfg0.N) : (datsV m 0 c).after 6 t = iblk m c 6 t := by dsimp only [datsV]
theorem afterV_7 (c : Dev nD) (t : Fin cfg0.N) : (datsV m 0 c).after 7 t = iblk m c 7 t := by dsimp only [datsV]
theorem afterV_8 (c : Dev nD) (t : Fin cfg0.N) : (datsV m 0 c).after 8 t = Gblk m c t := by dsimp only [datsV]
theorem beforeV_0 (c : Dev nD) (t : Fin cfg0.N) (d) : (datsV m 0 c).before 0 t d = iblk m c 0 t :=
  before_0_of m (datsV m 0 c) (AV_eq m c 0) (afterV_0 m c) t d
theorem beforeV_1 (c : Dev nD) (t : Fin cfg0.N) (d) : (datsV m 0 c).before 1 t d = iblk m c 1 t :=
  before_1_of m (datsV m 0 c) (AV_eq m c 1) (afterV_1 m c) t d
theorem beforeV_2 (c : Dev nD) (t : Fin cfg0.N) (d) : (datsV m 0 c).before 2 t d = iblk m c 2 t :=
  before_2_of m (datsV m 0 c) (AV_eq m c 2) (afterV_2 m c) t d
theorem beforeV_3 (c : Dev nD) (t : Fin cfg0.N) (d) : (datsV m 0 c).before 3 t d = iblk m c 3 t :=
  before_3_of m (datsV m 0 c) (AV_eq m c 3) (afterV_3 m c) t d
theorem beforeV_4 (c : Dev nD) (t : Fin cfg0.N) (d) : (datsV m 0 c).before 4 t d = iblk m c 4 t :=
  before_4_of m (datsV m 0 c) (AV_eq m c 4) (afterV_4 m c) t d
theorem beforeV_5 (c : Dev nD) (t : Fin cfg0.N) (d) : (datsV m 0 c).before 5 t d = iblk m c 5 t :=
  before_5_of m (datsV m 0 c) (AV_eq m c 5) (afterV_5 m c) t d
theorem beforeV_6 (c : Dev nD) (t : Fin cfg0.N) (d) : (datsV m 0 c).before 6 t d = iblk m c 6 t :=
  before_6_of m (datsV m 0 c) (AV_eq m c 6) (afterV_6 m c) t d
theorem beforeV_7 (c : Dev nD) (t : Fin cfg0.N) (d) : (datsV m 0 c).before 7 t d = iblk m c 7 t :=
  before_7_of m (datsV m 0 c) (AV_eq m c 7) (afterV_7 m c) t d

def bodyPreV (c : Dev nD) (t : Fin cfg0.N) : sProp 𝕄 :=
  iprop((datsV m 0 c).Φ t.castSucc ∗ (datsV m 0 c).owesAt () t.castSucc
    ∗ (∃ d, owns (c : Thread nD τ) (st0_0 t) fullShare ((datsV m 0 c).before 0 t d))
    ∗ (∃ d, owns (c : Thread nD τ) (st0_1 t) fullShare ((datsV m 0 c).before 1 t d))
    ∗ (∃ d, owns (c : Thread nD τ) (st0_2 t) fullShare ((datsV m 0 c).before 2 t d))
    ∗ (∃ d, owns (c : Thread nD τ) (st0_3 t) fullShare ((datsV m 0 c).before 3 t d))
    ∗ (∃ d, owns (c : Thread nD τ) (st0_4 t) fullShare ((datsV m 0 c).before 4 t d))
    ∗ (∃ d, owns (c : Thread nD τ) (st0_5 t) fullShare ((datsV m 0 c).before 5 t d))
    ∗ (∃ d, owns (c : Thread nD τ) (st0_6 t) fullShare ((datsV m 0 c).before 6 t d))
    ∗ (∃ d, owns (c : Thread nD τ) (st0_7 t) fullShare ((datsV m 0 c).before 7 t d))
    ∗ (∃ d, owns (c : Thread nD τ) (st0_8 t) fullShare ((datsV m 0 c).before 8 t d)))

def bodyPostV (c : Dev nD) (t : Fin cfg0.N) : sProp 𝕄 :=
  iprop((datsV m 0 c).Φ t.succ ∗ (datsV m 0 c).owesAt () t.succ
    ∗ owns (c : Thread nD τ) (st0_0 t) fullShare ((datsV m 0 c).after 0 t)
    ∗ owns (c : Thread nD τ) (st0_1 t) fullShare ((datsV m 0 c).after 1 t)
    ∗ owns (c : Thread nD τ) (st0_2 t) fullShare ((datsV m 0 c).after 2 t)
    ∗ owns (c : Thread nD τ) (st0_3 t) fullShare ((datsV m 0 c).after 3 t)
    ∗ owns (c : Thread nD τ) (st0_4 t) fullShare ((datsV m 0 c).after 4 t)
    ∗ owns (c : Thread nD τ) (st0_5 t) fullShare ((datsV m 0 c).after 5 t)
    ∗ owns (c : Thread nD τ) (st0_6 t) fullShare ((datsV m 0 c).after 6 t)
    ∗ owns (c : Thread nD τ) (st0_7 t) fullShare ((datsV m 0 c).after 7 t)
    ∗ owns (c : Thread nD τ) (st0_8 t) fullShare ((datsV m 0 c).after 8 t))

set_option maxHeartbeats 1600000 in
/-- At any step the body leaves the output buffer at the step's block of the result. -/
theorem sound_bodyV (hfin : FinArgs m) (c : Dev nD) (t : Fin cfg0.N) :
    bodyPreV m c t ⊢ wp Idealize.ShloMosaic.frame (wpE (defs₀ (F := Ideal)) Variants.none c none) Set.univ (bodyAt0 t) (fun _ => bodyPostV m c t) := by
  unfold bodyPreV bodyPostV bodyAt0
  simp only [beforeV_0, beforeV_1, beforeV_2, beforeV_3, beforeV_4, beforeV_5, beforeV_6, beforeV_7]
  rw [show (datsV m 0 c).Φ t.succ = (datsV m 0 c).Φ t.castSucc from rfl,
    show (datsV m 0 c).owesAt () t.succ = (datsV m 0 c).owesAt () t.castSucc from rfl,
    afterV_0, afterV_1, afterV_2, afterV_3, afterV_4, afterV_5, afterV_6, afterV_7, afterV_8]
  rw [show (datsV m 0 c).Φ t.castSucc = Pipeline.ΦA spec0 c from rfl, PhiA_eq]
  iintro ⟨⟨⟨⟨%ds0, HS0⟩, ⟨%ds1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (((argsAt m c t ds0 ds1).run (grid0.coords t)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  isplitl [HS1]; · iexact HS1
  iintro ⟨H0, H1, H2, H3, H4, H5, H6, H7, ⟨%e8, H8⟩, ⟨%es0, HS0⟩, ⟨%es1, HS1⟩⟩
  isplitl [HS0 HS1 Hg]
  · isplitl [HS0 HS1]
    · isplitl [HS0]
      · unfold owns; iexists _; iexists _; isplitr
        swap; · iexact HS0
        ipureintro; rfl
      · unfold owns; iexists _; iexists _; isplitr
        swap; · iexact HS1
        ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  unfold owns; iexists _; isplitr
  swap; · iexact H8
  ipureintro
  exact (View.read_writes_eq_canon _ _ _ (cover8 m c t ds0 ds1)).trans (canon_eq m hfin c t ds0 ds1)

theorem body_obligationV (hfin : FinArgs m) (c : Dev nD) :
    BodyObligation (datsV m 0 c) (defs₀ (F := Ideal)) Variants.none () Set.univ := fun t => by
  rw [bigSep_W0, bigSep_W0]
  exact sound_bodyV m hfin c t

set_option backward.isDefEq.respectTransparency.types false in
/-- The run with the output array named. -/
theorem run_mainV (hfin : FinArgs m) :
    θ_run defs (onTc (τ := τ) (main (F := Ideal))) (s₀ m ρ) (Pipeline.FramePost cfgs (datsV m) 0 (V m)) :=
  Pipeline.θ_run_frame cfgs (datsV m) (0 : Fin 1) launch0 defs₀ Variants.none m ρ main
    (hbody := fun c => (body_obligationV m hfin c).loose) (hshare := fun c => (datsV m 0 c).share_full fun _ => rfl)
    (howed := fun _ _ => rfl) (V := V m) (hmain := hmain m Variants.none) (hA := AV_eq m) (hΦ := fun _ _ => rfl)

/-! ## The output array whole -/

/-- An index of the output array is in step `t`'s block iff its graph number is among `8 t … 8 t + 7`. -/
theorem mem_blk8 (t : Fin cfg0.N) (i : S16x325x128.Idx) :
    i ∈ ((cfg0.win 8).blk t).view.set ↔ ∀ a : Fin 3, win0_8.index t a * S8x325x128.size a ≤ (i a).val ∧ (i a).val < win0_8.index t a * S8x325x128.size a + S8x325x128.size a := by
  show i ∈ ((View.whole main_v38).slice (win0_8.rect t)).set ↔ _
  rw [View.set_slice_whole, Rect.mem_set_unit]
  exact Iff.rfl

/-- After the run the output array holds the result whole. -/
theorem final8 (c : Dev nD) : (datsV m 0 c).arrAt 8 cfg0.N = Gm m c := by
  refine (datsV m 0 c).arrAt_eq_of_cover 8 (Gm m c) (fun t _ => ?_) (fun i => ?_)
  · show (cfg0.win 8).cut (grid0.coords t) ((datsV m 0 c).after 8 t) = _
    rw [afterV_8]
    rfl
  · have hi0 : (i 0).val < 16 := (i 0).isLt
    have hi1 : (i 1).val < 325 := (i 1).isLt
    have hi2 : (i 2).val < 128 := (i 2).isLt
    refine ⟨⟨(i 0).val / 8, by have hN : cfg0.N = 2 := N_0; omega⟩, flush0_8 _, ?_⟩
    rw [mem_blk8]
    obtain ⟨e0, e1, e2⟩ := idx8 ⟨(i 0).val / 8, by have hN : cfg0.N = 2 := N_0; omega⟩
    intro a
    match a with
    | ⟨0, _⟩ => show win0_8.index _ (0 : Fin 3) * 8 ≤ (i 0).val ∧ (i 0).val < win0_8.index _ (0 : Fin 3) * 8 + 8; rw [e0]; show (i 0).val / 8 * 8 ≤ _ ∧ _ < (i 0).val / 8 * 8 + 8; omega
    | ⟨1, _⟩ => show win0_8.index _ (1 : Fin 3) * 325 ≤ (i 1).val ∧ (i 1).val < win0_8.index _ (1 : Fin 3) * 325 + 325; omega
    | ⟨2, _⟩ => show win0_8.index _ (2 : Fin 3) * 128 ≤ (i 2).val ∧ (i 2).val < win0_8.index _ (2 : Fin 3) * 128 + 128; omega

end Cert.KernelIdeal.Body

end
-- ==== Proof.RefLap.lean ====
/-
  The reference's scaled Laplacian and its flattened node features, read at an index.

  The reference sums each row of the adjacency array, takes `1 / sqrt` of the degree where it is positive
  (of `1` elsewhere, a value the outer selection then replaces by `0`), multiplies row and column weights into
  the array and negates. At real entries every step is the real operation, and `1 / sqrt d` is `(sqrt d)⁻¹`
  for `d > 0`. The node features are only reshaped: `[16, 325, 12, 32]` to `[16, 325, 384]`, row-major.
-/
import proofs.«129663_g81071802679316_cont_sun_m_195_35_alg».proof.Proof.RefReadPatched
import proofs.«129663_g81071802679316_cont_sun_m_195_35_alg».proof.Proof.Result
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.RefValue

open Cert.ReferenceIdeal Cert.ReferenceIdeal.ReadP
open Idealize.ShloMosaic Idealize.ShloMosaic.TcCoe Idealize.ShloMosaic.ValueIdx
open Cert.Result (Finite Ar Xr Wr br G)
open BigOperators

/-- The coercion of the reals into the extended reals passes through a finite sum. -/
theorem lap_coe_sum {ι : Type} (t : Finset ι) (g : ι → ℝ) :
    ((∑ k ∈ t, g k : ℝ) : EReal) = ∑ k ∈ t, ((g k : ℝ) : EReal) := by
  classical
  refine Finset.induction_on t (by simp) ?_
  intro a t ha ih
  rw [Finset.sum_insert ha, Finset.sum_insert ha, EReal.coe_add, ih]

/-- The bit pattern of the float one denotes the extended real one. -/
theorem lap_one_f32 : Ideal.ofBits .f32 0x3F800000#32 = 1 := by
  simp [Ideal.ofBits, Ideal.ieee]
  rw [← EReal.coe_mul, ← EReal.coe_one]
  norm_num

/-- A finite adjacency entry is the coercion of its real reading. -/
theorem lap_entry (x1 : S16x325x325.Idx → EReal) (h1 : Finite x1) (b : Fin 16) (s m : Fin 325) :
    x1 (ix3 b s m) = ((Ar x1 b s m : ℝ) : EReal) :=
  (Result.coe_toReal h1 _).symm

/-- The row sums: the reference's degree at node `(b, s)` is the real degree. -/
theorem deg_value (x1 : S16x325x325.Idx → EReal) (h1 : Finite x1) (b : Fin 16) (s : Fin 325) :
    val_main_v1 (F := Ideal) x1 (ix2 b s) = ((Spec.deg (Ar x1 b) s : ℝ) : EReal) := by
  have hidx : ∀ k : Fin 325, idx_main_v1 (ix2 b s) k = ix3 b s k := fun k =>
    funext fun a => Fin.ext (by match a with | ⟨0, _⟩ => rfl | ⟨1, _⟩ => rfl | ⟨2, _⟩ => rfl)
  rw [val_main_v1_apply, val_main_cst_apply]
  simp only [hidx, Ideal.ofBits_def, Ideal.ofBits_zero_f32, zero_add]
  unfold Spec.deg
  rw [lap_coe_sum]
  exact Finset.sum_congr rfl fun k _ => lap_entry x1 h1 b s k

/-- The reference's node weight: the reciprocal of the square root of the degree where the degree is positive
    (there the inner selection keeps the degree, the square root of a positive real is a nonzero real, and one
    divided by it is its inverse), and zero elsewhere (the outer selection discards whatever was computed). -/
theorem dinv_value (x1 : S16x325x325.Idx → EReal) (h1 : Finite x1) (b : Fin 16) (s : Fin 325) :
    val_main_v10 (F := Ideal) x1 (ix2 b s) = ((Spec.dinv (Ar x1 b) s : ℝ) : EReal) := by
  have hd := deg_value x1 h1 b s
  rw [val_main_v10_apply, val_main_v3_apply, val_main_v9_apply, val_main_v7_apply, val_main_v6_apply,
    val_main_v5_apply, val_main_v8_apply, val_main_cst_3_apply, val_main_v4_apply, val_main_cst_1_apply,
    val_main_call0_v1_apply, val_main_call0_v0_apply, val_main_cst_2_apply, val_main_v2_apply, val_main_cst_0_apply,
    val_main_call1_v1_apply, val_main_call1_v0_apply, val_main_cst_4_apply, hd]
  simp only [Ideal.ofBits_def, Ideal.ofBits_zero_f32, lap_one_f32, Ideal.cmpf_def, Ideal.cmp, Ideal.hostDivf_def,
    Ideal.hostUnary_sqrt_def]
  unfold Spec.dinv
  have sel1 : ∀ a c : EReal, Scalar.select (1 : BitVec 1) a c = a := fun a c => if_pos rfl
  have sel0 : ∀ a c : EReal, Scalar.select (0 : BitVec 1) a c = c := fun a c => if_neg (by decide)
  by_cases hpos : 0 < Spec.deg (Ar x1 b) s
  · have hE : (0 : EReal) < ((Spec.deg (Ar x1 b) s : ℝ) : EReal) := EReal.coe_pos.mpr hpos
    have hsq : Real.sqrt (Spec.deg (Ar x1 b) s) ≠ 0 := (Real.sqrt_pos.mpr hpos).ne'
    rw [if_pos hpos]
    simp only [hE, decide_true, BitVec.ofBool_true]
    rw [sel1, sel1, Ideal.sqrt_coe, if_neg (not_lt.mpr hpos.le), Ideal.div_coe hsq, one_mul, one_div]
  · have hE : ¬ (0 : EReal) < ((Spec.deg (Ar x1 b) s : ℝ) : EReal) := fun h => hpos (EReal.coe_pos.mp h)
    rw [if_neg hpos]
    simp only [hE, decide_false, BitVec.ofBool_false]
    rw [sel0, EReal.coe_zero]

/-- The reference's Laplacian at `(b, s, m)`. -/
theorem lap_value (x1 : S16x325x325.Idx → EReal) (h1 : Finite x1) (b : Fin 16) (s m : Fin 325) :
    val_main_v17 (F := Ideal) x1 (ix3 b s m) = ((Spec.lap (Ar x1 b) s m : ℝ) : EReal) := by
  have h12 : idx_main_v11 (idx_main_v12 (ix3 b s m)) = ix2 b s :=
    funext fun a => Fin.ext (by match a with | ⟨0, _⟩ => rfl | ⟨1, _⟩ => rfl)
  have h15 : idx_main_v14 (idx_main_v15 (ix3 b s m)) = ix2 b m :=
    funext fun a => Fin.ext (by match a with | ⟨0, _⟩ => rfl | ⟨1, _⟩ => rfl)
  rw [val_main_v17_apply, val_main_v16_apply, val_main_v13_apply, val_main_v12_apply, val_main_v11_apply,
    val_main_v15_apply, val_main_v14_apply, h12, h15, dinv_value x1 h1 b s, dinv_value x1 h1 b m, lap_entry x1 h1 b s m]
  simp only [Ideal.hostNegf_def, Ideal.negf_def, Ideal.mulf_def]
  unfold Spec.lap
  rw [EReal.coe_neg, EReal.coe_mul, EReal.coe_mul]

/-- The reshaped node features at `(b, s, f)`. -/
theorem x_value (x0 : S16x325x12x32.Idx → EReal) (h0 : Finite x0) (b : Fin 16) (s : Fin 325) (f : Fin 384) :
    val_main_v0 (F := Ideal) x0 (ix3 b s f) = ((Xr x0 b s f : ℝ) : EReal) := by
  have hidx : idx_main_v0 (ix3 b s f)
      = ix4 b s ⟨f.val / 32, by have := f.isLt; omega⟩ ⟨f.val % 32, Nat.mod_lt _ (by decide)⟩ := by
    have hb := b.isLt; have hs := s.isLt; have hf := f.isLt
    funext a
    refine Fin.ext ?_
    match a with
    | ⟨0, _⟩ => show ((b.val * 325 + s.val) * 384 + f.val) / 124800 = b.val; omega
    | ⟨1, _⟩ => show ((b.val * 325 + s.val) * 384 + f.val) / 384 % 325 = s.val; omega
    | ⟨2, _⟩ => show ((b.val * 325 + s.val) * 384 + f.val) / 32 % 12 = f.val / 32; omega
    | ⟨3, _⟩ => show ((b.val * 325 + s.val) * 384 + f.val) % 32 = f.val % 32; omega
  rw [val_main_v0_apply, hidx]
  exact (Result.coe_toReal h0 _).symm

end Cert.ReferenceIdeal.RefValue

end
-- ==== Proof.RefLayer1.lean ====
/-
  The reference's first layer, read at an index: `max(x·W 0 + (L x)·W 1 + (2 L (L x) − x)·W 2 + b, 0)`.

  Each product is a host contraction over one axis (a plain sum at this reading of floats), each weight block a
  slice and a reshape of the weight triple, the bias a broadcast; with real entries throughout, sums and
  products of reals are real and the coercion passes through them.
-/
import proofs.«129663_g81071802679316_cont_sun_m_195_35_alg».proof.Proof.RefLap
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.RefValue

open Cert.ReferenceIdeal Cert.ReferenceIdeal.ReadP
open Idealize.ShloMosaic Idealize.ShloMosaic.TcCoe Idealize.ShloMosaic.ValueIdx
open Cert.Result (Finite Ar Xr Wr br G)
open BigOperators

/-! ### Real arithmetic inside the extended reals -/

/-- The coercion of the reals into the extended reals passes through a finite sum: it passes through `0` and
    through `+`, and a finite sum is built from those. -/
theorem coe_sum {ι : Type} (t : Finset ι) (f : ι → ℝ) :
    ((∑ i ∈ t, f i : ℝ) : EReal) = ∑ i ∈ t, ((f i : ℝ) : EReal) := by
  classical
  induction t using Finset.induction_on with
  | empty => rw [Finset.sum_empty, Finset.sum_empty, EReal.coe_zero]
  | insert a t ha ih => rw [Finset.sum_insert ha, Finset.sum_insert ha, EReal.coe_add, ih]

/-- A contraction of two arrays whose entries are real is real: if `l k = ↑(f k)` and `r k = ↑(g k)` for every `k`,
    then `∑ k, l k * r k` is the coercion of the real sum `∑ k, f k * g k`. -/
theorem dot_real {n : ℕ} (l r : Fin n → EReal) (f g : Fin n → ℝ)
    (hl : ∀ k, l k = ((f k : ℝ) : EReal)) (hr : ∀ k, r k = ((g k : ℝ) : EReal)) :
    ∑ k, l k * r k = ((∑ k, f k * g k : ℝ) : EReal) := by
  rw [coe_sum]
  exact Finset.sum_congr rfl fun k _ => by rw [hl k, hr k, EReal.coe_mul]

/-- The coercion is monotone, so it passes through `max`. -/
theorem coe_max (x y : ℝ) : ((max x y : ℝ) : EReal) = max ((x : ℝ) : EReal) ((y : ℝ) : EReal) :=
  EReal.coe_strictMono.monotone.map_max

/-- The single-precision word `0x40000000` is the number two: sign `0`, exponent field `128`, fraction `0`. -/
theorem ofBits_two : Ideal.ofBits .f32 0x40000000#32 = ((2 : ℝ) : EReal) := by
  simp [Ideal.ofBits, Ideal.ieee]
  rw [← EReal.coe_mul]
  norm_num

/-! ### The weight blocks and the bias -/

/-- The first weight block at `(f, o)`: the slice keeps plane `0` of the triple and the reshape drops the unit axis,
    so the entry is `W 0 f o`; the flat position `f * 256 + o` splits back into `(f, o)` because `o < 256`. -/
theorem w0_value (x2 : S3x384x256.Idx → EReal) (h2 : Finite x2) (f : Fin 384) (o : Fin 256) :
    val_main_v19 (F := Ideal) x2 (ix2 f o) = ((Wr x2 0 f o : ℝ) : EReal) := by
  rw [val_main_v19_apply, val_main_v18_apply]
  have e : idx_main_v18 (idx_main_v19 (ix2 f o)) = ix3 (0 : Fin 3) f o := funext fun a => Fin.ext (by
    have hf := f.isLt
    have ho := o.isLt
    match a with
    | ⟨0, _⟩ => rfl
    | ⟨1, _⟩ => show (f.val * 256 + o.val) / 256 % 384 = f.val; omega
    | ⟨2, _⟩ => show (f.val * 256 + o.val) % 256 = o.val; omega)
  rw [e]
  exact (Cert.Result.coe_toReal h2 _).symm

/-- The second weight block at `(f, o)`: the slice keeps plane `1` of the triple and the reshape drops the unit axis,
    so the entry is `W 1 f o`; the flat position `f * 256 + o` splits back into `(f, o)` because `o < 256`. -/
theorem w1_value (x2 : S3x384x256.Idx → EReal) (h2 : Finite x2) (f : Fin 384) (o : Fin 256) :
    val_main_v23 (F := Ideal) x2 (ix2 f o) = ((Wr x2 1 f o : ℝ) : EReal) := by
  rw [val_main_v23_apply, val_main_v22_apply]
  have e : idx_main_v22 (idx_main_v23 (ix2 f o)) = ix3 (1 : Fin 3) f o := funext fun a => Fin.ext (by
    have hf := f.isLt
    have ho := o.isLt
    match a with
    | ⟨0, _⟩ => rfl
    | ⟨1, _⟩ => show (f.val * 256 + o.val) / 256 % 384 = f.val; omega
    | ⟨2, _⟩ => show (f.val * 256 + o.val) % 256 = o.val; omega)
  rw [e]
  exact (Cert.Result.coe_toReal h2 _).symm

/-- The third weight block at `(f, o)`: the slice keeps plane `2` of the triple and the reshape drops the unit axis,
    so the entry is `W 2 f o`; the flat position `f * 256 + o` splits back into `(f, o)` because `o < 256`. -/
theorem w2_value (x2 : S3x384x256.Idx → EReal) (h2 : Finite x2) (f : Fin 384) (o : Fin 256) :
    val_main_v31 (F := Ideal) x2 (ix2 f o) = ((Wr x2 2 f o : ℝ) : EReal) := by
  rw [val_main_v31_apply, val_main_v30_apply]
  have e : idx_main_v30 (idx_main_v31 (ix2 f o)) = ix3 (2 : Fin 3) f o := funext fun a => Fin.ext (by
    have hf := f.isLt
    have ho := o.isLt
    match a with
    | ⟨0, _⟩ => rfl
    | ⟨1, _⟩ => show (f.val * 256 + o.val) / 256 % 384 = f.val; omega
    | ⟨2, _⟩ => show (f.val * 256 + o.val) % 256 = o.val; omega)
  rw [e]
  exact (Cert.Result.coe_toReal h2 _).symm

/-- The bias, broadcast along graphs and nodes, at `(b, s, o)` is `b o`. -/
theorem bias_value (x3 : S256.Idx → EReal) (h3 : Finite x3) (b : Fin 16) (s : Fin 325) (o : Fin 256) :
    val_main_v35 (F := Ideal) x3 (ix3 b s o) = ((br x3 o : ℝ) : EReal) := by
  rw [val_main_v35_apply, val_main_v34_apply]
  have e : idx_main_v34 (idx_main_v35 (ix3 b s o)) = ix1 o := funext fun a => Fin.ext (by match a with | ⟨0, _⟩ => rfl)
  rw [e]
  exact (Cert.Result.coe_toReal h3 _).symm

/-! ### The products of the layer, each a contraction of two real arrays -/

/-- `x·W 0` at `(b, s, o)`: the contraction runs over the feature axis. -/
theorem v20_value (x0 : S16x325x12x32.Idx → EReal) (x2 : S3x384x256.Idx → EReal) (h0 : Finite x0) (h2 : Finite x2) (b : Fin 16) (s : Fin 325) (o : Fin 256) :
    val_main_v20 (F := Ideal) x0 x2 (ix3 b s o) = ((∑ f, Xr x0 b s f * Wr x2 0 f o : ℝ) : EReal) := by
  rw [val_main_v20_apply]
  have el : ∀ k : Fin 384, lidx_main_v20 (ix3 b s o) k = ix3 b s k := fun k => funext fun a => Fin.ext (by match a with | ⟨0, _⟩ => rfl | ⟨1, _⟩ => rfl | ⟨2, _⟩ => rfl)
  have er : ∀ k : Fin 384, ridx_main_v20 (ix3 b s o) k = ix2 k o := fun k => funext fun a => Fin.ext (by match a with | ⟨0, _⟩ => rfl | ⟨1, _⟩ => rfl)
  exact dot_real _ _ (fun f => Xr x0 b s f) (fun f => Wr x2 0 f o)
    (fun k => by rw [el k, x_value x0 h0]) (fun k => by rw [er k, w0_value x2 h2])

/-- `L x` at `(b, s, f)`: graph by graph, the contraction runs over the nodes. -/
theorem v21_value (x0 : S16x325x12x32.Idx → EReal) (x1 : S16x325x325.Idx → EReal) (h0 : Finite x0) (h1 : Finite x1) (b : Fin 16) (s : Fin 325) (f : Fin 384) :
    val_main_v21 (F := Ideal) x0 x1 (ix3 b s f) = ((∑ m, Spec.lap (Ar x1 b) s m * Xr x0 b m f : ℝ) : EReal) := by
  rw [val_main_v21_apply]
  have el : ∀ k : Fin 325, lidx_main_v21 (ix3 b s f) k = ix3 b s k := fun k => funext fun a => Fin.ext (by match a with | ⟨0, _⟩ => rfl | ⟨1, _⟩ => rfl | ⟨2, _⟩ => rfl)
  have er : ∀ k : Fin 325, ridx_main_v21 (ix3 b s f) k = ix3 b k f := fun k => funext fun a => Fin.ext (by match a with | ⟨0, _⟩ => rfl | ⟨1, _⟩ => rfl | ⟨2, _⟩ => rfl)
  exact dot_real _ _ (fun m => Spec.lap (Ar x1 b) s m) (fun m => Xr x0 b m f)
    (fun k => by rw [el k, lap_value x1 h1]) (fun k => by rw [er k, x_value x0 h0])

/-- `(L x)·W 1` at `(b, s, o)`. -/
theorem v24_value (x0 : S16x325x12x32.Idx → EReal) (x1 : S16x325x325.Idx → EReal) (x2 : S3x384x256.Idx → EReal) (h0 : Finite x0) (h1 : Finite x1) (h2 : Finite x2)
    (b : Fin 16) (s : Fin 325) (o : Fin 256) :
    val_main_v24 (F := Ideal) x0 x1 x2 (ix3 b s o)
      = ((∑ f, (∑ m, Spec.lap (Ar x1 b) s m * Xr x0 b m f) * Wr x2 1 f o : ℝ) : EReal) := by
  rw [val_main_v24_apply]
  have el : ∀ k : Fin 384, lidx_main_v24 (ix3 b s o) k = ix3 b s k := fun k => funext fun a => Fin.ext (by match a with | ⟨0, _⟩ => rfl | ⟨1, _⟩ => rfl | ⟨2, _⟩ => rfl)
  have er : ∀ k : Fin 384, ridx_main_v24 (ix3 b s o) k = ix2 k o := fun k => funext fun a => Fin.ext (by match a with | ⟨0, _⟩ => rfl | ⟨1, _⟩ => rfl)
  exact dot_real _ _ (fun f => ∑ m, Spec.lap (Ar x1 b) s m * Xr x0 b m f) (fun f => Wr x2 1 f o)
    (fun k => by rw [el k, v21_value x0 x1 h0 h1]) (fun k => by rw [er k, w1_value x2 h2])

/-- `L (L x)` at `(b, s, f)`. -/
theorem v26_value (x0 : S16x325x12x32.Idx → EReal) (x1 : S16x325x325.Idx → EReal) (h0 : Finite x0) (h1 : Finite x1) (b : Fin 16) (s : Fin 325) (f : Fin 384) :
    val_main_v26 (F := Ideal) x0 x1 (ix3 b s f)
      = ((∑ m, Spec.lap (Ar x1 b) s m * (∑ m', Spec.lap (Ar x1 b) m m' * Xr x0 b m' f) : ℝ) : EReal) := by
  rw [val_main_v26_apply]
  have el : ∀ k : Fin 325, lidx_main_v26 (ix3 b s f) k = ix3 b s k := fun k => funext fun a => Fin.ext (by match a with | ⟨0, _⟩ => rfl | ⟨1, _⟩ => rfl | ⟨2, _⟩ => rfl)
  have er : ∀ k : Fin 325, ridx_main_v26 (ix3 b s f) k = ix3 b k f := fun k => funext fun a => Fin.ext (by match a with | ⟨0, _⟩ => rfl | ⟨1, _⟩ => rfl | ⟨2, _⟩ => rfl)
  exact dot_real _ _ (fun m => Spec.lap (Ar x1 b) s m) (fun m => ∑ m', Spec.lap (Ar x1 b) m m' * Xr x0 b m' f)
    (fun k => by rw [el k, lap_value x1 h1]) (fun k => by rw [er k, v21_value x0 x1 h0 h1])

/-- `2 L (L x) − x` at `(b, s, f)`: the constant is the number two, and products and differences of reals are real. -/
theorem v29_value (x0 : S16x325x12x32.Idx → EReal) (x1 : S16x325x325.Idx → EReal) (h0 : Finite x0) (h1 : Finite x1) (b : Fin 16) (s : Fin 325) (f : Fin 384) :
    val_main_v29 (F := Ideal) x0 x1 (ix3 b s f)
      = ((2 * (∑ m, Spec.lap (Ar x1 b) s m * (∑ m', Spec.lap (Ar x1 b) m m' * Xr x0 b m' f)) - Xr x0 b s f : ℝ) : EReal) := by
  rw [val_main_v29_apply, val_main_v28_apply, val_main_v27_apply, val_main_cst_5_apply,
    v26_value x0 x1 h0 h1, x_value x0 h0]
  simp only [Ideal.ofBits_def, Ideal.mulf_def, Ideal.subf_def]
  rw [ofBits_two, ← EReal.coe_mul, ← EReal.coe_sub]

/-- `(2 L (L x) − x)·W 2` at `(b, s, o)`. -/
theorem v32_value (x0 : S16x325x12x32.Idx → EReal) (x1 : S16x325x325.Idx → EReal) (x2 : S3x384x256.Idx → EReal) (h0 : Finite x0) (h1 : Finite x1) (h2 : Finite x2)
    (b : Fin 16) (s : Fin 325) (o : Fin 256) :
    val_main_v32 (F := Ideal) x0 x1 x2 (ix3 b s o)
      = ((∑ f, (2 * (∑ m, Spec.lap (Ar x1 b) s m * (∑ m', Spec.lap (Ar x1 b) m m' * Xr x0 b m' f)) - Xr x0 b s f) * Wr x2 2 f o : ℝ) : EReal) := by
  rw [val_main_v32_apply]
  have el : ∀ k : Fin 384, lidx_main_v32 (ix3 b s o) k = ix3 b s k := fun k => funext fun a => Fin.ext (by match a with | ⟨0, _⟩ => rfl | ⟨1, _⟩ => rfl | ⟨2, _⟩ => rfl)
  have er : ∀ k : Fin 384, ridx_main_v32 (ix3 b s o) k = ix2 k o := fun k => funext fun a => Fin.ext (by match a with | ⟨0, _⟩ => rfl | ⟨1, _⟩ => rfl)
  exact dot_real _ _ (fun f => 2 * (∑ m, Spec.lap (Ar x1 b) s m * (∑ m', Spec.lap (Ar x1 b) m m' * Xr x0 b m' f)) - Xr x0 b s f)
    (fun f => Wr x2 2 f o)
    (fun k => by rw [el k, v29_value x0 x1 h0 h1]) (fun k => by rw [er k, w2_value x2 h2])

/-! ### The layer -/

/-- The first hidden layer at `(b, s, o)`. -/
theorem layer1_value (x0 : S16x325x12x32.Idx → EReal) (x1 : S16x325x325.Idx → EReal) (x2 : S3x384x256.Idx → EReal) (x3 : S256.Idx → EReal)
    (h0 : Finite x0) (h1 : Finite x1) (h2 : Finite x2) (h3 : Finite x3) (b : Fin 16) (s : Fin 325) (o : Fin 256) :
    val_main_v37 (F := Ideal) x0 x1 x2 x3 (ix3 b s o) = ((Spec.hid (Spec.layerRef (Spec.lap (Ar x1 b)) (Xr x0 b) (Wr x2) (br x3)) s o : ℝ) : EReal) := by
  rw [val_main_v37_apply, val_main_v36_apply, val_main_v33_apply, val_main_v25_apply, val_main_call2_v0_apply,
    val_main_call2_cst_apply, v20_value x0 x2 h0 h2, v24_value x0 x1 x2 h0 h1 h2, v32_value x0 x1 x2 h0 h1 h2,
    bias_value x3 h3]
  simp only [Ideal.ofBits_def, Ideal.addf_def, Ideal.maximumf_def, Ideal.ofBits_zero_f32]
  rw [← EReal.coe_add, ← EReal.coe_add, ← EReal.coe_add, ← EReal.coe_zero, ← coe_max]
  rfl

end Cert.ReferenceIdeal.RefValue

end
-- ==== Proof.RefLayer2.lean ====
/-
  The reference's second layer, read at an index, over the first layer's result.

  With `h` the first layer's result (real entries), `L` the scaled Laplacian of graph `b` (real entries) and
  `W 0, W 1, W 2`, `bias` read off the finite weight and bias arrays, the layer computes
  `max(((h·W 0 + (L h)·W 1) + (2 L (L h) − h)·W 2) + bias, 0)`. Each product is a contraction over one axis,
  a plain finite sum at this reading of floats; each weight block is a slice of the triple reshaped to a matrix;
  the bias is a broadcast. Sums, products, differences and maxima of reals are real, so the inclusion of the
  reals in the extended reals passes through every stage, and the stages are read one at a time at explicit
  coordinates `(b, s, o)`.
-/
import proofs.«129663_g81071802679316_cont_sun_m_195_35_alg».proof.Proof.RefLayer1
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.RefValue

open Cert.ReferenceIdeal Cert.ReferenceIdeal.ReadP
open Idealize.ShloMosaic Idealize.ShloMosaic.TcCoe Idealize.ShloMosaic.ValueIdx
open Cert.Result (Finite Ar Xr Wr br G)
open BigOperators

/-- The image of a finite sum of reals among the extended reals is the sum of the images. -/
theorem l2_coe_sum {ι : Type} (t : Finset ι) (u : ι → ℝ) :
    ((∑ k ∈ t, u k : ℝ) : EReal) = ∑ k ∈ t, (u k : EReal) := by
  classical
  refine Finset.induction_on t (by simp) ?_
  intro a t ha ih
  rw [Finset.sum_insert ha, Finset.sum_insert ha, EReal.coe_add, ih]

/-- A contraction of two rows whose entries are real is the real contraction. -/
theorem l2_dot {n : ℕ} (p q : Fin n → EReal) (u v : Fin n → ℝ)
    (hp : ∀ k, p k = ((u k : ℝ) : EReal)) (hq : ∀ k, q k = ((v k : ℝ) : EReal)) :
    ∑ k, p k * q k = ((∑ k, u k * v k : ℝ) : EReal) := by
  rw [l2_coe_sum]
  exact Finset.sum_congr rfl fun k _ => by rw [hp, hq, EReal.coe_mul]

/-- The image of a maximum of two reals is the maximum of the images (the inclusion is monotone). -/
theorem l2_coe_max (a c : ℝ) : ((max a c : ℝ) : EReal) = max (a : EReal) (c : EReal) :=
  EReal.coe_strictMono.monotone.map_max

/-- The single-precision word `0x40000000` is the number two. -/
theorem l2_two : Ideal.ofBits .f32 0x40000000#32 = ((2 : ℝ) : EReal) := by
  simp [Ideal.ofBits, Ideal.ieee]
  rw [← EReal.coe_mul]
  exact congrArg Real.toEReal (by norm_num)

section Stages

variable (x0 : S16x325x12x32.Idx → EReal) (x1 : S16x325x325.Idx → EReal) (x2 : S3x384x256.Idx → EReal)
  (x3 : S256.Idx → EReal) (x4 : S3x256x256.Idx → EReal) (x5 : S256.Idx → EReal)

/-- The first weight block: entry `(f, o)` of the slice `[0:1]` of the triple, reshaped to a matrix, is entry `(0, f, o)`. -/
theorem l2_w0 (h4 : Finite x4) (f o : Fin 256) :
    val_main_v39 (F := Ideal) x4 (ix2 f o) = ((Wr x4 0 f o : ℝ) : EReal) := by
  rw [val_main_v39_apply, val_main_v38_apply]
  have e : idx_main_v38 (idx_main_v39 (ix2 f o)) = ix3 (0 : Fin 3) f o := funext fun a => Fin.ext (by
    have hf := f.isLt
    have ho := o.isLt
    match a with
    | ⟨0, _⟩ => rfl
    | ⟨1, _⟩ => show (f.val * 256 + o.val) / 256 % 256 = f.val; omega
    | ⟨2, _⟩ => show (f.val * 256 + o.val) % 256 = o.val; omega)
  rw [e]
  exact (Cert.Result.coe_toReal h4 _).symm

/-- The second weight block: the slice `[1:2]`, reshaped, is entry `(1, f, o)`. -/
theorem l2_w1 (h4 : Finite x4) (f o : Fin 256) :
    val_main_v43 (F := Ideal) x4 (ix2 f o) = ((Wr x4 1 f o : ℝ) : EReal) := by
  rw [val_main_v43_apply, val_main_v42_apply]
  have e : idx_main_v42 (idx_main_v43 (ix2 f o)) = ix3 (1 : Fin 3) f o := funext fun a => Fin.ext (by
    have hf := f.isLt
    have ho := o.isLt
    match a with
    | ⟨0, _⟩ => rfl
    | ⟨1, _⟩ => show (f.val * 256 + o.val) / 256 % 256 = f.val; omega
    | ⟨2, _⟩ => show (f.val * 256 + o.val) % 256 = o.val; omega)
  rw [e]
  exact (Cert.Result.coe_toReal h4 _).symm

/-- The third weight block: the slice `[2:3]`, reshaped, is entry `(2, f, o)`. -/
theorem l2_w2 (h4 : Finite x4) (f o : Fin 256) :
    val_main_v51 (F := Ideal) x4 (ix2 f o) = ((Wr x4 2 f o : ℝ) : EReal) := by
  rw [val_main_v51_apply, val_main_v50_apply]
  have e : idx_main_v50 (idx_main_v51 (ix2 f o)) = ix3 (2 : Fin 3) f o := funext fun a => Fin.ext (by
    have hf := f.isLt
    have ho := o.isLt
    match a with
    | ⟨0, _⟩ => rfl
    | ⟨1, _⟩ => show (f.val * 256 + o.val) / 256 % 256 = f.val; omega
    | ⟨2, _⟩ => show (f.val * 256 + o.val) % 256 = o.val; omega)
  rw [e]
  exact (Cert.Result.coe_toReal h4 _).symm

/-- The bias, broadcast over graphs and nodes, reads entry `o` at `(b, s, o)`. -/
theorem l2_bias (h5 : Finite x5) (b : Fin 16) (s : Fin 325) (o : Fin 256) :
    val_main_v55 (F := Ideal) x5 (ix3 b s o) = ((br x5 o : ℝ) : EReal) := by
  rw [val_main_v55_apply, val_main_v54_apply]
  have e : idx_main_v54 (idx_main_v55 (ix3 b s o)) = ix1 o := funext fun a => Fin.ext (by
    match a with
    | ⟨0, _⟩ => rfl)
  rw [e]
  exact (Cert.Result.coe_toReal h5 _).symm

/-- The broadcast constant of the doubling step is two. -/
theorem l2_v47 (i : S16x325x256.Idx) : val_main_v47 (F := Ideal) i = ((2 : ℝ) : EReal) := by
  rw [val_main_v47_apply, val_main_cst_6_apply, Ideal.ofBits_def, l2_two]

/-- The broadcast constant of the final maximum is zero. -/
theorem l2_zero (i : S16x325x256.Idx) : val_main_call3_v0 (F := Ideal) i = ((0 : ℝ) : EReal) := by
  rw [val_main_call3_v0_apply, val_main_call3_cst_apply, Ideal.ofBits_def, Ideal.ofBits_zero_f32, EReal.coe_zero]

end Stages

section Layer

variable (x0 : S16x325x12x32.Idx → EReal) (x1 : S16x325x325.Idx → EReal) (x2 : S3x384x256.Idx → EReal)
  (x3 : S256.Idx → EReal) (x4 : S3x256x256.Idx → EReal) (x5 : S256.Idx → EReal)
  (b : Fin 16) (L : Fin 325 → Fin 325 → ℝ) (H : Fin 325 → Fin 256 → ℝ)

/-- `h·W 0`: the contraction of the layer's input with the first weight block. -/
theorem l2_v40
    (hH : ∀ s f, val_main_v37 (F := Ideal) x0 x1 x2 x3 (ix3 b s f) = ((H s f : ℝ) : EReal))
    (h4 : Finite x4) (s : Fin 325) (o : Fin 256) :
    val_main_v40 (F := Ideal) x0 x1 x2 x3 x4 (ix3 b s o) = ((∑ f, H s f * Wr x4 0 f o : ℝ) : EReal) := by
  rw [val_main_v40_apply]
  refine l2_dot _ _ (fun f => H s f) (fun f => Wr x4 0 f o) (fun k => ?_) (fun k => ?_)
  · have el : lidx_main_v40 (ix3 b s o) k = ix3 b s k := funext fun a => Fin.ext (by
      match a with
      | ⟨0, _⟩ => rfl
      | ⟨1, _⟩ => rfl
      | ⟨2, _⟩ => rfl)
    rw [el, hH]
  · have er : ridx_main_v40 (ix3 b s o) k = ix2 k o := funext fun a => Fin.ext (by
      match a with
      | ⟨0, _⟩ => rfl
      | ⟨1, _⟩ => rfl)
    rw [er, l2_w0 x4 h4]

/-- `L·h`: the Laplacian applied to the layer's input, within graph `b`. -/
theorem l2_v41
    (hL : ∀ s m, val_main_v17 (F := Ideal) x1 (ix3 b s m) = ((L s m : ℝ) : EReal))
    (hH : ∀ s f, val_main_v37 (F := Ideal) x0 x1 x2 x3 (ix3 b s f) = ((H s f : ℝ) : EReal))
    (s : Fin 325) (f : Fin 256) :
    val_main_v41 (F := Ideal) x0 x1 x2 x3 (ix3 b s f) = ((∑ m, L s m * H m f : ℝ) : EReal) := by
  rw [val_main_v41_apply]
  refine l2_dot _ _ (fun m => L s m) (fun m => H m f) (fun k => ?_) (fun k => ?_)
  · have el : lidx_main_v41 (ix3 b s f) k = ix3 b s k := funext fun a => Fin.ext (by
      match a with
      | ⟨0, _⟩ => rfl
      | ⟨1, _⟩ => rfl
      | ⟨2, _⟩ => rfl)
    rw [el, hL]
  · have er : ridx_main_v41 (ix3 b s f) k = ix3 b k f := funext fun a => Fin.ext (by
      match a with
      | ⟨0, _⟩ => rfl
      | ⟨1, _⟩ => rfl
      | ⟨2, _⟩ => rfl)
    rw [er, hH]

/-- `(L·h)·W 1`. -/
theorem l2_v44
    (hL : ∀ s m, val_main_v17 (F := Ideal) x1 (ix3 b s m) = ((L s m : ℝ) : EReal))
    (hH : ∀ s f, val_main_v37 (F := Ideal) x0 x1 x2 x3 (ix3 b s f) = ((H s f : ℝ) : EReal))
    (h4 : Finite x4) (s : Fin 325) (o : Fin 256) :
    val_main_v44 (F := Ideal) x0 x1 x2 x3 x4 (ix3 b s o)
      = ((∑ f, (∑ m, L s m * H m f) * Wr x4 1 f o : ℝ) : EReal) := by
  rw [val_main_v44_apply]
  refine l2_dot _ _ (fun f => ∑ m, L s m * H m f) (fun f => Wr x4 1 f o) (fun k => ?_) (fun k => ?_)
  · have el : lidx_main_v44 (ix3 b s o) k = ix3 b s k := funext fun a => Fin.ext (by
      match a with
      | ⟨0, _⟩ => rfl
      | ⟨1, _⟩ => rfl
      | ⟨2, _⟩ => rfl)
    rw [el, l2_v41 x0 x1 x2 x3 b L H hL hH]
  · have er : ridx_main_v44 (ix3 b s o) k = ix2 k o := funext fun a => Fin.ext (by
      match a with
      | ⟨0, _⟩ => rfl
      | ⟨1, _⟩ => rfl)
    rw [er, l2_w1 x4 h4]

/-- `L·(L·h)`. -/
theorem l2_v46
    (hL : ∀ s m, val_main_v17 (F := Ideal) x1 (ix3 b s m) = ((L s m : ℝ) : EReal))
    (hH : ∀ s f, val_main_v37 (F := Ideal) x0 x1 x2 x3 (ix3 b s f) = ((H s f : ℝ) : EReal))
    (s : Fin 325) (f : Fin 256) :
    val_main_v46 (F := Ideal) x0 x1 x2 x3 (ix3 b s f)
      = ((∑ m, L s m * (∑ m', L m m' * H m' f) : ℝ) : EReal) := by
  rw [val_main_v46_apply]
  refine l2_dot _ _ (fun m => L s m) (fun m => ∑ m', L m m' * H m' f) (fun k => ?_) (fun k => ?_)
  · have el : lidx_main_v46 (ix3 b s f) k = ix3 b s k := funext fun a => Fin.ext (by
      match a with
      | ⟨0, _⟩ => rfl
      | ⟨1, _⟩ => rfl
      | ⟨2, _⟩ => rfl)
    rw [el, hL]
  · have er : ridx_main_v46 (ix3 b s f) k = ix3 b k f := funext fun a => Fin.ext (by
      match a with
      | ⟨0, _⟩ => rfl
      | ⟨1, _⟩ => rfl
      | ⟨2, _⟩ => rfl)
    rw [er, l2_v41 x0 x1 x2 x3 b L H hL hH]

/-- `2·L(L·h) − h`. -/
theorem l2_v49
    (hL : ∀ s m, val_main_v17 (F := Ideal) x1 (ix3 b s m) = ((L s m : ℝ) : EReal))
    (hH : ∀ s f, val_main_v37 (F := Ideal) x0 x1 x2 x3 (ix3 b s f) = ((H s f : ℝ) : EReal))
    (s : Fin 325) (f : Fin 256) :
    val_main_v49 (F := Ideal) x0 x1 x2 x3 (ix3 b s f)
      = ((2 * (∑ m, L s m * (∑ m', L m m' * H m' f)) - H s f : ℝ) : EReal) := by
  rw [val_main_v49_apply, val_main_v48_apply, Ideal.subf_def, Ideal.mulf_def, l2_v47,
    l2_v46 x0 x1 x2 x3 b L H hL hH, hH, ← EReal.coe_mul, ← EReal.coe_sub]

/-- `(2·L(L·h) − h)·W 2`. -/
theorem l2_v52
    (hL : ∀ s m, val_main_v17 (F := Ideal) x1 (ix3 b s m) = ((L s m : ℝ) : EReal))
    (hH : ∀ s f, val_main_v37 (F := Ideal) x0 x1 x2 x3 (ix3 b s f) = ((H s f : ℝ) : EReal))
    (h4 : Finite x4) (s : Fin 325) (o : Fin 256) :
    val_main_v52 (F := Ideal) x0 x1 x2 x3 x4 (ix3 b s o)
      = ((∑ f, (2 * (∑ m, L s m * (∑ m', L m m' * H m' f)) - H s f) * Wr x4 2 f o : ℝ) : EReal) := by
  rw [val_main_v52_apply]
  refine l2_dot _ _ (fun f => 2 * (∑ m, L s m * (∑ m', L m m' * H m' f)) - H s f) (fun f => Wr x4 2 f o)
    (fun k => ?_) (fun k => ?_)
  · have el : lidx_main_v52 (ix3 b s o) k = ix3 b s k := funext fun a => Fin.ext (by
      match a with
      | ⟨0, _⟩ => rfl
      | ⟨1, _⟩ => rfl
      | ⟨2, _⟩ => rfl)
    rw [el, l2_v49 x0 x1 x2 x3 b L H hL hH]
  · have er : ridx_main_v52 (ix3 b s o) k = ix2 k o := funext fun a => Fin.ext (by
      match a with
      | ⟨0, _⟩ => rfl
      | ⟨1, _⟩ => rfl)
    rw [er, l2_w2 x4 h4]

/-- The whole layer over any real Laplacian `L` and real input `H` that the two operand stages read as:
    the three products are added left to right, the bias is added, and the maximum with zero is taken. -/
theorem l2_v57
    (hL : ∀ s m, val_main_v17 (F := Ideal) x1 (ix3 b s m) = ((L s m : ℝ) : EReal))
    (hH : ∀ s f, val_main_v37 (F := Ideal) x0 x1 x2 x3 (ix3 b s f) = ((H s f : ℝ) : EReal))
    (h4 : Finite x4) (h5 : Finite x5) (s : Fin 325) (o : Fin 256) :
    val_main_v57 (F := Ideal) x0 x1 x2 x3 x4 x5 (ix3 b s o)
      = ((Spec.hid (Spec.layerRef L H (Wr x4) (br x5)) s o : ℝ) : EReal) := by
  rw [val_main_v57_apply, val_main_v56_apply, val_main_v53_apply, val_main_v45_apply,
    Ideal.maximumf_def, Ideal.addf_def, Ideal.addf_def, Ideal.addf_def,
    l2_v40 x0 x1 x2 x3 x4 b H hH h4, l2_v44 x0 x1 x2 x3 x4 b L H hL hH h4,
    l2_v52 x0 x1 x2 x3 x4 b L H hL hH h4, l2_bias x5 h5, l2_zero,
    ← EReal.coe_add, ← EReal.coe_add, ← EReal.coe_add, ← l2_coe_max]
  rfl

end Layer

/-- The second hidden layer at `(b, s, o)`. -/
theorem layer2_value (x0 : S16x325x12x32.Idx → EReal) (x1 : S16x325x325.Idx → EReal) (x2 : S3x384x256.Idx → EReal) (x3 : S256.Idx → EReal) (x4 : S3x256x256.Idx → EReal) (x5 : S256.Idx → EReal)
    (h0 : Finite x0) (h1 : Finite x1) (h2 : Finite x2) (h3 : Finite x3) (h4 : Finite x4) (h5 : Finite x5)
    (b : Fin 16) (s : Fin 325) (o : Fin 256) :
    val_main_v57 (F := Ideal) x0 x1 x2 x3 x4 x5 (ix3 b s o) = ((Spec.hid (Spec.layerRef (Spec.lap (Ar x1 b)) (Spec.hid (Spec.layerRef (Spec.lap (Ar x1 b)) (Xr x0 b) (Wr x2) (br x3))) (Wr x4) (br x5)) s o : ℝ) : EReal) :=
  l2_v57 x0 x1 x2 x3 x4 x5 b (Spec.lap (Ar x1 b)) (Spec.hid (Spec.layerRef (Spec.lap (Ar x1 b)) (Xr x0 b) (Wr x2) (br x3)))
    (fun s m => lap_value x1 h1 b s m) (fun s f => layer1_value x0 x1 x2 x3 h0 h1 h2 h3 b s f) h4 h5 s o

end Cert.ReferenceIdeal.RefValue

end
-- ==== Proof.RefLayer3.lean ====
/-
  The reference's third layer and its result as ONE function of the argument arrays: `Result.G`.

  The third layer has no `max` after it. Over any real Laplacian `L` and any real input `h` that the
  earlier stages read as, each of its three products is a contraction over one axis, a plain finite sum at this
  reading of floats; the weight blocks are slices of the weight triple with the unit axis dropped, the bias is
  laid along the last axis. Finite entries are readings of reals, and the reading passes through finite sums,
  products, differences and sums, so the layer reads as `Spec.layerRef L h W b`. With the Laplacian and the
  second hidden layer put in for `L` and `h`, that is the net of `Spec`, which is `G`.
-/
import proofs.«129663_g81071802679316_cont_sun_m_195_35_alg».proof.Proof.RefLayer2
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.RefValue

open Cert.ReferenceIdeal Cert.ReferenceIdeal.ReadP
open Idealize.ShloMosaic Idealize.ShloMosaic.TcCoe Idealize.ShloMosaic.ValueIdx
open Cert.Result (Finite Ar Xr Wr br G)
open BigOperators

namespace L3

/-- A finite sum of real numbers, read in the extended reals, is the sum of the readings. -/
theorem coe_sum {ι : Type} (t : Finset ι) (f : ι → ℝ) :
    ((∑ k ∈ t, f k : ℝ) : EReal) = ∑ k ∈ t, ((f k : ℝ) : EReal) := by
  classical
  induction t using Finset.induction_on with
  | empty => simp
  | insert a t ha ih => rw [Finset.sum_insert ha, Finset.sum_insert ha, EReal.coe_add, ih]

/-- The literal the third term is scaled by is the number two. -/
theorem two_lit : Ideal.ofBits .f32 0x40000000#32 = ((2 : ℝ) : EReal) := by
  simp [Ideal.ofBits, Ideal.ieee, -EReal.coe_mul]
  norm_num

/-- The first weight block of the third layer is the first slice of the weight triple, its unit axis dropped. -/
theorem w0_value (x6 : S3x256x128.Idx → EReal) (f : Fin 256) (o : Fin 128) :
    val_main_v59 (F := Ideal) x6 (ix2 f o) = x6 (ix3 0 f o) := by
  rw [val_main_v59_apply, val_main_v58_apply]
  refine congrArg x6 (funext fun a => Fin.ext ?_)
  have hf := f.isLt
  have ho := o.isLt
  match a with
  | ⟨0, _⟩ => rfl
  | ⟨1, _⟩ => show (f.val * 128 + o.val) / 128 % 256 = f.val; omega
  | ⟨2, _⟩ => show (f.val * 128 + o.val) % 128 = o.val; omega

/-- The second weight block is the second slice. -/
theorem w1_value (x6 : S3x256x128.Idx → EReal) (f : Fin 256) (o : Fin 128) :
    val_main_v63 (F := Ideal) x6 (ix2 f o) = x6 (ix3 1 f o) := by
  rw [val_main_v63_apply, val_main_v62_apply]
  refine congrArg x6 (funext fun a => Fin.ext ?_)
  have hf := f.isLt
  have ho := o.isLt
  match a with
  | ⟨0, _⟩ => rfl
  | ⟨1, _⟩ => show (f.val * 128 + o.val) / 128 % 256 = f.val; omega
  | ⟨2, _⟩ => show (f.val * 128 + o.val) % 128 = o.val; omega

/-- The third weight block is the third slice. -/
theorem w2_value (x6 : S3x256x128.Idx → EReal) (f : Fin 256) (o : Fin 128) :
    val_main_v71 (F := Ideal) x6 (ix2 f o) = x6 (ix3 2 f o) := by
  rw [val_main_v71_apply, val_main_v70_apply]
  refine congrArg x6 (funext fun a => Fin.ext ?_)
  have hf := f.isLt
  have ho := o.isLt
  match a with
  | ⟨0, _⟩ => rfl
  | ⟨1, _⟩ => show (f.val * 128 + o.val) / 128 % 256 = f.val; omega
  | ⟨2, _⟩ => show (f.val * 128 + o.val) % 128 = o.val; omega

/-- The bias, laid along the last axis, reads the bias entry of the output feature. -/
theorem bias_value (x7 : S128.Idx → EReal) (b : Fin 16) (s : Fin 325) (o : Fin 128) :
    val_main_v75 (F := Ideal) x7 (ix3 b s o) = x7 (ix1 o) := by
  rw [val_main_v75_apply, val_main_v74_apply]
  refine congrArg x7 (funext fun a => Fin.ext ?_)
  match a with
  | ⟨0, _⟩ => rfl

/-- A finite weight entry is the reading of its real value. -/
theorem w_coe (x6 : S3x256x128.Idx → EReal) (h6 : Finite x6) (k : Fin 3) (f : Fin 256) (o : Fin 128) :
    x6 (ix3 k f o) = ((Wr x6 k f o : ℝ) : EReal) := (Result.coe_toReal h6 _).symm

/-- A finite bias entry is the reading of its real value. -/
theorem b_coe (x7 : S128.Idx → EReal) (h7 : Finite x7) (o : Fin 128) :
    x7 (ix1 o) = ((br x7 o : ℝ) : EReal) := (Result.coe_toReal h7 _).symm

/-- The Laplacian applied to the layer's input: a real sum over the neighbours. -/
theorem v61_value (x0 : S16x325x12x32.Idx → EReal) (x1 : S16x325x325.Idx → EReal) (x2 : S3x384x256.Idx → EReal)
    (x3 : S256.Idx → EReal) (x4 : S3x256x256.Idx → EReal) (x5 : S256.Idx → EReal)
    (L : Fin 16 → Fin 325 → Fin 325 → ℝ) (h : Fin 16 → Fin 325 → Fin 256 → ℝ)
    (hL : ∀ b s m, val_main_v17 (F := Ideal) x1 (ix3 b s m) = ((L b s m : ℝ) : EReal))
    (hh : ∀ b s f, val_main_v57 (F := Ideal) x0 x1 x2 x3 x4 x5 (ix3 b s f) = ((h b s f : ℝ) : EReal))
    (b : Fin 16) (s : Fin 325) (f : Fin 256) :
    val_main_v61 (F := Ideal) x0 x1 x2 x3 x4 x5 (ix3 b s f) = ((∑ m, L b s m * h b m f : ℝ) : EReal) := by
  rw [val_main_v61_apply, coe_sum]
  refine Finset.sum_congr rfl fun k _ => ?_
  have e1 : lidx_main_v61 (ix3 b s f) k = ix3 b s k := funext fun a => Fin.ext (by match a with | ⟨0, _⟩ => rfl | ⟨1, _⟩ => rfl | ⟨2, _⟩ => rfl)
  have e2 : ridx_main_v61 (ix3 b s f) k = ix3 b k f := funext fun a => Fin.ext (by match a with | ⟨0, _⟩ => rfl | ⟨1, _⟩ => rfl | ⟨2, _⟩ => rfl)
  rw [e1, e2, hL, hh, EReal.coe_mul]

/-- The Laplacian applied twice. -/
theorem v66_value (x0 : S16x325x12x32.Idx → EReal) (x1 : S16x325x325.Idx → EReal) (x2 : S3x384x256.Idx → EReal)
    (x3 : S256.Idx → EReal) (x4 : S3x256x256.Idx → EReal) (x5 : S256.Idx → EReal)
    (L : Fin 16 → Fin 325 → Fin 325 → ℝ) (h : Fin 16 → Fin 325 → Fin 256 → ℝ)
    (hL : ∀ b s m, val_main_v17 (F := Ideal) x1 (ix3 b s m) = ((L b s m : ℝ) : EReal))
    (hh : ∀ b s f, val_main_v57 (F := Ideal) x0 x1 x2 x3 x4 x5 (ix3 b s f) = ((h b s f : ℝ) : EReal))
    (b : Fin 16) (s : Fin 325) (f : Fin 256) :
    val_main_v66 (F := Ideal) x0 x1 x2 x3 x4 x5 (ix3 b s f)
      = ((∑ m, L b s m * (∑ m', L b m m' * h b m' f) : ℝ) : EReal) := by
  rw [val_main_v66_apply, coe_sum]
  refine Finset.sum_congr rfl fun k _ => ?_
  have e1 : lidx_main_v66 (ix3 b s f) k = ix3 b s k := funext fun a => Fin.ext (by match a with | ⟨0, _⟩ => rfl | ⟨1, _⟩ => rfl | ⟨2, _⟩ => rfl)
  have e2 : ridx_main_v66 (ix3 b s f) k = ix3 b k f := funext fun a => Fin.ext (by match a with | ⟨0, _⟩ => rfl | ⟨1, _⟩ => rfl | ⟨2, _⟩ => rfl)
  rw [e1, e2, hL, v61_value x0 x1 x2 x3 x4 x5 L h hL hh, EReal.coe_mul]

/-- The third basis term: twice the double application, less the input. -/
theorem v69_value (x0 : S16x325x12x32.Idx → EReal) (x1 : S16x325x325.Idx → EReal) (x2 : S3x384x256.Idx → EReal)
    (x3 : S256.Idx → EReal) (x4 : S3x256x256.Idx → EReal) (x5 : S256.Idx → EReal)
    (L : Fin 16 → Fin 325 → Fin 325 → ℝ) (h : Fin 16 → Fin 325 → Fin 256 → ℝ)
    (hL : ∀ b s m, val_main_v17 (F := Ideal) x1 (ix3 b s m) = ((L b s m : ℝ) : EReal))
    (hh : ∀ b s f, val_main_v57 (F := Ideal) x0 x1 x2 x3 x4 x5 (ix3 b s f) = ((h b s f : ℝ) : EReal))
    (b : Fin 16) (s : Fin 325) (f : Fin 256) :
    val_main_v69 (F := Ideal) x0 x1 x2 x3 x4 x5 (ix3 b s f)
      = ((2 * (∑ m, L b s m * (∑ m', L b m m' * h b m' f)) - h b s f : ℝ) : EReal) := by
  rw [val_main_v69_apply, val_main_v68_apply, val_main_v67_apply, val_main_cst_7_apply,
    v66_value x0 x1 x2 x3 x4 x5 L h hL hh, hh]
  simp only [Ideal.ofBits_def, Ideal.mulf_def, Ideal.subf_def]
  rw [two_lit, ← EReal.coe_mul, ← EReal.coe_sub]

/-- The input times the first weight block. -/
theorem v60_value (x0 : S16x325x12x32.Idx → EReal) (x1 : S16x325x325.Idx → EReal) (x2 : S3x384x256.Idx → EReal)
    (x3 : S256.Idx → EReal) (x4 : S3x256x256.Idx → EReal) (x5 : S256.Idx → EReal) (x6 : S3x256x128.Idx → EReal)
    (L : Fin 16 → Fin 325 → Fin 325 → ℝ) (h : Fin 16 → Fin 325 → Fin 256 → ℝ)
    (hL : ∀ b s m, val_main_v17 (F := Ideal) x1 (ix3 b s m) = ((L b s m : ℝ) : EReal))
    (hh : ∀ b s f, val_main_v57 (F := Ideal) x0 x1 x2 x3 x4 x5 (ix3 b s f) = ((h b s f : ℝ) : EReal)) (h6 : Finite x6)
    (b : Fin 16) (s : Fin 325) (o : Fin 128) :
    val_main_v60 (F := Ideal) x0 x1 x2 x3 x4 x5 x6 (ix3 b s o) = ((∑ f, h b s f * Wr x6 0 f o : ℝ) : EReal) := by
  rw [val_main_v60_apply, coe_sum]
  refine Finset.sum_congr rfl fun k _ => ?_
  have e1 : lidx_main_v60 (ix3 b s o) k = ix3 b s k := funext fun a => Fin.ext (by match a with | ⟨0, _⟩ => rfl | ⟨1, _⟩ => rfl | ⟨2, _⟩ => rfl)
  have e2 : ridx_main_v60 (ix3 b s o) k = ix2 k o := funext fun a => Fin.ext (by match a with | ⟨0, _⟩ => rfl | ⟨1, _⟩ => rfl)
  rw [e1, e2, hh, w0_value, w_coe x6 h6, EReal.coe_mul]

/-- The once-applied term times the second weight block. -/
theorem v64_value (x0 : S16x325x12x32.Idx → EReal) (x1 : S16x325x325.Idx → EReal) (x2 : S3x384x256.Idx → EReal)
    (x3 : S256.Idx → EReal) (x4 : S3x256x256.Idx → EReal) (x5 : S256.Idx → EReal) (x6 : S3x256x128.Idx → EReal)
    (L : Fin 16 → Fin 325 → Fin 325 → ℝ) (h : Fin 16 → Fin 325 → Fin 256 → ℝ)
    (hL : ∀ b s m, val_main_v17 (F := Ideal) x1 (ix3 b s m) = ((L b s m : ℝ) : EReal))
    (hh : ∀ b s f, val_main_v57 (F := Ideal) x0 x1 x2 x3 x4 x5 (ix3 b s f) = ((h b s f : ℝ) : EReal)) (h6 : Finite x6)
    (b : Fin 16) (s : Fin 325) (o : Fin 128) :
    val_main_v64 (F := Ideal) x0 x1 x2 x3 x4 x5 x6 (ix3 b s o)
      = ((∑ f, (∑ m, L b s m * h b m f) * Wr x6 1 f o : ℝ) : EReal) := by
  rw [val_main_v64_apply, coe_sum]
  refine Finset.sum_congr rfl fun k _ => ?_
  have e1 : lidx_main_v64 (ix3 b s o) k = ix3 b s k := funext fun a => Fin.ext (by match a with | ⟨0, _⟩ => rfl | ⟨1, _⟩ => rfl | ⟨2, _⟩ => rfl)
  have e2 : ridx_main_v64 (ix3 b s o) k = ix2 k o := funext fun a => Fin.ext (by match a with | ⟨0, _⟩ => rfl | ⟨1, _⟩ => rfl)
  rw [e1, e2, v61_value x0 x1 x2 x3 x4 x5 L h hL hh, w1_value, w_coe x6 h6, EReal.coe_mul]

/-- The third basis term times the third weight block. -/
theorem v72_value (x0 : S16x325x12x32.Idx → EReal) (x1 : S16x325x325.Idx → EReal) (x2 : S3x384x256.Idx → EReal)
    (x3 : S256.Idx → EReal) (x4 : S3x256x256.Idx → EReal) (x5 : S256.Idx → EReal) (x6 : S3x256x128.Idx → EReal)
    (L : Fin 16 → Fin 325 → Fin 325 → ℝ) (h : Fin 16 → Fin 325 → Fin 256 → ℝ)
    (hL : ∀ b s m, val_main_v17 (F := Ideal) x1 (ix3 b s m) = ((L b s m : ℝ) : EReal))
    (hh : ∀ b s f, val_main_v57 (F := Ideal) x0 x1 x2 x3 x4 x5 (ix3 b s f) = ((h b s f : ℝ) : EReal)) (h6 : Finite x6)
    (b : Fin 16) (s : Fin 325) (o : Fin 128) :
    val_main_v72 (F := Ideal) x0 x1 x2 x3 x4 x5 x6 (ix3 b s o)
      = ((∑ f, (2 * (∑ m, L b s m * (∑ m', L b m m' * h b m' f)) - h b s f) * Wr x6 2 f o : ℝ) : EReal) := by
  rw [val_main_v72_apply, coe_sum]
  refine Finset.sum_congr rfl fun k _ => ?_
  have e1 : lidx_main_v72 (ix3 b s o) k = ix3 b s k := funext fun a => Fin.ext (by match a with | ⟨0, _⟩ => rfl | ⟨1, _⟩ => rfl | ⟨2, _⟩ => rfl)
  have e2 : ridx_main_v72 (ix3 b s o) k = ix2 k o := funext fun a => Fin.ext (by match a with | ⟨0, _⟩ => rfl | ⟨1, _⟩ => rfl)
  rw [e1, e2, v69_value x0 x1 x2 x3 x4 x5 L h hL hh, w2_value, w_coe x6 h6, EReal.coe_mul]

/-- The third layer over any real Laplacian and real input: the three products summed, plus the bias. -/
theorem v76_value (x0 : S16x325x12x32.Idx → EReal) (x1 : S16x325x325.Idx → EReal) (x2 : S3x384x256.Idx → EReal)
    (x3 : S256.Idx → EReal) (x4 : S3x256x256.Idx → EReal) (x5 : S256.Idx → EReal) (x6 : S3x256x128.Idx → EReal) (x7 : S128.Idx → EReal)
    (L : Fin 16 → Fin 325 → Fin 325 → ℝ) (h : Fin 16 → Fin 325 → Fin 256 → ℝ)
    (hL : ∀ b s m, val_main_v17 (F := Ideal) x1 (ix3 b s m) = ((L b s m : ℝ) : EReal))
    (hh : ∀ b s f, val_main_v57 (F := Ideal) x0 x1 x2 x3 x4 x5 (ix3 b s f) = ((h b s f : ℝ) : EReal)) (h6 : Finite x6) (h7 : Finite x7)
    (b : Fin 16) (s : Fin 325) (o : Fin 128) :
    val_main_v76 (F := Ideal) x0 x1 x2 x3 x4 x5 x6 x7 (ix3 b s o)
      = ((Spec.layerRef (L b) (h b) (Wr x6) (br x7) s o : ℝ) : EReal) := by
  rw [val_main_v76_apply, val_main_v73_apply, val_main_v65_apply,
    v60_value x0 x1 x2 x3 x4 x5 x6 L h hL hh h6, v64_value x0 x1 x2 x3 x4 x5 x6 L h hL hh h6,
    v72_value x0 x1 x2 x3 x4 x5 x6 L h hL hh h6, bias_value, b_coe x7 h7]
  simp only [Ideal.addf_def]
  rw [← EReal.coe_add, ← EReal.coe_add, ← EReal.coe_add]
  rfl

end L3

/-- The reference's result array is `G` of the arguments. -/
theorem result_value (x0 : S16x325x12x32.Idx → EReal) (x1 : S16x325x325.Idx → EReal) (x2 : S3x384x256.Idx → EReal) (x3 : S256.Idx → EReal) (x4 : S3x256x256.Idx → EReal) (x5 : S256.Idx → EReal) (x6 : S3x256x128.Idx → EReal) (x7 : S128.Idx → EReal)
    (h0 : Finite x0) (h1 : Finite x1) (h2 : Finite x2) (h3 : Finite x3) (h4 : Finite x4) (h5 : Finite x5)
    (h6 : Finite x6) (h7 : Finite x7) :
    val_main_v76 (F := Ideal) x0 x1 x2 x3 x4 x5 x6 x7 = G x0 x1 x2 x3 x4 x5 x6 x7 := by
  funext i
  obtain ⟨b, s, o, rfl⟩ : ∃ b s o, i = ix3 b s o := ⟨i 0, i 1, i 2, eq_ix3 i⟩
  rw [Result.G_apply]
  exact L3.v76_value x0 x1 x2 x3 x4 x5 x6 x7 (fun b => Spec.lap (Ar x1 b))
    (fun b => Spec.hid (Spec.layerRef (Spec.lap (Ar x1 b))
      (Spec.hid (Spec.layerRef (Spec.lap (Ar x1 b)) (Xr x0 b) (Wr x2) (br x3))) (Wr x4) (br x5)))
    (fun b s m => lap_value x1 h1 b s m)
    (fun b s f => layer2_value x0 x1 x2 x3 x4 x5 h0 h1 h2 h3 h4 h5 b s f) h6 h7 b s o

end Cert.ReferenceIdeal.RefValue

end
-- ==== Proof.PreFinite.lean ====
/-
  The precondition says every entry of every argument array is a real number.

  The printed predicate is, array by array, "`|x| < +∞` at every index", all eight conjoined. An
  extended real whose absolute value is below `+∞` is neither `+∞` nor `−∞`.
-/
import proofs.«129663_g81071802679316_cont_sun_m_195_35_alg».proof.Pre_finite_inputs
import proofs.«129663_g81071802679316_cont_sun_m_195_35_alg».proof.Proof.Gen.Pre_finite_inputs
import proofs.«129663_g81071802679316_cont_sun_m_195_35_alg».proof.Proof.Result
import Idealize.ShloMosaic.Lib.ReduceAll
import Idealize.ShloMosaic.PureOps.Ideal.Laws

noncomputable section

namespace Cert.PreFin

open Cert.Pre_finite_inputs Cert.Pre_finite_inputs.Gen
open Idealize.ShloMosaic Idealize.ShloMosaic.ValueIdx
open Cert.Result (Finite)

/-- The scalar shape has exactly one index. -/
instance : Subsingleton S_.Idx := ⟨fun a b => funext fun d => d.elim0⟩

/-- The word `0x7F800000` denotes `+∞`. -/
theorem inf_word : Ideal.ofBits .f32 0x7F800000#32 = (⊤ : EReal) := by simp [Ideal.ofBits, Ideal.ieee]

/-- An extended real whose absolute value `max x (−x)` is below `+∞` is neither infinity: at `x = +∞` the
    maximum is `+∞` through its first argument, at `x = −∞` through its second. -/
theorem ne_of_abs_lt_top (x : EReal) (h : max x (-x) < ⊤) : x ≠ ⊤ ∧ x ≠ ⊥ := by
  constructor
  · rintro rfl; simp at h
  · rintro rfl; simp at h

/-- One element of the compared array: a 1 from `|x| < +∞` says `x` is a real number. -/
theorem elem_real (x : EReal)
    (h : Ideal.cmp .olt (max x (-x)) (Ideal.ofBits .f32 0x7F800000#32) = 1#1) : x ≠ ⊤ ∧ x ≠ ⊥ := by
  rw [inf_word] at h
  refine ne_of_abs_lt_top x ?_
  by_contra hn
  simp [Ideal.cmp, hn] at h

/-- One array: if the conjunction over all indices of `|x i| < +∞` is 1, every entry is a real number. -/
theorem finite_of_all {s : Shape} {axes : List (Fin s.rank)} (x : s.Idx → EReal)
    (hb : S_.BroadcastsInDim s (![] : Fin 0 → Fin s.rank)) (hr : s.ReducesTo axes S_) (hu : 0 < S_.numel)
    (init : IVec S_ 1) (j : S_.Idx)
    (e : Host.reduce IntOp.andi
          (cmpf .olt (Host.absf (F := Ideal) (φ := .f32) x)
            (broadcastInDim s ![] hb (constant (F := Ideal) S_ .f32 0x7F800000#32))) init hr hu j = 1#1) :
    Finite x := by
  intro i
  exact elem_real (x i) (Host.reduce_andi_all _ init hr hu j e i)

/-- All ones from the predicate means all eight arrays hold real numbers only: the predicate's single entry is the
    conjunction of the eight per-array conjunctions, so each of them is 1, and each gives its array's finiteness. -/
theorem finite_of_pre (x0 : S16x325x12x32.Idx → EReal) (x1 : S16x325x325.Idx → EReal) (x2 : S3x384x256.Idx → EReal)
    (x3 : S256.Idx → EReal) (x4 : S3x256x256.Idx → EReal) (x5 : S256.Idx → EReal) (x6 : S3x256x128.Idx → EReal)
    (x7 : S128.Idx → EReal)
    (h : Cert.Pre_finite_inputs.fn (F := Ideal) x0 x1 x2 x3 x4 x5 x6 x7 = fun _ => 1#1) :
    Finite x0 ∧ Finite x1 ∧ Finite x2 ∧ Finite x3 ∧ Finite x4 ∧ Finite x5 ∧ Finite x6 ∧ Finite x7 := by
  have h0 := congrFun h ix0
  dsimp only [fn, fn_part1, fn_part2, andi] at h0
  simp only [IntOp.andi_eq_one] at h0
  obtain ⟨⟨⟨⟨⟨⟨⟨e0, e1⟩, e2⟩, e3⟩, e4⟩, e5⟩, e6⟩, e7⟩ := h0
  exact ⟨finite_of_all x0 _ _ _ _ _ e0, finite_of_all x1 _ _ _ _ _ e1, finite_of_all x2 _ _ _ _ _ e2,
    finite_of_all x3 _ _ _ _ _ e3, finite_of_all x4 _ _ _ _ _ e4, finite_of_all x5 _ _ _ _ _ e5,
    finite_of_all x6 _ _ _ _ _ e6, finite_of_all x7 _ _ _ _ _ e7⟩

end Cert.PreFin

end
-- ==== Proof.lean ====
/-
  The certificate of a fused three-layer Chebyshev graph net against its reference.

  Both programs compute, for each of sixteen graphs, the scaled Laplacian `L = −D^{-1/2} A D^{-1/2}` of the
  graph's adjacency matrix and three layers `x·W 0 + (L x)·W 1 + (2 L (L x) − x)·W 2 + b` with `max(·, 0)`
  after the first two. The kernel projects first — `p = x·[W 0 − W 2 | W 1 | W 2]`, then
  `p₀ + L·(p₁ + 2 L·p₂) + b` — eight graphs per grid step, the hidden layers kept in two scratch buffers
  whose padding rows it never writes and never reads a kept value from. Over the reals the two
  arrangements are one function (matrix products associate and distribute); the precondition makes every
  argument entry a real number, so at the exact reading of floats both programs end at `Result.G` of the
  arguments. The frames: each program runs to its end without a fault and leaves its arguments as launched.
-/
import proofs.«129663_g81071802679316_cont_sun_m_195_35_alg».proof.Defs
import proofs.«129663_g81071802679316_cont_sun_m_195_35_alg».proof.Proof.Gen.Kernel
import proofs.«129663_g81071802679316_cont_sun_m_195_35_alg».proof.Proof.Gen.KernelIdeal
import proofs.«129663_g81071802679316_cont_sun_m_195_35_alg».proof.Proof.Gen.ReferenceIdeal
import proofs.«129663_g81071802679316_cont_sun_m_195_35_alg».proof.Proof.Gen.Pre_finite_inputs
import proofs.«129663_g81071802679316_cont_sun_m_195_35_alg».proof.Proof.KernelFrame
import proofs.«129663_g81071802679316_cont_sun_m_195_35_alg».proof.Proof.KernelIdealValue
import proofs.«129663_g81071802679316_cont_sun_m_195_35_alg».proof.Proof.RefLayer3
import proofs.«129663_g81071802679316_cont_sun_m_195_35_alg».proof.Proof.PreFinite
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs and keeps its arguments. -/
theorem frame_k : Cert.frame_Kernel := fun m ρ _ => Cert.Kernel.Body.frame m ρ

/-- The idealized kernel runs and keeps its arguments. -/
theorem frame_ki : Cert.frame_KernelIdeal := fun m ρ _ => Cert.KernelIdeal.Body.frame m ρ

/-- The reference runs and keeps its arguments: its run, the result forgotten. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- The precondition: every argument entry, on every core, is a real number. -/
theorem finArgs (m : (ℓ : Loc Cert.KernelIdeal.nD Cert.KernelIdeal.τ Cert.KernelIdeal.sig) → Buf (Elt Ideal) ℓ)
    (hpre : Cert.Pre_KernelIdeal m) : Cert.KernelIdeal.Body.FinArgs m := by
  have h := fun c => Cert.PreFin.finite_of_pre _ _ _ _ _ _ _ _ (hpre c)
  exact ⟨fun c => (h c).1, fun c => (h c).2.1, fun c => (h c).2.2.1, fun c => (h c).2.2.2.1, fun c => (h c).2.2.2.2.1,
    fun c => (h c).2.2.2.2.2.1, fun c => (h c).2.2.2.2.2.2.1, fun c => (h c).2.2.2.2.2.2.2⟩

open Cert.KernelIdeal Cert.KernelIdeal.Gen Cert.KernelIdeal.Body in
/-- The idealized kernel ends with its output array at `G` of the arguments, the arguments as launched. -/
theorem kernel_run (m : (ℓ : Loc nD τ sig) → Buf (Elt Ideal) ℓ) (ρ : Dev nD → PrngReg) (hfin : FinArgs m) :
    θ_run (defs (F := Ideal)) (onTc (τ := τ) (main (F := Ideal))) ⟨m, fun _ => 0, ρ⟩ (fun r => ∀ c : Dev nD,
      r.2.mem ((c.tc : Thread nD τ).loc main_v38) = Gm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 8).trans (final8 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 3).trans (((datsV m 0 c).arrAt_in 3 rfl _).trans ((AV_eq m c 3).trans (V_main_arg3 m c))),
      ((h c).2 main_arg4 (Pipeline.mem_restRefs_of main_arg4 (by decide) (by decide))).trans (V_main_arg4 m c),
      ((h c).1 5).trans (((datsV m 0 c).arrAt_in 5 rfl _).trans ((AV_eq m c 5).trans (V_main_arg5 m c))),
      ((h c).2 main_arg6 (Pipeline.mem_restRefs_of main_arg6 (by decide) (by decide))).trans (V_main_arg6 m c),
      ((h c).1 7).trans (((datsV m 0 c).arrAt_in 7 rfl _).trans ((AV_eq m c 7).trans (V_main_arg7 m c)))⟩)
    (run_mainV m ρ hfin)

/-- Run from memories that agree on the arguments, the two idealized programs end with one result. -/
theorem algebraic : Cert.algebraic_KernelIdeal_ReferenceIdeal := by
  intro m ρ m' ρ' hpre hagree
  have hfin := finArgs m hpre
  refine ⟨fun c => Cert.KernelIdeal.Body.Gm m c, kernel_run m ρ hfin, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5, a6, a7⟩ := hagree c
  rw [Cert.ReferenceIdeal.ReadP.val_main_v76_eq, a0, a1, a2, a3, a4, a5, a6, a7]
  exact Cert.ReferenceIdeal.RefValue.result_value _ _ _ _ _ _ _ _ (hfin.h0 c) (hfin.h1 c) (hfin.h2 c) (hfin.h3 c)
    (hfin.h4 c) (hfin.h5 c) (hfin.h6 c) (hfin.h7 c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
